-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2048x1280 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S2x640000 32) (main_v13 : IVec S_ 1) (main_v15 : IVec S640000 32) (main_v16 : IVec S640000 32) : IVec S_ 1 :=
  let main_v17 : IVec S640000 1 := cmpi .sge main_v15 main_v16
  let main_c_5 : IVec S_ 1 := constantI S_ 1 1#1
  let main_v18 : IVec S_ 1 := (fun x v => Host.reduce IntOp.andi x v reducesTo_S640000_S_d0 h_S_) main_v17 main_c_5
  let main_v19 : IVec S_ 1 := andi main_v13 main_v18
  let main_v20 : IVec S1x640000 32 := (extractStridedSlice S1x640000 ![0, 0] · slices_S2x640000_S1x640000_0_0) main_arg1
  let main_v21 : IVec S640000 32 := shapeCast S640000 main_v20 shapeCasts_S1x640000_S640000
  let main_c_6 : IVec S_ 32 := constantI S_ 32 40000#32
  let main_v22 : IVec S640000 32 := broadcastInDim S640000 ![] bcast_S_S640000 main_c_6
  let main_v23 : IVec S640000 1 := cmpi .slt main_v21 main_v22
  let main_c_7 : IVec S_ 1 := constantI S_ 1 1#1
  let main_v24 : IVec S_ 1 := (fun x v => Host.reduce IntOp.andi x v reducesTo_S640000_S_d0 h_S_) main_v23 main_c_7
  let main_v25 : IVec S_ 1 := andi main_v19 main_v24
  main_v25

def fn {F : FTy → Type} [FloatOps F] (main_arg0 : FVec F S40000x128 .f32) (main_arg1 : IVec S2x640000 32) (main_arg2 : FVec F S128x128 .f32) (main_arg3 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x640000 32 := (extractStridedSlice S1x640000 ![0, 0] · slices_S2x640000_S1x640000_0_0) main_arg1
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_arg1 main_v13 main_v15 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S40960x128 : Shape := ⟨2, ![40960, 128]⟩
abbrev S1x128 : Shape := ⟨2, ![1, 128]⟩
abbrev S2048x128 : Shape := ⟨2, ![2048, 128]⟩
abbrev S1 : Shape := ⟨1, ![1]⟩
abbrev S960x128 : Shape := ⟨2, ![960, 128]⟩
abbrev S1x640000 : Shape := ⟨2, ![1, 640000]⟩
abbrev S640000 : Shape := ⟨1, ![640000]⟩
abbrev S640000x1 : Shape := ⟨2, ![640000, 1]⟩
abbrev S500x1x1280 : Shape := ⟨3, ![500, 1, 1280]⟩
abbrev S640000x128 : Shape := ⟨2, ![640000, 128]⟩
abbrev S1280x1 : Shape := ⟨2, ![1280, 1]⟩
abbrev S1280x128 : Shape := ⟨2, ![1280, 128]⟩
abbrev S1x2048 : Shape := ⟨2, ![1, 2048]⟩
abbrev S1280x2048 : Shape := ⟨2, ![1280, 2048]⟩
abbrev S1x1x1280 : Shape := ⟨3, ![1, 1, 1280]⟩
abbrev S2048x1 : Shape := ⟨2, ![2048, 1]⟩
abbrev S1x1280 : Shape := ⟨2, ![1, 1280]⟩
abbrev S2048x1280 : Shape := ⟨2, ![2048, 1280]⟩
abbrev S2048 : Shape := ⟨1, ![2048]⟩

abbrev nBuf : Space → Nat
  | .hbm => 25
  | .vmem => 21
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S40960x128, .f32⟩
  | .hbm, ⟨7, _⟩ => ⟨S128x128, .f32⟩
  | .hbm, ⟨8, _⟩ => ⟨S128x128, .bf16⟩
  | .hbm, ⟨9, _⟩ => ⟨S1x128, .f32⟩
  | .hbm, ⟨10, _⟩ => ⟨S40960x128, .bf16⟩
  | .hbm, ⟨11, _⟩ => ⟨S_, .i32⟩
  | .hbm, ⟨12, _⟩ => ⟨S1, .i32⟩
  | .hbm, ⟨13, _⟩ => ⟨S_, .bf16⟩
  | .hbm, ⟨14, _⟩ => ⟨S960x128, .bf16⟩
  | .hbm, ⟨15, _⟩ => ⟨S40960x128, .bf16⟩
  | .hbm, ⟨16, _⟩ => ⟨S1x640000, .i32⟩
  | .hbm, ⟨17, _⟩ => ⟨S640000, .i32⟩
  | .hbm, ⟨18, _⟩ => ⟨S640000x1, .i32⟩
  | .hbm, ⟨19, _⟩ => ⟨S1x640000, .i32⟩
  | .hbm, ⟨20, _⟩ => ⟨S640000, .i32⟩
  | .hbm, ⟨21, _⟩ => ⟨S500x1x1280, .i32⟩
  | .hbm, ⟨22, _⟩ => ⟨S640000x128, .bf16⟩
  | .hbm, ⟨23, _⟩ => ⟨S40960x128, .f32⟩
  | .hbm, ⟨24, _⟩ => ⟨S40000x128, .f32⟩
  | .local _ .vmem, ⟨0, _⟩ => ⟨S2048x128, .f32⟩
  | .local _ .vmem, ⟨1, _⟩ => ⟨S2048x128, .f32⟩
  | .local _ .vmem, ⟨2, _⟩ => ⟨S128x128, .bf16⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | .local _ .vmem, ⟨6, _⟩ => ⟨S1280x1, .i32⟩
  | .local _ .vmem, ⟨7, _⟩ => ⟨S1280x1, .i32⟩
  | .local _ .vmem, ⟨8, _⟩ => ⟨S2048x128, .bf16⟩
  | .local _ .vmem, ⟨9, _⟩ => ⟨S2048x128, .bf16⟩
  | .local _ .vmem, ⟨10, _⟩ => ⟨S1280x128, .bf16⟩
  | .local _ .vmem, ⟨11, _⟩ => ⟨S1280x128, .bf16⟩
  | .local _ .vmem, ⟨12, _⟩ => ⟨S1280x128, .f32⟩
  | .local _ .vmem, ⟨13, _⟩ => ⟨S1x1x1280, .i32⟩
  | .local _ .vmem, ⟨14, _⟩ => ⟨S1x1x1280, .i32⟩
  | .local _ .vmem, ⟨15, _⟩ => ⟨S1280x128, .bf16⟩
  | .local _ .vmem, ⟨16, _⟩ => ⟨S1280x128, .bf16⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc2_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![500, 20], ![false, false]⟩

def k1_cond2 (i : grid1.Coords) : BitVec 1 :=
  let arg1 : BitVec 32 := BitVec.ofNat 32 (i 1).val
  let c19_i32 : BitVec 32 := 19#32
  let v23 : BitVec 1 := Scalar.cmpi .eq arg1 c19_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1280x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![20, 500], ![false, false]⟩

def k2_cond2 (i : grid2.Coords) : BitVec 1 :=
  let arg1 : BitVec 32 := BitVec.ofNat 32 (i 1).val
  let c499_i32 : BitVec 32 := 499#32
  let v31 : BitVec 1 := Scalar.cmpi .eq arg1 c499_i32
  let v32 : BitVec 32 := Scalar.extui v31
  let c0_i32_14 : BitVec 32 := 0#32
  let v33 : BitVec 1 := Scalar.cmpi .ne v32 c0_i32_14
  v33

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1x1280 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1280x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  pads_S40000x128_S40960x128_09600_000 : S40000x128.Pads (![0, 0] : Fin 2 → Nat) ![960, 0] ![0, 0] S40960x128
  h_S_ : 0 < S_.numel
  transposes_S128x128_S128x128_1_0 : S128x128.Transposes [1, 0] S128x128
  bitsLt_bf16_f32 : FTy.bits .bf16 < FTy.bits .f32
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  packedbf16_S2048x128_S2048x128_0_0 : (Rect.unit (s := S2048x128) ![0, 0] S2048x128.size inb_S2048x128_S2048x128_0_0).PackedRows (EltTy.packing .bf16)
  bcast_S_S1 : S_.BroadcastsInDim S1 (![] : Fin 0 → Fin S1.rank)
  bcast_S_S960x128 : S_.BroadcastsInDim S960x128 (![] : Fin 0 → Fin S960x128.rank)
  slices_S2x640000_S1x640000_0_0 : S2x640000.Slices ![0, 0] S1x640000
  shapeCasts_S1x640000_S640000 : S1x640000.ShapeCasts S640000
  shapeCasts_S640000_S640000x1 : S640000.ShapeCasts S640000x1
  slices_S2x640000_S1x640000_1_0 : S2x640000.Slices ![1, 0] S1x640000
  shapeCasts_S640000_S500x1x1280 : S640000.ShapeCasts S500x1x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  iota_S1x2048_d1_w32 : S1x2048.Iotas .tc 32 [1]
  broadcasts_S1280x1_S1280x2048 : S1280x1.Broadcasts S1280x2048
  broadcasts_S1x2048_S1280x2048 : S1x2048.Broadcasts S1280x2048
  natLt_1_32 : 1 < 32
  packedbf16_S1280x128_S1280x128_0_0 : (Rect.unit (s := S1280x128) ![0, 0] S1280x128.size inb_S1280x128_S1280x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1x1280_S1x1x1280_0_0_0 : ∀ a, (![0, 0, 0] : Fin 3 → Nat) a + S1x1x1280.size a ≤ S1x1x1280.size a
  h_S1x1x1280 : 0 < S1x1x1280.numel
  shapeCasts_S1x1x1280_S1x1280 : S1x1x1280.ShapeCasts S1x1280
  iota_S2048x1_d0_w32 : S2048x1.Iotas .tc 32 [0]
  broadcasts_S2048x1_S2048x1280 : S2048x1.Broadcasts S2048x1280
  broadcasts_S1x1280_S2048x1280 : S1x1280.Broadcasts S2048x1280
  reduces_S2048x1280_S2048 : S2048x1280.Reduces [1] S2048
  shapeCasts_S2048_S2048x1 : S2048.ShapeCasts S2048x1
  broadcasts_S2048x1_S2048x128 : S2048x1.Broadcasts S2048x128
  slices_S40960x128_S40000x128_0_0 : S40960x128.Slices ![0, 0] S40000x128
  dot_S2048x128_S128x128_S2048x128_1_0_0_1_n_n_wf : DotDims.WF S2048x128 S128x128 S2048x128 [1] [0] [0] [1] [] []
  scatter_S40960x128_S1_S960x128_01_n_0_0_wf : ScatterDims.WF S40960x128 S1 S960x128 [0, 1] [] [0] 0
  dot_S1280x2048_S2048x128_S1280x128_1_0_0_1_n_n_wf : DotDims.WF S1280x2048 S2048x128 S1280x128 [1] [0] [0] [1] [] []
  dot_S2048x1280_S1280x128_S2048x128_1_0_0_1_n_n_wf : DotDims.WF S2048x1280 S1280x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S40960x128.size a
  hwx0_0 : ∀ i : grid0.Coords, EltTy.bits .f32 = 32 ∨ (Rect.block (s := S40960x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S40960x128.size a
  hwx0_3 : ∀ i : grid0.Coords, EltTy.bits .bf16 = 32 ∨ (Rect.block (s := S40960x128) S2048x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x1.size a ≤ S640000x1.size a
  hwx1_0 : ∀ i : grid1.Coords, EltTy.bits .i32 = 32 ∨ (Rect.block (s := S640000x1) S1280x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S40960x128.size a
  hwx1_1 : ∀ i : grid1.Coords, EltTy.bits .bf16 = 32 ∨ (Rect.block (s := S40960x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x128.size a ≤ S640000x128.size a
  hwx1_2 : ∀ i : grid1.Coords, EltTy.bits .bf16 = 32 ∨ (Rect.block (s := S640000x128) S1280x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x1280.size a ≤ S500x1x1280.size a
  hwx2_0 : ∀ i : grid2.Coords, EltTy.bits .i32 = 32 ∨ (Rect.block (s := S500x1x1280) S1x1x1280.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x128.size a ≤ S640000x128.size a
  hwx2_1 : ∀ i : grid2.Coords, EltTy.bits .bf16 = 32 ∨ (Rect.block (s := S640000x128) S1280x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S40960x128.size a
  hwx2_2 : ∀ i : grid2.Coords, EltTy.bits .f32 = 32 ∨ (Rect.block (s := S40960x128) S2048x128.size (cc2_transform_2 i) (hinb2_2 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S40960x128_S1_S960x128_01_n_0_0 : ScatterDims S40960x128 S1 S960x128 where
  updateWindowDims := [0, 1]
  insertedWindowDims := []
  scatterDimsToOperandDims := [0]
  indexVectorDim := 0
  wf := scatter_S40960x128_S1_S960x128_01_n_0_0_wf
def dot_S1280x2048_S2048x128_S1280x128_1_0_0_1_n_n : DotDims S1280x2048 S2048x128 S1280x128 where
  lhsContracting := [1]
  rhsContracting := [0]
  lhsNonContracting := [0]
  rhsNonContracting := [1]
  lhsBatch := []
  rhsBatch := []
  wf := dot_S1280x2048_S2048x128_S1280x128_1_0_0_1_n_n_wf
def dot_S2048x1280_S1280x128_S2048x128_1_0_0_1_n_n : DotDims S2048x1280 S1280x128 S2048x128 where
  lhsContracting := [1]
  rhsContracting := [0]
  lhsNonContracting := [0]
  rhsNonContracting := [1]
  lhsBatch := []
  rhsBatch := []
  wf := dot_S2048x1280_S1280x128_S2048x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1280x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1280x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v13) S1x1x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1280x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S40000 : Shape := ⟨1, ![40000]⟩
abbrev S40000x1 : Shape := ⟨2, ![40000, 1]⟩

abbrev nBuf : Space → Nat
  | .hbm => 38
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S128x128, .f32⟩
  | .hbm, ⟨18, _⟩ => ⟨S640000x128, .f32⟩
  | .hbm, ⟨19, _⟩ => ⟨S1x128, .f32⟩
  | .hbm, ⟨20, _⟩ => ⟨S640000x128, .f32⟩
  | .hbm, ⟨21, _⟩ => ⟨S640000x128, .f32⟩
  | .hbm, ⟨22, _⟩ => ⟨S_, .f32⟩
  | .hbm, ⟨23, _⟩ => ⟨S40000x128, .f32⟩
  | .hbm, ⟨24, _⟩ => ⟨S640000x1, .i32⟩
  | .hbm, ⟨25, _⟩ => ⟨S40000x128, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S40000, .f32⟩
  | .hbm, ⟨30, _⟩ => ⟨S640000x1, .i32⟩
  | .hbm, ⟨31, _⟩ => ⟨S40000, .f32⟩
  | .hbm, ⟨32, _⟩ => ⟨S_, .f32⟩
  | .hbm, ⟨33, _⟩ => ⟨S40000, .f32⟩
  | .hbm, ⟨34, _⟩ => ⟨S40000, .f32⟩
  | .hbm, ⟨35, _⟩ => ⟨S40000x1, .f32⟩
  | .hbm, ⟨36, _⟩ => ⟨S40000x128, .f32⟩
  | .hbm, ⟨37, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.KI.Reg0.lean ====
/- Region 0 (the linear layer): on each block of 2048 node rows the body stores x_blk · Wᵀ + b, one grid point per block,
   nothing carried between points. What each window's buffer holds after the body, and the body's triple at every point. -/
import proofs.«412787_j352187319219_2_alg».proof.Proof.Gen.KernelIdeal.Launch
import proofs.«412787_j352187319219_2_alg».proof.Proof.Gen.KernelIdeal.Skeleton
import proofs.«412787_j352187319219_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output's buffer at point t: the node block times the transposed weights, plus the bias row. -/
def out0 (c : Dev nD) (t : Fin cfg0.N) : Vec F S2048x128 .bf16 :=
  k0_pay1 (iblk0 V c 0 t) (iblk0 V c 1 t) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0 V c t := by dsimp only [dat0]

/-! ## The inputs' buffers hold their blocks at every point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The node block is fetched at every point; an input the body leaves in place holds its block wherever it is found. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The transposed weights are fetched at the first point only: their block index never moves, the body leaves the
    buffer as found, so every later point finds the same block. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The same for the bias row. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body on whole staging buffers -/

/-- The offsets of the body's accesses, all at the origin. -/
theorem offs0_zero : (![0, 0] : Fin 2 → ℕ) = fun _ => 0 := by
  funext a; fin_cases a <;> rfl

/-- A load through the whole rectangle at the origin reads the buffer's contents: the node block, -/
theorem ld0_0 (X : Vec F S2048x128 .f32) :
    View.ld X (Rect.unit (s := S2048x128) ![0, 0] S2048x128.size inb_S2048x128_S2048x128_0_0) = X :=
  View.ld_unit_zero (S := S2048x128) offs0_zero _ X
/-- the transposed weights, -/
theorem ld0_1 (X : Vec F S128x128 .bf16) :
    View.ld X (Rect.unit (s := S128x128) ![0, 0] S128x128.size inb_S128x128_S128x128_0_0) = X :=
  View.ld_unit_zero (S := S128x128) offs0_zero _ X
/-- the bias row. -/
theorem ld0_2 (X : Vec F S1x128 .f32) :
    View.ld X (Rect.unit (s := S1x128) ![0, 0] S1x128.size inb_S1x128_S1x128_0_0) = X :=
  View.ld_unit_zero (S := S1x128) offs0_zero _ X

/-- One store through the whole rectangle at the origin covers the output's buffer (the one block of the buffer's own
    size, struck off by evaluation), -/
theorem cover0_3 (p : Vec F S2048x128 .bf16) (y : S2048x128.Idx) :
    ∃ pc ∈ ([⟨Rect.unit (s := S2048x128) ![0, 0] S2048x128.size inb_S2048x128_S2048x128_0_0, p⟩] :
      List (View.Piece (Elt F) S2048x128 .bf16)), y ∈ pc.1.set :=
  View.cover_of_tiledL _ S2048x128.size (by sl_kernel_rfl) y

/-- so the buffer then reads the stored value, whatever it held before. -/
theorem stored0_3 {κ : Kind} {sp : Space} (v : View sig κ sp S2048x128 .bf16) (f : v.ty.Contents (Elt F)) (p : Vec F S2048x128 .bf16) :
    v.read (Elt F) (v.writes (Elt F) f
      [⟨Rect.unit (s := S2048x128) ![0, 0] S2048x128.size inb_S2048x128_S2048x128_0_0, p⟩]) = p := by
  rw [View.read_writes_eq_canon _ _ _ (cover0_3 p)]
  exact View.canon_unit_zero (S := S2048x128) offs0_zero inb_S2048x128_S2048x128_0_0 p

/-- With the three inputs' buffers reading x0 (node block), x1 (transposed weights) and x2 (bias row) and the output's
    buffer at anything, the body reads each input whole, reads the output's buffer (a value nothing uses), and stores
    x0 · x1 + x2, rounded, over the whole output buffer: the inputs are left as found and the output reads that value,
    whatever it held before (one store over every index). -/
theorem sound_kernel0 (c : Dev nD) (E : Set ℕ) (i : grid0.Coords)
    (arg1 : Memref sig .tc .vmem S2048x128 .f32) (harg1 : arg1.IsWhole)
    (arg2 : Memref sig .tc .vmem S128x128 .bf16) (harg2 : arg2.IsWhole)
    (arg3 : Memref sig .tc .vmem S1x128 .f32) (harg3 : arg3.IsWhole)
    (arg4 : Memref sig .tc .vmem S2048x128 .bf16) (harg4 : arg4.IsWhole)
    (x0 : Vec F S2048x128 .f32) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the output reads back the stored value, and each load read its buffer's contents
  rw [stored0_3, View.readAt_eq_ld, View.readAt_eq_ld, View.readAt_eq_ld, ld0_0, ld0_1, ld0_2]

/-! ## The body obligation, at a generic point -/

/-- What the body is called with at point t: the class's invariant, what the core owes, and each window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three inputs' buffers hold their blocks, so the body's triple applies; the invariant (every other
    region's buffers, the generator register) and the debt pass through unread: nothing is carried between points. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its windows written out one by one are the triple above. -/
theorem body_obligation0 (c : Dev nD) : BodyObligation (dat0 (F := F) V c) (defs₀ (F := F)) Variants.none () Set.univ := fun t => by
  rw [bigSep_W0, bigSep_W0]
  exact sound_body0 V c t

/-- The invariant is the class's at every point: what the launch hands the region is the invariant before the first point, -/
theorem hin0 (c : Dev nD) : Pipeline.ΦA spec0 c ⊢ (dat0 V c).Φ 0 := by
  show Pipeline.ΦA spec0 c ⊢ Pipeline.ΦA spec0 c
  exact Idealize.SL.BI.Entails.refl _

/-- and the invariant after the last point is what the region hands back. -/
theorem hout0 (c : Dev nD) : (dat0 V c).Φ (Fin.last cfg0.N) ⊢ Pipeline.ΦA spec0 c := by
  show Pipeline.ΦA spec0 c ⊢ Pipeline.ΦA spec0 c
  exact Idealize.SL.BI.Entails.refl _

end Cert.KernelIdeal.Hand

end
-- ==== Proof.KI.Reg1.lean ====
/- Region 1 (the gather): for an edge block i the scratch accumulates, over the 20 node blocks j, the product of the
   one-hot matrix (source of edge r is node j·2048 + n) with node block j of h; it is reset at j = 0 and stored to the
   output block at j = 19. What the scratch holds after each point, the proof data, and the body's triple at every point. -/
import proofs.«412787_j352187319219_2_alg».proof.Proof.Gen.KernelIdeal.Launch
import proofs.«412787_j352187319219_2_alg».proof.Proof.Gen.KernelIdeal.Skeleton
import proofs.«412787_j352187319219_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch, a whole scoped buffer. -/
abbrev scM1 : Memref sig .tc .vmem S1280x128 .f32 := Memref.whole cc1_scratch0

/-- What the accumulator holds after the body at position n: this point's one-hot product added to the zero block at
    the first node block of an edge block (n ≡ 0 mod 20), to what the point before left otherwise. -/
def acc1 (c : Dev nD) : (n : ℕ) → n < cfg1.N → Vec F S1280x128 .f32
  | 0, hn => k1_pay2 (grid1.coords ⟨0, hn⟩) (iblk1 V c 0 ⟨0, hn⟩) (iblk1 V c 1 ⟨0, hn⟩) k1_pay1
  | n + 1, hn => k1_pay2 (grid1.coords ⟨n + 1, hn⟩) (iblk1 V c 0 ⟨n + 1, hn⟩) (iblk1 V c 1 ⟨n + 1, hn⟩)
      (if (n + 1) % 20 = 0 then k1_pay1 else acc1 c n (Nat.lt_of_succ_lt hn))

/-- What the body stores into the output's buffer at a point that stores it (n ≡ 19 mod 20): the accumulator. -/
def out1 (c : Dev nD) (t : Fin cfg1.N) : Vec F S1280x128 .bf16 := k1_pay3 (acc1 V c t.val t.isLt)

/-- A scoped buffer of the core held whole at some contents. -/
abbrev anyBuf1 (c : Dev nD) (b : Ref sig .tc) : sProp 𝕄 :=
  iprop(∃ f : Buf (Elt F) ((c : Thread nD τ).loc b), ((c : Thread nD τ).loc b) ↦{fullShare} f)

/-- The scoped buffers listed before the accumulator (the linear region's staging buffers), each at anything. -/
def restA1 (c : Dev nD) : sProp 𝕄 :=
  iprop(anyBuf1 (F := F) c cc0_stg0_0 ∗ anyBuf1 (F := F) c cc0_stg0_1 ∗ anyBuf1 (F := F) c cc0_stg1_0 ∗ anyBuf1 (F := F) c cc0_stg2_0
    ∗ anyBuf1 (F := F) c cc0_stg3_0 ∗ anyBuf1 (F := F) c cc0_stg3_1)

/-- The scoped buffers listed after it (the scatter region's staging buffers and its two accumulators), each at anything. -/
def restB1 (c : Dev nD) : sProp 𝕄 :=
  iprop(anyBuf1 (F := F) c cc2_stg0_0 ∗ anyBuf1 (F := F) c cc2_stg0_1 ∗ anyBuf1 (F := F) c cc2_stg1_0 ∗ anyBuf1 (F := F) c cc2_stg1_1
    ∗ anyBuf1 (F := F) c cc2_stg2_0 ∗ anyBuf1 (F := F) c cc2_stg2_1 ∗ anyBuf1 (F := F) c cc2_scratch0 ∗ anyBuf1 (F := F) c cc2_scratch1)

/-- The region invariant before position n: the class's before the first point; afterwards the accumulator at what
    the point before left, the other fourteen scoped buffers at anything, the generator register at some state. -/
def PhiS1 (c : Dev nD) : (n : ℕ) → n ≤ cfg1.N → sProp 𝕄
  | 0, _ => Pipeline.ΦA spec1 c
  | n + 1, hn => iprop(restA1 (F := F) c ∗ owns (c : Thread nD τ) scM1 fullShare (acc1 V c n hn) ∗ restB1 (F := F) c ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1 V c t := by dsimp only [dat1]

/-! ## The accumulator's recursion, read at a point -/

/-- At the first node block of an edge block the accumulator is this point's product over the zero block. -/
theorem acc1_reset (c : Dev nD) (t : Fin cfg1.N) (h : t.val % 20 = 0) :
    acc1 V c t.val t.isLt = k1_pay2 (grid1.coords t) (iblk1 V c 0 t) (iblk1 V c 1 t) k1_pay1 := by
  obtain ⟨n, hn⟩ := t
  cases n with
  | zero => rfl
  | succ n => exact congrArg (k1_pay2 _ _ _) (if_pos h)

/-- At any other node block it is this point's product over what the point before left. -/
theorem acc1_step (c : Dev nD) (t : Fin cfg1.N) (h : ¬t.val % 20 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-! ## The invariant's forms -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(restA1 (F := F) c ∗ owns (c : Thread nD τ) scM1 fullShare (acc1 V c n hn) ∗ restB1 (F := F) c ∗ ∃ r, prngReg c r) := rfl

theorem PhiS1_pos (c : Dev nD) (n : ℕ) (h : n ≤ cfg1.N) (hz : n ≠ 0) :
    PhiS1 V c n h
      = iprop(restA1 (F := F) c ∗ owns (c : Thread nD τ) scM1 fullShare (acc1 V c (n - 1) (by omega)) ∗ restB1 (F := F) c ∗ ∃ r, prngReg c r) := by
  cases n with
  | zero => exact absurd rfl hz
  | succ n => rfl

/-- The class's invariant with the accumulator taken out of the scoped rest: the fifteen scoped buffers in their listed
    order, the accumulator as a whole memref owned at some contents. -/
theorem PhiA1_open (c : Dev nD) :
    (Pipeline.ΦA spec1 c : sProp 𝕄)
      ⊢ iprop(restA1 (F := F) c ∗ (∃ d, owns (c : Thread nD τ) scM1 fullShare d) ∗ restB1 (F := F) c ∗ ∃ r, prngReg c r) := by
  unfold Pipeline.ΦA restA1 restB1; rw [scopedRest1_eq]; simp only [scM1, owns_whole]
  iintro ⟨⟨A0, A1, A2, A3, A4, A5, ⟨%f, S⟩, HB⟩, Hg⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [S]
  · iexists f; iexact S
  isplitl [HB]; · iexact HB
  iexact Hg

theorem PhiA1_close (c : Dev nD) :
    iprop(restA1 (F := F) c ∗ (∃ d, owns (c : Thread nD τ) scM1 fullShare d) ∗ restB1 (F := F) c ∗ ∃ r, prngReg c r)
      ⊢ (Pipeline.ΦA spec1 c : sProp 𝕄) := by
  unfold Pipeline.ΦA restA1 restB1; rw [scopedRest1_eq]; simp only [scM1, owns_whole]
  iintro ⟨⟨A0, A1, A2, A3, A4, A5⟩, ⟨%d, S⟩, HB, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [S]
  · iexists d; iexact S
  iexact HB

/-! ## Whole-rectangle loads and stores on a whole memref -/

/-- The zero offsets of a rank-2 shape, however they are spelt. -/
theorem zeroOff1 : (![0, 0] : Fin 2 → Nat) = fun _ => 0 := by
  funext a; fin_cases a <;> rfl

/-- A load through the whole-shape rectangle at zero offsets reads what the view reads. -/
theorem readAt_unit1 {sp : Space} {S : Shape} {e : EltTy} (v : View sig .tc sp S e) {off : Fin S.rank → Nat}
    (h : off = fun _ => 0) (inb : ∀ a, off a + S.size a ≤ S.size a) (g : v.ty.Contents (Elt F)) :
    v.readAt (Elt F) (Rect.unit off S.size inb).toLoadRect g = v.read (Elt F) g := by
  rw [View.readAt_eq_ld, View.ld_unit_zero h]

/-- So of a whole memref held at the contents that read X it reads X. -/
theorem readAt_unit1_unread {sp : Space} {S : Shape} {e : EltTy} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [readAt_unit1 _ h, hm.read_unread]

/-- A store through it, the last of a run of stores, read back, is the stored vector. -/
theorem read_writes_unit1 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-! ## The body's two conditionals, over the node-block coordinate -/

/-- The first conditional (the accumulator is reset): as the body computes it from the grid coordinates. -/
abbrev cond1_0 (i : grid1.Coords) : Prop :=
  (Scalar.cmpi .ne (Scalar.extui (Scalar.cmpi .eq (BitVec.ofNat 32 (i 1).val) 0#32)) 0#32) = 1#1
/-- The second (the accumulator is stored to the output block). -/
abbrev cond1_1 (i : grid1.Coords) : Prop := k1_cond2 i = 1#1

/-- The node-block coordinate of point t is t mod 20 (the last axis runs fastest). -/
theorem coord1_1 (t : Fin cfg1.N) : ((grid1.coords t) 1).val = t.val % 20 := by
  show t.val / 1 % 20 = t.val % 20
  rw [Nat.div_one]

theorem cond1_0_iff (i : grid1.Coords) : cond1_0 i ↔ (i 1).val = 0 := by
  unfold cond1_0; generalize i 1 = j; revert j; decide

theorem cond1_1_iff (i : grid1.Coords) : cond1_1 i ↔ (i 1).val = 19 := by
  unfold cond1_1 k1_cond2; generalize i 1 = j; revert j; decide

/-- The first holds at the points ≡ 0 (mod 20), -/
theorem hcond1_0 (t : Fin cfg1.N) : cond1_0 (grid1.coords t) ↔ t.val % 20 = 0 := by
  rw [cond1_0_iff, coord1_1]
/-- the second at the points ≡ 19 (mod 20). -/
theorem hcond1_1 (t : Fin cfg1.N) : cond1_1 (grid1.coords t) ↔ t.val % 20 = 19 := by
  rw [cond1_1_iff, coord1_1]

/-! ## Where the windows are idle -/

theorem liveAt1_0 (t : Fin cfg1.N) : cfg1.idle 0 (grid1.coords t) = false := rfl
theorem liveAt1_1 (t : Fin cfg1.N) : cfg1.idle 1 (grid1.coords t) = false := rfl
/-- The output window is idle wherever the second conditional fails, -/
theorem idleAt1_2 (t : Fin cfg1.N) (h : ¬t.val % 20 = 19) : cfg1.idle 2 (grid1.coords t) = true := by
  show (!(k1_cond2 (grid1.coords t) == 1#1)) = true
  rw [Bool.not_eq_true', beq_eq_false_iff_ne]
  exact fun e => h ((hcond1_1 t).mp e)
/-- is not written back there, -/
theorem noFlush1_2 (t : Fin cfg1.N) (h : ¬t.val % 20 = 19) : (cfg1.win 2).flush t = false :=
  Bool.eq_false_iff.mpr fun e => h ((flush1_2 t).mp e)
/-- and is live where it holds. -/
theorem liveAt1_2 (t : Fin cfg1.N) (h : t.val % 20 = 19) : cfg1.idle 2 (grid1.coords t) = false := by
  show (!(k1_cond2 (grid1.coords t) == 1#1)) = false
  rw [Bool.not_eq_false', beq_iff_eq]
  exact (hcond1_1 t).mpr h

/-! ## The body on any whole memrefs, one triple per control case -/

set_option maxHeartbeats 1000000 in
/-- First node block of an edge block: the accumulator, found at anything, is reset to the zero block and then holds this
    point's product added to it; the inputs' memrefs are left as found; the output's is not touched. -/
theorem kernel1_A (c : Dev nD) (i : grid1.Coords) (arg2 : Memref sig .tc .vmem S1280x1 .i32) (harg2 : arg2.IsWhole)
    (arg3 : Memref sig .tc .vmem S2048x128 .bf16) (harg3 : arg3.IsWhole) (arg4 : Memref sig .tc .vmem S1280x128 .bf16) (harg4 : arg4.IsWhole)
    (arg5 : Memref sig .tc .vmem S1280x128 .f32) (harg5 : arg5.IsWhole) (hc0 : cond1_0 i) (hc1 : ¬cond1_1 i)
    (x0 : Vec F S1280x1 .i32) (x1 : Vec F S2048x128 .bf16) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 i x0 x1 k1_pay1)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_unit1 _ _ zeroOff1, readAt_unit1_unread harg2 zeroOff1, readAt_unit1_unread harg3 zeroOff1,
    View.readCov_unit_zero _ zeroOff1]

set_option maxHeartbeats 1000000 in
/-- A node block strictly between the first and the last: the accumulator, found at what the point before left, then
    holds this point's product added to that; the rest as in the first case. -/
theorem kernel1_B (c : Dev nD) (i : grid1.Coords) (arg2 : Memref sig .tc .vmem S1280x1 .i32) (harg2 : arg2.IsWhole)
    (arg3 : Memref sig .tc .vmem S2048x128 .bf16) (harg3 : arg3.IsWhole) (arg4 : Memref sig .tc .vmem S1280x128 .bf16) (harg4 : arg4.IsWhole)
    (arg5 : Memref sig .tc .vmem S1280x128 .f32) (harg5 : arg5.IsWhole) (hc0 : ¬cond1_0 i) (hc1 : ¬cond1_1 i)
    (x0 : Vec F S1280x1 .i32) (x1 : Vec F S2048x128 .bf16) (xs : Vec F S1280x128 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_unit1 _ _ zeroOff1, readAt_unit1_unread harg2 zeroOff1, readAt_unit1_unread harg3 zeroOff1,
    readAt_unit1_unread harg5 zeroOff1]

set_option maxHeartbeats 1000000 in
/-- The last node block of an edge block: as the case before, and then the accumulator, rounded, is stored over the
    whole output memref, found at anything. -/
theorem kernel1_C (c : Dev nD) (i : grid1.Coords) (arg2 : Memref sig .tc .vmem S1280x1 .i32) (harg2 : arg2.IsWhole)
    (arg3 : Memref sig .tc .vmem S2048x128 .bf16) (harg3 : arg3.IsWhole) (arg4 : Memref sig .tc .vmem S1280x128 .bf16) (harg4 : arg4.IsWhole)
    (arg5 : Memref sig .tc .vmem S1280x128 .f32) (harg5 : arg5.IsWhole) (hc0 : ¬cond1_0 i) (hc1 : cond1_1 i)
    (x0 : Vec F S1280x1 .i32) (x1 : Vec F S2048x128 .bf16) (xs : Vec F S1280x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 i x0 x1 xs))
            ∗ owns (c : Thread nD τ) arg5 fullShare (k1_pay2 i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_writes_unit1 _ _ zeroOff1, View.readCov_unit_zero _ zeroOff1, readAt_unit1_unread harg2 zeroOff1,
      readAt_unit1_unread harg3 zeroOff1, readAt_unit1_unread harg5 zeroOff1]
  iexists _; isplitr
  swap; · iexact HS
  ipureintro
  sl_unfold_run_names
  rw [read_writes_unit1 _ _ zeroOff1, readAt_unit1_unread harg2 zeroOff1, readAt_unit1_unread harg3 zeroOff1,
    readAt_unit1_unread harg5 zeroOff1]

/-! ## The proof data, read window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: unfetched, the block
    index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Each window's current staging memref at point t, as the pipeline passes it to the body, and its wholeness. -/
abbrev ms1_0 (t : Fin cfg1.N) : Memref sig .tc .vmem S1280x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x128 .bf16 := win1_2.stage (cfg1.slots t 2)
abbrev hs1_2 (t : Fin cfg1.N) : (ms1_2 t).IsWhole := hstage1_2 ((cfg1.slots t 2).cast nbuf1_2)

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at any point. The inputs' memrefs hold their blocks; the position mod 20 says which control case the point
    is in. The invariant hands the body the accumulator (at anything at a first node block, where it is reset; at what the
    point before left elsewhere) and takes it back at this point's value of the recursion; the other scoped buffers, the
    generator register and what the core owes pass through untouched. The output's memref is handed back as found where
    the window is idle, and at the rounded accumulator at a last node block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % 20 = 0
  · have h1 : ¬t.val % 20 = 19 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t h1) (noFlush1_2 t h1)]
    rw [acc1_reset V c t h0]
    by_cases hz : t.val = 0
    · rw [PhiS1_zero V c _ _ hz]
      iintro ⟨HΦ, Ho, ⟨%d0, H0⟩, ⟨%d1, H1⟩, H2⟩
      icases (PhiA1_open (F := F) c) $$ HΦ with ⟨HA, HS, HB, Hg⟩
      iapply (kernel1_A c (grid1.coords t) _ _ _ _ _ _ _ _ hc0 hc1 (iblk1 V c 0 t) (iblk1 V c 1 t) Set.univ _)
      isplitl [H0]; · iexact H0
      isplitl [H1]; · iexact H1
      isplitl [HS]; · iexact HS
      iintro ⟨H0, H1, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2
    · rw [PhiS1_pos V c _ _ hz]
      iintro ⟨⟨HA, HS, HB, Hg⟩, Ho, ⟨%d0, H0⟩, ⟨%d1, H1⟩, H2⟩
      iapply (kernel1_A c (grid1.coords t) _ _ _ _ _ _ _ _ hc0 hc1 (iblk1 V c 0 t) (iblk1 V c 1 t) Set.univ _)
      isplitl [H0]; · iexact H0
      isplitl [H1]; · iexact H1
      isplitl [HS]; · iexists _; iexact HS
      iintro ⟨H0, H1, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2
  · have hz : t.val ≠ 0 := fun e => h0 (by rw [e])
    have hc0 : ¬cond1_0 (grid1.coords t) := fun h => h0 ((hcond1_0 t).mp h)
    rw [PhiS1_pos V c _ _ hz, acc1_step V c t h0]
    by_cases h1 : t.val % 20 = 19
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t h1], after1_2]
      unfold out1
      rw [acc1_step V c t h0]
      iintro ⟨⟨HA, HS, HB, Hg⟩, Ho, ⟨%d0, H0⟩, ⟨%d1, H1⟩, ⟨%d2, H2⟩⟩
      iapply (kernel1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t h1) (noFlush1_2 t h1)]
      iintro ⟨⟨HA, HS, HB, Hg⟩, Ho, ⟨%d0, H0⟩, ⟨%d1, H1⟩, H2⟩
      iapply (kernel1_B c (grid1.coords t) _ _ _ _ _ _ _ _ hc0 hc1 (iblk1 V c 0 t) (iblk1 V c 1 t) _ Set.univ _)
      isplitl [H0]; · iexact H0
      isplitl [H1]; · iexact H1
      isplitl [HS]; · iexact HS
      iintro ⟨H0, H1, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the accumulator holds is forgotten. -/
theorem Phi_out1 (c : Dev nD) (n : ℕ) (h : n ≤ cfg1.N) : PhiS1 V c n h ⊢ Pipeline.ΦA spec1 c := by
  cases n with
  | zero => exact Idealize.SL.BI.Entails.refl _
  | succ n =>
    rw [PhiS1_succ]
    iintro ⟨HA, HS, HB, Hg⟩
    iapply (PhiA1_close (F := F) c)
    isplitl [HA]; · iexact HA
    isplitl [HS]; · iexists _; iexact HS
    isplitl [HB]; · iexact HB
    iexact Hg

theorem hout1 (c : Dev nD) : (dat1 V c).Φ (Fin.last cfg1.N) ⊢ Pipeline.ΦA spec1 c := by
  rw [show (dat1 V c).Φ (Fin.last cfg1.N)
    = PhiS1 V c (Fin.last cfg1.N).val (Nat.le_of_lt_succ (Fin.last cfg1.N).isLt) from rfl]
  exact Phi_out1 V c _ _

end Cert.KernelIdeal.Hand

end
-- ==== Proof.KI.Reg2.lean ====
/- Region 2 (the scatter and the mean): for a node block i the two scratches accumulate, over the 500 edge blocks j, the
   product of the one-hot matrix (destination of edge e is node i·2048 + r) with message block j, and the row sums of that
   matrix (the in-degree); both are reset at j = 0, and at j = 499 the quotient by max(degree, 1) is stored to the output
   block. What the scratches hold after each point, the proof data, and the body's triple at every point. -/
import proofs.«412787_j352187319219_2_alg».proof.Proof.Gen.KernelIdeal.Launch
import proofs.«412787_j352187319219_2_alg».proof.Proof.Gen.KernelIdeal.Skeleton
import proofs.«412787_j352187319219_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulator scratches, whole scoped buffers: the sums and the degrees. -/
abbrev scM2_0 : Memref sig .tc .vmem S2048x128 .f32 := Memref.whole cc2_scratch0
abbrev scM2_1 : Memref sig .tc .vmem S2048x1 .f32 := Memref.whole cc2_scratch1

/-- What the two accumulators (sums, degrees) hold after the body at position n: this point's contributions added to
    the zero blocks at the first edge block of a node block (n ≡ 0 mod 500), to what the point before left otherwise. -/
def acc2 (c : Dev nD) : (n : ℕ) → n < cfg2.N → Vec F S2048x128 .f32 × Vec F S2048x1 .f32
  | 0, hn => (k2_pay4 (grid2.coords ⟨0, hn⟩) (iblk2 V c 0 ⟨0, hn⟩) (iblk2 V c 1 ⟨0, hn⟩) k2_pay1,
              k2_pay5 (grid2.coords ⟨0, hn⟩) (iblk2 V c 0 ⟨0, hn⟩) k2_pay2)
  | n + 1, hn =>
      (k2_pay4 (grid2.coords ⟨n + 1, hn⟩) (iblk2 V c 0 ⟨n + 1, hn⟩) (iblk2 V c 1 ⟨n + 1, hn⟩)
          (if (n + 1) % 500 = 0 then k2_pay1 else (acc2 c n (Nat.lt_of_succ_lt hn)).1),
       k2_pay5 (grid2.coords ⟨n + 1, hn⟩) (iblk2 V c 0 ⟨n + 1, hn⟩)
          (if (n + 1) % 500 = 0 then k2_pay2 else (acc2 c n (Nat.lt_of_succ_lt hn)).2))

/-- What the body stores into the output's buffer at a point that stores it (n ≡ 499 mod 500): sums over max(degree, 1). -/
def out2 (c : Dev nD) (t : Fin cfg2.N) : Vec F S2048x128 .f32 :=
  k2_pay6 (acc2 V c t.val t.isLt).2 (acc2 V c t.val t.isLt).1

/-! ## The branch conditions over the grid -/

/-- The first conditional of the body (the reset of both accumulators): the edge-block coordinate is 0. -/
abbrev reg2_cond0 (i : grid2.Coords) : Prop := (Scalar.cmpi .ne (Scalar.extui (Scalar.cmpi .eq (BitVec.ofNat 32 (i 1).val) 0#32)) 0#32) = 1#1
/-- The second conditional (the store of the quotient into the output block): the edge-block coordinate is 499. -/
abbrev reg2_cond1 (i : grid2.Coords) : Prop := k2_cond2 i = 1#1

/-! ## A whole buffer loaded and stored through its whole rectangle -/

theorem reg2_zeros2 : (![0, 0] : Fin 2 → Nat) = fun _ => 0 := funext fun a => by fin_cases a <;> rfl
theorem reg2_zeros3 : (![0, 0, 0] : Fin 3 → Nat) = fun _ => 0 := funext fun a => by fin_cases a <;> rfl

section Whole

variable {Val : EltTy → Type} [∀ e, Nonempty (Val e)] {sg : RefSig} {κ : Kind} {sp : Space} {S : Shape} {e : EltTy}

/-- A load of a whole memref holding X, through the rectangle of the whole shape at zero offsets, reads X. -/
theorem reg2_load_whole {m : Memref sg κ sp S e} (h : m.IsWhole) {off : Fin S.rank → Nat} (h0 : off = fun _ => 0)
    (inb : ∀ a, off a + S.size a ≤ S.size a) (X : S.Idx → Val e) :
    m.view.readAt Val (Rect.unit off S.size inb) (h.unread X) = X := by
  rw [View.readAt_eq_ld, h.read_unread, View.ld_unit_zero h0]

/-- After a store of w through that rectangle, made last, the buffer reads w: whatever it held, whatever was stored before. -/
theorem reg2_read_store_whole (v : View sg κ sp S e) (f : v.ty.Contents Val) {off : Fin S.rank → Nat} (h0 : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h0 inb y⟩).trans
    (View.canon_cons_unit_zero h0 inb w L)

/-- A load through that rectangle of what such a store, made last, left reads w. -/
theorem reg2_load_store_whole (v : View sg κ sp S e) {off : Fin S.rank → Nat} (h0 : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h0 inb y⟩),
    View.canon_cons_unit_zero h0, View.ld_unit_zero h0]

end Whole

/-! ## The body on any whole memrefs, case by case -/

set_option maxHeartbeats 1000000 in
/-- A middle edge block (neither conditional taken): from the two input blocks x0 (destinations) and x1 (messages) and the
    accumulators at a0, a1, the body leaves the inputs as they were and the accumulators at this block's contributions
    added to a0, a1; the output block is not touched. -/
theorem reg2_run_B (c : Dev nD) (i : grid2.Coords)
    (arg2 : Memref sig .tc .vmem S1x1x1280 .i32) (harg2 : arg2.IsWhole) (arg3 : Memref sig .tc .vmem S1280x128 .bf16) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x1 .f32) (harg6 : arg6.IsWhole)
    (hc0 : ¬reg2_cond0 i) (hc1 : ¬reg2_cond1 i)
    (x0 : Vec F S1x1x1280 .i32) (x1 : Vec F S1280x128 .bf16) (a0 : Vec F S2048x128 .f32) (a1 : Vec F S2048x1 .f32)
    (E : Set ℕ) (K : PUnit → sProp 𝕄) :
    iprop(owns (c : Thread nD τ) arg2 fullShare x0 ∗ owns (c : Thread nD τ) arg3 fullShare x1
        ∗ owns (c : Thread nD τ) arg5 fullShare a0 ∗ owns (c : Thread nD τ) arg6 fullShare a1
        ∗ (iprop(owns (c : Thread nD τ) arg2 fullShare x0 ∗ owns (c : Thread nD τ) arg3 fullShare x1
            ∗ owns (c : Thread nD τ) arg5 fullShare (k2_pay4 i x0 x1 a0) ∗ owns (c : Thread nD τ) arg6 fullShare (k2_pay5 i x0 a1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H5]
  · iexists _; isplitr; swap; · iexact H5
    ipureintro
    rw [reg2_read_store_whole _ _ reg2_zeros2, reg2_load_whole harg2 reg2_zeros3, reg2_load_whole harg3 reg2_zeros2, reg2_load_whole harg5 reg2_zeros2]
  · iexists _; isplitr; swap; · iexact H6
    ipureintro
    rw [reg2_read_store_whole _ _ reg2_zeros2, reg2_load_whole harg2 reg2_zeros3, reg2_load_whole harg6 reg2_zeros2]

set_option maxHeartbeats 1000000 in
/-- The first edge block of a node block (the reset taken, the output's store not): whatever the accumulators held, the body
    leaves them at this block's contributions added to the zero blocks; the output block is not touched. -/
theorem reg2_run_A (c : Dev nD) (i : grid2.Coords)
    (arg2 : Memref sig .tc .vmem S1x1x1280 .i32) (harg2 : arg2.IsWhole) (arg3 : Memref sig .tc .vmem S1280x128 .bf16) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x1 .f32) (harg6 : arg6.IsWhole)
    (hc0 : reg2_cond0 i) (hc1 : ¬reg2_cond1 i)
    (x0 : Vec F S1x1x1280 .i32) (x1 : Vec F S1280x128 .bf16)
    (E : Set ℕ) (K : PUnit → sProp 𝕄) :
    iprop(owns (c : Thread nD τ) arg2 fullShare x0 ∗ owns (c : Thread nD τ) arg3 fullShare x1
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg5 fullShare (k2_pay4 i x0 x1 k2_pay1) ∗ owns (c : Thread nD τ) arg6 fullShare (k2_pay5 i x0 k2_pay2)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H5]
  · iexists _; isplitr; swap; · iexact H5
    ipureintro
    sl_unfold_words
    rw [reg2_read_store_whole (S := S2048x128) _ _ reg2_zeros2, reg2_load_whole harg2 reg2_zeros3, reg2_load_whole harg3 reg2_zeros2,
      reg2_load_store_whole (S := S2048x128) _ reg2_zeros2]
  · iexists _; isplitr; swap; · iexact H6
    ipureintro
    sl_unfold_words
    rw [reg2_read_store_whole (S := S2048x1) _ _ reg2_zeros2, reg2_load_whole harg2 reg2_zeros3, reg2_load_store_whole (S := S2048x1) _ reg2_zeros2]

set_option maxHeartbeats 1000000 in
/-- The last edge block of a node block (the reset not taken, the output's store taken): as a middle block, and then the
    output block, whatever it held, is left at the quotient of the new sums by the new degrees (at least one). -/
theorem reg2_run_C (c : Dev nD) (i : grid2.Coords)
    (arg2 : Memref sig .tc .vmem S1x1x1280 .i32) (harg2 : arg2.IsWhole) (arg3 : Memref sig .tc .vmem S1280x128 .bf16) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x1 .f32) (harg6 : arg6.IsWhole)
    (hc0 : ¬reg2_cond0 i) (hc1 : reg2_cond1 i)
    (x0 : Vec F S1x1x1280 .i32) (x1 : Vec F S1280x128 .bf16) (a0 : Vec F S2048x128 .f32) (a1 : Vec F S2048x1 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare a0 ∗ owns (c : Thread nD τ) arg6 fullShare a1
        ∗ (iprop(owns (c : Thread nD τ) arg2 fullShare x0 ∗ owns (c : Thread nD τ) arg3 fullShare x1
            ∗ owns (c : Thread nD τ) arg4 fullShare (k2_pay6 (k2_pay5 i x0 a1) (k2_pay4 i x0 x1 a0))
            ∗ owns (c : Thread nD τ) arg5 fullShare (k2_pay4 i x0 x1 a0) ∗ owns (c : Thread nD τ) arg6 fullShare (k2_pay5 i x0 a1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; swap; · iexact H4
    ipureintro
    sl_unfold_words
    rw [reg2_read_store_whole (S := S2048x128) _ _ reg2_zeros2, reg2_load_store_whole (S := S2048x1) _ reg2_zeros2,
      reg2_load_store_whole (S := S2048x128) _ reg2_zeros2,
      reg2_load_whole harg2 reg2_zeros3, reg2_load_whole harg3 reg2_zeros2, reg2_load_whole harg5 reg2_zeros2, reg2_load_whole harg6 reg2_zeros2]
  isplitl [H5]
  · iexists _; isplitr; swap; · iexact H5
    ipureintro
    sl_unfold_words
    rw [reg2_read_store_whole (S := S2048x128) _ _ reg2_zeros2, reg2_load_whole harg2 reg2_zeros3, reg2_load_whole harg3 reg2_zeros2, reg2_load_whole harg5 reg2_zeros2]
  · iexists _; isplitr; swap; · iexact H6
    ipureintro
    sl_unfold_words
    rw [reg2_read_store_whole (S := S2048x1) _ _ reg2_zeros2, reg2_load_whole harg2 reg2_zeros3, reg2_load_whole harg6 reg2_zeros2]

/-! ## The conditions in closed form, and where the output window is idle -/

/-- The reset is taken exactly at the first edge block of a node block. -/
theorem reg2_hcond0 : ∀ t : Fin cfg2.N, reg2_cond0 (grid2.coords t) ↔ t.val % 500 = 0 :=
  (by decide +kernel : ∀ t : Fin grid2.N, reg2_cond0 (grid2.coords t) ↔ t.val % 500 = 0)
/-- The output block is stored exactly at the last edge block of a node block. -/
theorem reg2_hcond1 : ∀ t : Fin cfg2.N, reg2_cond1 (grid2.coords t) ↔ t.val % 500 = 499 :=
  (by decide +kernel : ∀ t : Fin grid2.N, reg2_cond1 (grid2.coords t) ↔ t.val % 500 = 499)

/-- The two input windows are never idle. -/
theorem reg2_liveAt0 (i : grid2.Coords) : cfg2.idle 0 i = false := rfl
theorem reg2_liveAt1 (i : grid2.Coords) : cfg2.idle 1 i = false := rfl
/-- The output window is idle exactly where the body does not store into it, -/
theorem reg2_idleAt2 (i : grid2.Coords) (h : ¬reg2_cond1 i) : cfg2.idle 2 i = true := by
  show (!(k2_cond2 i == 1#1)) = true
  rw [Bool.not_eq_true', beq_eq_false_iff_ne]; exact h
theorem reg2_liveAt2 (i : grid2.Coords) (h : reg2_cond1 i) : cfg2.idle 2 i = false := by
  show (!(k2_cond2 i == 1#1)) = false
  rw [h]; rfl
/-- and there its block is not written back. -/
theorem reg2_noFlush2 (t : Fin cfg2.N) (h : ¬t.val % 500 = 499) : (cfg2.win 2).flush t = false :=
  Bool.eq_false_iff.mpr fun hf => h ((flush2_2 t).mp hf)

/-! ## The invariant -/

/-- A scoped buffer of the core, whole, at some contents. -/
abbrev reg2_anyBuf (c : Dev nD) (b : Ref sig .tc) : sProp 𝕄 :=
  iprop(∃ f : Buf (Elt F) ((c : Thread nD τ).loc b), ((c : Thread nD τ).loc b) ↦{fullShare} f)

/-- The staging buffers of the linear layer and of the gather and the gather's accumulator: thirteen scoped buffers the
    scatter never touches, each at some contents. -/
def reg2_rest (c : Dev nD) : sProp 𝕄 :=
  iprop(reg2_anyBuf c cc0_stg0_0 ∗ reg2_anyBuf c cc0_stg0_1 ∗ reg2_anyBuf c cc0_stg1_0 ∗ reg2_anyBuf c cc0_stg2_0 ∗ reg2_anyBuf c cc0_stg3_0 ∗ reg2_anyBuf c cc0_stg3_1
    ∗ reg2_anyBuf c cc1_stg0_0 ∗ reg2_anyBuf c cc1_stg0_1 ∗ reg2_anyBuf c cc1_stg1_0 ∗ reg2_anyBuf c cc1_stg1_1 ∗ reg2_anyBuf c cc1_stg2_0 ∗ reg2_anyBuf c cc1_stg2_1
    ∗ reg2_anyBuf c cc1_scratch0)

/-- What the launch hands the region, conjunct by conjunct: those thirteen, the two accumulators at some contents, the
    generator register at some state. -/
theorem reg2_PhiA_eq (c : Dev nD) :
    (Pipeline.ΦA spec2 c : sProp 𝕄)
      = iprop(iprop(reg2_rest c ∗ (∃ d, owns (c : Thread nD τ) scM2_0 fullShare d) ∗ (∃ d, owns (c : Thread nD τ) scM2_1 fullShare d))
          ∗ (∃ r, prngReg c r)) := by
  unfold Pipeline.ΦA reg2_rest; rw [scopedRest2_eq]; simp only [scM2_0, scM2_1, owns_whole]
  have both : ∀ X Y : sProp 𝕄, (X ⊢ Y) → (Y ⊢ X) → X = Y := fun _ _ h₁ h₂ => BI.equiv_iff.mp ⟨h₁, h₂⟩
  refine both _ _ ?_ ?_
  · iintro ⟨⟨R0, R1, R2, R3, R4, R5, R6, R7, R8, R9, R10, R11, R12, HS0, HS1⟩, Hg⟩
    isplitl [R0 R1 R2 R3 R4 R5 R6 R7 R8 R9 R10 R11 R12 HS0 HS1]
    · isplitl [R0 R1 R2 R3 R4 R5 R6 R7 R8 R9 R10 R11 R12]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        iexact R12
      isplitl [HS0]; · iexact HS0
      iexact HS1
    iexact Hg
  · iintro ⟨⟨⟨R0, R1, R2, R3, R4, R5, R6, R7, R8, R9, R10, R11, R12⟩, HS0, HS1⟩, Hg⟩
    isplitl [R0 R1 R2 R3 R4 R5 R6 R7 R8 R9 R10 R11 R12 HS0 HS1]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [HS0]; · iexact HS0
      iexact HS1
    iexact Hg

/-- The region invariant before position n: before the first point what the launch hands the region; afterwards the two
    accumulators at what the point before left, the other thirteen scoped buffers at anything, the generator register at
    some state. -/
def PhiS2 (c : Dev nD) : (n : ℕ) → n ≤ cfg2.N → sProp 𝕄
  | 0, _ => Pipeline.ΦA spec2 c
  | n + 1, hn => iprop(iprop(reg2_rest c ∗ owns (c : Thread nD τ) scM2_0 fullShare (acc2 V c n hn).1
      ∗ owns (c : Thread nD τ) scM2_1 fullShare (acc2 V c n hn).2) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2 V c t := by dsimp only [dat2]

/-! ## The invariant position by position -/

theorem reg2_PhiS_zero (c : Dev nD) (n : ℕ) (h : n ≤ cfg2.N) (hz : n = 0) : PhiS2 V c n h = Pipeline.ΦA spec2 c := by
  subst hz; rfl

/-- After point n: the accumulators at that point's contents. -/
theorem reg2_PhiS_succ (c : Dev nD) (n : ℕ) (hn : n < cfg2.N) :
    PhiS2 V c (n + 1) hn = iprop(iprop(reg2_rest c ∗ owns (c : Thread nD τ) scM2_0 fullShare (acc2 V c n hn).1
      ∗ owns (c : Thread nD τ) scM2_1 fullShare (acc2 V c n hn).2) ∗ (∃ r, prngReg c r)) := rfl

/-- Before a point that is not the first: the accumulators at what the point before left. -/
theorem reg2_PhiS_pos (c : Dev nD) (n : ℕ) (h : n ≤ cfg2.N) (hz : n ≠ 0) :
    PhiS2 V c n h = iprop(iprop(reg2_rest c ∗ owns (c : Thread nD τ) scM2_0 fullShare (acc2 V c (n - 1) (by omega)).1
      ∗ owns (c : Thread nD τ) scM2_1 fullShare (acc2 V c (n - 1) (by omega)).2) ∗ (∃ r, prngReg c r)) := by
  cases n with
  | zero => exact absurd rfl hz
  | succ n => rfl

/-- The invariant at a point's start, restated at the point's position. -/
theorem reg2_PhiS_castSucc (c : Dev nD) (t : Fin cfg2.N) :
    (dat2 V c).Φ t.castSucc = PhiS2 V c t.val (Nat.le_of_lt t.isLt) := by
  dsimp only [dat2]; simp only [Fin.coe_castSucc]

/-! ## What the windows' buffers hold around the body -/

theorem reg2_after0 (c : Dev nD) (t : Fin cfg2.N) : (dat2 V c).after 0 t = iblk2 V c 0 t := by dsimp only [dat2]
theorem reg2_after1 (c : Dev nD) (t : Fin cfg2.N) : (dat2 V c).after 1 t = iblk2 V c 1 t := by dsimp only [dat2]

/-- Each input window's current buffer holds its block at every point: the body leaves it in place, and unfetched the block
    index has not moved. -/
theorem reg2_before0 (c : Dev nD) (t : Fin cfg2.N) (d) : (dat2 V c).before 0 t d = iblk2 V c 0 t :=
  ((dat2 V c).before_in_eq_fetched 0 rfl (fun _ => rfl) (fun _ _ _ => rfl)
      (fun t => by rw [reg2_after0]; unfold Dat.blockOf iblk2; rw [A_eq2]; try rfl) t d).trans
    (by unfold Dat.fetched Dat.blockOf iblk2; rw [A_eq2]; try rfl)
theorem reg2_before1 (c : Dev nD) (t : Fin cfg2.N) (d) : (dat2 V c).before 1 t d = iblk2 V c 1 t :=
  ((dat2 V c).before_in_eq_fetched 1 rfl (fun _ => rfl) (fun _ _ _ => rfl)
      (fun t => by rw [reg2_after1]; unfold Dat.blockOf iblk2; rw [A_eq2]; try rfl) t d).trans
    (by unfold Dat.fetched Dat.blockOf iblk2; rw [A_eq2]; try rfl)

/-! ## The accumulators point by point -/

/-- At the first edge block of a node block both accumulators restart from the zero blocks. -/
theorem reg2_acc_first (c : Dev nD) (t : Fin cfg2.N) (h0 : t.val % 500 = 0) :
    acc2 V c t.val t.isLt = (k2_pay4 (grid2.coords t) (iblk2 V c 0 t) (iblk2 V c 1 t) k2_pay1,
      k2_pay5 (grid2.coords t) (iblk2 V c 0 t) k2_pay2) := by
  obtain ⟨n, hn⟩ := t
  cases n with
  | zero => rfl
  | succ n =>
    have h0' : (n + 1) % 500 = 0 := h0
    show acc2 V c (n + 1) hn = _
    rw [acc2, if_pos h0', if_pos h0']

/-- At any other edge block they go on from what the point before left. -/
theorem reg2_acc_next (c : Dev nD) (t : Fin cfg2.N) (h0 : ¬t.val % 500 = 0) :
    acc2 V c t.val t.isLt
      = (k2_pay4 (grid2.coords t) (iblk2 V c 0 t) (iblk2 V c 1 t) (acc2 V c (t.val - 1) (Nat.lt_of_le_of_lt (Nat.sub_le _ _) t.isLt)).1,
         k2_pay5 (grid2.coords t) (iblk2 V c 0 t) (acc2 V c (t.val - 1) (Nat.lt_of_le_of_lt (Nat.sub_le _ _) t.isLt)).2) := by
  obtain ⟨n, hn⟩ := t
  cases n with
  | zero => exact absurd (Nat.zero_mod _) h0
  | succ n =>
    have h0' : ¬(n + 1) % 500 = 0 := h0
    show acc2 V c (n + 1) hn = _
    rw [acc2, if_neg h0', if_neg h0']
    rfl

theorem reg2_acc_first_1 (c : Dev nD) (t : Fin cfg2.N) (h0 : t.val % 500 = 0) :
    (acc2 V c t.val t.isLt).1 = k2_pay4 (grid2.coords t) (iblk2 V c 0 t) (iblk2 V c 1 t) k2_pay1 := by
  rw [reg2_acc_first V c t h0]
theorem reg2_acc_first_2 (c : Dev nD) (t : Fin cfg2.N) (h0 : t.val % 500 = 0) :
    (acc2 V c t.val t.isLt).2 = k2_pay5 (grid2.coords t) (iblk2 V c 0 t) k2_pay2 := by
  rw [reg2_acc_first V c t h0]
theorem reg2_acc_next_1 (c : Dev nD) (t : Fin cfg2.N) (h0 : ¬t.val % 500 = 0) :
    (acc2 V c t.val t.isLt).1
      = k2_pay4 (grid2.coords t) (iblk2 V c 0 t) (iblk2 V c 1 t) (acc2 V c (t.val - 1) (Nat.lt_of_le_of_lt (Nat.sub_le _ _) t.isLt)).1 := by
  rw [reg2_acc_next V c t h0]
theorem reg2_acc_next_2 (c : Dev nD) (t : Fin cfg2.N) (h0 : ¬t.val % 500 = 0) :
    (acc2 V c t.val t.isLt).2
      = k2_pay5 (grid2.coords t) (iblk2 V c 0 t) (acc2 V c (t.val - 1) (Nat.lt_of_le_of_lt (Nat.sub_le _ _) t.isLt)).2 := by
  rw [reg2_acc_next V c t h0]

/-! ## The body obligation, at a generic point -/

/-- Each window's current staging memref at point t, and its wholeness. -/
abbrev reg2_ms0 (t : Fin cfg2.N) : Memref sig .tc .vmem S1x1x1280 .i32 := win2_0.stage (cfg2.slots t 0)
abbrev reg2_hs0 (t : Fin cfg2.N) : (reg2_ms0 t).IsWhole := hstage2_0 ((cfg2.slots t 0).cast nbuf2_0)
abbrev reg2_ms1 (t : Fin cfg2.N) : Memref sig .tc .vmem S1280x128 .bf16 := win2_1.stage (cfg2.slots t 1)
abbrev reg2_hs1 (t : Fin cfg2.N) : (reg2_ms1 t).IsWhole := hstage2_1 ((cfg2.slots t 1).cast nbuf2_1)
abbrev reg2_ms2 (t : Fin cfg2.N) : Memref sig .tc .vmem S2048x128 .f32 := win2_2.stage (cfg2.slots t 2)
abbrev reg2_hs2 (t : Fin cfg2.N) : (reg2_ms2 t).IsWhole := hstage2_2 ((cfg2.slots t 2).cast nbuf2_2)

/-- What the body is called with at point t, the windows one by one, -/
def reg2_bodyPre (c : Dev nD) (t : Fin cfg2.N) : sProp 𝕄 :=
  iprop((dat2 V c).Φ t.castSucc ∗ (dat2 V c).owesAt () t.castSucc
    ∗ (∃ d, owns (c : Thread nD τ) (reg2_ms0 t) fullShare ((dat2 V c).before 0 t d))
    ∗ (∃ d, owns (c : Thread nD τ) (reg2_ms1 t) fullShare ((dat2 V c).before 1 t d))
    ∗ (∃ d, owns (c : Thread nD τ) (reg2_ms2 t) fullShare ((dat2 V c).before 2 t d)))

/-- and what it returns. -/
def reg2_bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the position of the point among its node block's 500 edge
    blocks says which case it is in. The invariant hands the body the two accumulators — at anything at the very first point,
    at what the point before left afterwards — and takes them back at this point's contents; the other scoped buffers and the
    generator register pass through untouched; the core owes nothing throughout. The output block is handed back as found
    except at the last edge block, where it is left at the quotient. -/
theorem reg2_sound_body (c : Dev nD) (t : Fin cfg2.N) :
    reg2_bodyPre V c t ⊢ wp frame (wpE (defs₀ (F := F)) Variants.none c none) Set.univ (bodyAt2 t) (fun _ => reg2_bodyPost V c t) := by
  unfold reg2_bodyPre reg2_bodyPost bodyAt2
  simp only [reg2_before0, reg2_before1]
  rw [show (dat2 V c).owesAt () t.succ = (dat2 V c).owesAt () t.castSucc from rfl]
  rw [show (dat2 V c).Φ t.succ = PhiS2 V c (t.val + 1) t.isLt from rfl, reg2_PhiS_succ]
  rw [show (dat2 V c).leavesExact 0 t = owns (c : Thread nD τ) (reg2_ms0 t) fullShare ((dat2 V c).after 0 t) from by
    unfold Dat.leavesExact; rw [reg2_liveAt0], reg2_after0]
  rw [show (dat2 V c).leavesExact 1 t = owns (c : Thread nD τ) (reg2_ms1 t) fullShare ((dat2 V c).after 1 t) from by
    unfold Dat.leavesExact; rw [reg2_liveAt1], reg2_after1]
  have hN : t.val < 10000 := lt_of_lt_of_eq t.isLt (show cfg2.N = 10000 from N_2)
  by_cases h0 : t.val % 500 = 0
  · have h1 : ¬t.val % 500 = 499 := by omega
    have hc0 : reg2_cond0 (grid2.coords t) := (reg2_hcond0 t).mpr h0
    have hc1 : ¬reg2_cond1 (grid2.coords t) := fun h => h1 ((reg2_hcond1 t).mp h)
    rw [Dat.leavesExact_idle (dat2 V c) 2 t (reg2_idleAt2 _ hc1) (reg2_noFlush2 t h1)]
    rw [reg2_acc_first_1 V c t h0, reg2_acc_first_2 V c t h0]
    by_cases hz : t.val = 0
    · rw [reg2_PhiS_castSucc V c t, reg2_PhiS_zero V c _ _ hz, reg2_PhiA_eq]
      iintro ⟨⟨⟨HR, HS0, HS1⟩, Hg⟩, Ho, ⟨%d0, H0⟩, ⟨%d1, H1⟩, H2⟩
      iapply (reg2_run_A c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) Set.univ _)
      isplitl [H0]; · iexact H0
      isplitl [H1]; · iexact H1
      isplitl [HS0]; · iexact HS0
      isplitl [HS1]; · iexact HS1
      iintro ⟨H0, H1, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2
    · rw [reg2_PhiS_castSucc V c t, reg2_PhiS_pos V c _ _ hz]
      iintro ⟨⟨⟨HR, HS0, HS1⟩, Hg⟩, Ho, ⟨%d0, H0⟩, ⟨%d1, H1⟩, H2⟩
      iapply (reg2_run_A c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) Set.univ _)
      isplitl [H0]; · iexact H0
      isplitl [H1]; · iexact H1
      isplitl [HS0]; · iexists _; iexact HS0
      isplitl [HS1]; · iexists _; iexact HS1
      iintro ⟨H0, H1, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2
  · have hz : t.val ≠ 0 := fun e => h0 (by rw [e])
    have hc0 : ¬reg2_cond0 (grid2.coords t) := fun h => h0 ((reg2_hcond0 t).mp h)
    rw [reg2_acc_next_1 V c t h0, reg2_acc_next_2 V c t h0]
    rw [reg2_PhiS_castSucc V c t, reg2_PhiS_pos V c _ _ hz]
    by_cases h1 : t.val % 500 = 499
    · have hc1 : reg2_cond1 (grid2.coords t) := (reg2_hcond1 t).mpr h1
      rw [show (dat2 V c).leavesExact 2 t = owns (c : Thread nD τ) (reg2_ms2 t) fullShare ((dat2 V c).after 2 t) from by
        unfold Dat.leavesExact; rw [reg2_liveAt2 _ hc1], after2_2]
      unfold out2
      rw [reg2_acc_next_1 V c t h0, reg2_acc_next_2 V c t h0]
      iintro ⟨⟨⟨HR, HS0, HS1⟩, Hg⟩, Ho, ⟨%d0, H0⟩, ⟨%d1, H1⟩, ⟨%d2, H2⟩⟩
      iapply (reg2_run_C c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2
    · have hc1 : ¬reg2_cond1 (grid2.coords t) := fun h => h1 ((reg2_hcond1 t).mp h)
      rw [Dat.leavesExact_idle (dat2 V c) 2 t (reg2_idleAt2 _ hc1) (reg2_noFlush2 t h1)]
      iintro ⟨⟨⟨HR, HS0, HS1⟩, Hg⟩, Ho, ⟨%d0, H0⟩, ⟨%d1, H1⟩, H2⟩
      iapply (reg2_run_B c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) _ _ Set.univ _)
      isplitl [H0]; · iexact H0
      isplitl [H1]; · iexact H1
      isplitl [HS0]; · iexact HS0
      isplitl [HS1]; · iexact HS1
      iintro ⟨H0, H1, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2

theorem body_obligation2 (c : Dev nD) : BodyObligation (dat2 (F := F) V c) (defs₀ (F := F)) Variants.none () Set.univ := fun t => by
  rw [bigSep_W2, bigSep_W2]
  exact reg2_sound_body V c t

theorem hin2 (c : Dev nD) : Pipeline.ΦA spec2 c ⊢ (dat2 V c).Φ 0 := by
  rw [show (dat2 V c).Φ 0 = PhiS2 V c 0 (Nat.zero_le _) from rfl, reg2_PhiS_zero V c 0 _ rfl]

/-- After any point the invariant gives back what the launch handed the region: the accumulators' named contents are forgotten. -/
theorem reg2_Phi_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, reg2_PhiS_pos V c _ _ ht, reg2_PhiA_eq]
  iintro ⟨⟨HR, HS0, HS1⟩, Hg⟩
  isplitl [HR HS0 HS1]
  · isplitl [HR]; · iexact HR
    isplitl [HS0]; · iexists _; iexact HS0
    iexists _; iexact HS1
  iexact Hg

theorem hout2 (c : Dev nD) : (dat2 V c).Φ (Fin.last cfg2.N) ⊢ Pipeline.ΦA spec2 c :=
  reg2_Phi_out V c _ (by rw [Fin.val_last]; have : cfg2.N = 10000 := N_2; omega)

end Cert.KernelIdeal.Hand

end
-- ==== Proof.KI.Vals.lean ====
/- The contents of the TensorCore's unscoped buffers at each boundary of the program's eight items (three host stretches,
   the linear region, a host stretch, the gather region, the scatter region, a host stretch): the launch memory folded
   through the host stretches, each region's output array replaced by what the region's write-backs leave. -/
import proofs.«412787_j352187319219_2_alg».proof.Proof.KI.Reg0
import proofs.«412787_j352187319219_2_alg».proof.Proof.KI.Reg1
import proofs.«412787_j352187319219_2_alg».proof.Proof.KI.Reg2
import proofs.«412787_j352187319219_2_alg».proof.Proof.Gen.KernelIdeal.Regions

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Before the linear region: the launch memory after the three host stretches (the padded nodes, the transposed
    weights, the bias row). -/
abbrev U3 (c : Dev nD) : Valuation τ sig (Elt F) := Gen.V3 m c
/-- The same read at the TensorCore's references: what the linear region's proof data take. -/
abbrev E3 : (c : Dev nD) → (b : Ref sig .tc) → Buf (Elt F) ((c : Thread nD τ).loc b) := fun c b => U3 m c b
/-- What the linear region leaves in its output array. -/
def o4 (c : Dev nD) : Buf (Elt F) ((c : Thread nD τ).loc main_v4) := (dat0 (E3 m) c).arrAt 3 cfg0.N
/-- After the linear region. -/
abbrev U4 (c : Dev nD) : Valuation τ sig (Elt F) := Function.update (U3 m c) main_v4 (o4 m c)
/-- Before the gather region: after the host stretch that zeroes the padded rows and lays out the edge indices. -/
abbrev U5 (c : Dev nD) : Valuation τ sig (Elt F) := StableHlo.after hostOps1 (U4 m c)
abbrev E5 : (c : Dev nD) → (b : Ref sig .tc) → Buf (Elt F) ((c : Thread nD τ).loc b) := fun c b => U5 m c b
/-- What the gather region leaves in its output array. -/
def o6 (c : Dev nD) : Buf (Elt F) ((c : Thread nD τ).loc main_v14) := (dat1 (E5 m) c).arrAt 2 cfg1.N
/-- After the gather region, which is where the scatter region is entered. -/
abbrev U6 (c : Dev nD) : Valuation τ sig (Elt F) := Function.update (U5 m c) main_v14 (o6 m c)
abbrev E6 : (c : Dev nD) → (b : Ref sig .tc) → Buf (Elt F) ((c : Thread nD τ).loc b) := fun c b => U6 m c b
/-- What the scatter region leaves in its output array. -/
def o7 (c : Dev nD) : Buf (Elt F) ((c : Thread nD τ).loc main_v15) := (dat2 (E6 m) c).arrAt 2 cfg2.N
/-- After the scatter region. -/
abbrev U7 (c : Dev nD) : Valuation τ sig (Elt F) := Function.update (U6 m c) main_v15 (o7 m c)
/-- At the return: after the closing slice. -/
abbrev U8 (c : Dev nD) : Valuation τ sig (Elt F) := StableHlo.after hostOps3 (U7 m c)

end Cert.KernelIdeal.Hand

end
-- ==== Proof.KI.Run.lean ====
/- The program's run: every weakly fair execution from a memory with zero counters terminates, the result buffer ends
   at the last boundary's contents and the four argument arrays end as launched. -/
import proofs.«412787_j352187319219_2_alg».proof.Proof.KI.Vals
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The exit contents of each region, and the regions' outputs

A region changes its output array and nothing else, and no later item writes an earlier region's output array:
so what each region leaves can be read off the contents after the last region. -/

/-- The contents after the linear region, and after the scatter region, read at the TensorCore's references. -/
abbrev E4 : (c : Dev nD) → (b : Ref sig .tc) → Buf (Elt F) ((c : Thread nD τ).loc b) := fun c b => U4 m c b
abbrev E7 : (c : Dev nD) → (b : Ref sig .tc) → Buf (Elt F) ((c : Thread nD τ).loc b) := fun c b => U7 m c b

theorem E4_of_ne (c : Dev nD) (b : Ref sig .tc) (h : b ≠ main_v4) : E4 m c b = E3 m c b :=
  Function.update_of_ne (StableHlo.devRef_ne_of_ne h) _ _
theorem E4_out (c : Dev nD) : E4 m c main_v4 = o4 m c := Function.update_self _ _ _
theorem E6_of_ne (c : Dev nD) (b : Ref sig .tc) (h : b ≠ main_v14) : E6 m c b = E5 m c b :=
  Function.update_of_ne (StableHlo.devRef_ne_of_ne h) _ _
theorem E6_out (c : Dev nD) : E6 m c main_v14 = o6 m c := Function.update_self _ _ _
theorem E7_of_ne (c : Dev nD) (b : Ref sig .tc) (h : b ≠ main_v15) : E7 m c b = E6 m c b :=
  Function.update_of_ne (StableHlo.devRef_ne_of_ne h) _ _
theorem E7_out (c : Dev nD) : E7 m c main_v15 = o7 m c := Function.update_self _ _ _

/-- What the regions leave in the buffers they may change: the contents after the last region. -/
abbrev outU : Gen.Outs (F := F) := fun _ r c => U7 m c r

/-- The linear region's output array is written by no later item: the host stretch between the regions writes
    other buffers, the gather and the scatter regions their own output arrays. -/
theorem outU_v4 (c : Dev nD) : outU m 4 main_v4 c = o4 m c :=
  calc E7 m c main_v4
    _ = E6 m c main_v4 := E7_of_ne m c main_v4 (by decide)
    _ = E5 m c main_v4 := E6_of_ne m c main_v4 (by decide)
    _ = E4 m c main_v4 := StableHlo.after_of_writes_sub hostOps1 _ Gen.hostOps1_writes (by decide)
    _ = o4 m c := E4_out m c
theorem outU_v14 (c : Dev nD) : outU m 6 main_v14 c = o6 m c :=
  (E7_of_ne m c main_v14 (by decide)).trans (E6_out m c)
theorem outU_v15 (c : Dev nD) : outU m 7 main_v15 c = o7 m c := E7_out m c

/-- Over these outputs the boundary contents written over unknown outputs are the ones named above. -/
theorem V4_eq (c : Dev nD) : Gen.V4 m (outU m) c = U4 m c := by
  show Function.update (Gen.V3 m c) _ (outU m 4 main_v4 c) = _
  rw [outU_v4]
theorem V5_eq (c : Dev nD) : Gen.V5 m (outU m) c = U5 m c := congrArg (StableHlo.after hostOps1) (V4_eq m c)
theorem V6_eq (c : Dev nD) : Gen.V6 m (outU m) c = U6 m c := by
  show Function.update (Gen.V5 m (outU m) c) _ (outU m 6 main_v14 c) = _
  rw [V5_eq, outU_v14]
theorem V7_eq (c : Dev nD) : Gen.V7 m (outU m) c = U7 m c := by
  show Function.update (Gen.V6 m (outU m) c) _ (outU m 7 main_v15 c) = _
  rw [V6_eq, outU_v15]
theorem V8_eq (c : Dev nD) : Gen.V8 m (outU m) c = U8 m c := congrArg (StableHlo.after hostOps3) (V7_eq m c)

/-- At a region's exit each of its arrays holds what the pipeline leaves (an input window's array what it held at
    entry, the output window's array the write-backs folded), and every other buffer what it held at entry. -/
theorem hF0 (c : Dev nD) : ∀ w : Fin 4, (dat0 (E3 m) c).arrAt w cfg0.N = E4 m c (Pipeline.arrRef spec0 w)
  | 0 => ((dat0 (E3 m) c).arrAt_in 0 rfl _).trans ((A_eq0 (E3 m) c 0).trans (E4_of_ne m c _ (by decide)).symm)
  | 1 => ((dat0 (E3 m) c).arrAt_in 1 rfl _).trans ((A_eq0 (E3 m) c 1).trans (E4_of_ne m c _ (by decide)).symm)
  | 2 => ((dat0 (E3 m) c).arrAt_in 2 rfl _).trans ((A_eq0 (E3 m) c 2).trans (E4_of_ne m c _ (by decide)).symm)
  | 3 => (E4_out m c).symm
  | ⟨_ + 4, h⟩ => absurd h (Nat.not_lt.2 (Nat.le_add_left _ _))
theorem hrest0 (c : Dev nD) : ∀ b, b ∉ Finset.univ.image (Pipeline.arrRef spec0) → E4 m c b = E3 m c b :=
  fun b hb => E4_of_ne m c b fun e => hb (Finset.mem_image.mpr ⟨3, Finset.mem_univ _, e.symm⟩)

theorem hF1 (c : Dev nD) : ∀ w : Fin 3, (dat1 (E5 m) c).arrAt w cfg1.N = E6 m c (Pipeline.arrRef spec1 w)
  | 0 => ((dat1 (E5 m) c).arrAt_in 0 rfl _).trans ((A_eq1 (E5 m) c 0).trans (E6_of_ne m c _ (by decide)).symm)
  | 1 => ((dat1 (E5 m) c).arrAt_in 1 rfl _).trans ((A_eq1 (E5 m) c 1).trans (E6_of_ne m c _ (by decide)).symm)
  | 2 => (E6_out m c).symm
  | ⟨_ + 3, h⟩ => absurd h (Nat.not_lt.2 (Nat.le_add_left _ _))
theorem hrest1 (c : Dev nD) : ∀ b, b ∉ Finset.univ.image (Pipeline.arrRef spec1) → E6 m c b = E5 m c b :=
  fun b hb => E6_of_ne m c b fun e => hb (Finset.mem_image.mpr ⟨2, Finset.mem_univ _, e.symm⟩)

theorem hF2 (c : Dev nD) : ∀ w : Fin 3, (dat2 (E6 m) c).arrAt w cfg2.N = E7 m c (Pipeline.arrRef spec2 w)
  | 0 => ((dat2 (E6 m) c).arrAt_in 0 rfl _).trans ((A_eq2 (E6 m) c 0).trans (E7_of_ne m c _ (by decide)).symm)
  | 1 => ((dat2 (E6 m) c).arrAt_in 1 rfl _).trans ((A_eq2 (E6 m) c 1).trans (E7_of_ne m c _ (by decide)).symm)
  | 2 => (E7_out m c).symm
  | ⟨_ + 3, h⟩ => absurd h (Nat.not_lt.2 (Nat.le_add_left _ _))
theorem hrest2 (c : Dev nD) : ∀ b, b ∉ Finset.univ.image (Pipeline.arrRef spec2) → E7 m c b = E6 m c b :=
  fun b hb => E7_of_ne m c b fun e => hb (Finset.mem_image.mpr ⟨2, Finset.mem_univ _, e.symm⟩)

/-! ## The run, given the regions' records

The program's frame over one record per region, with the result buffer read off the last boundary's contents beside
the arguments. -/

set_option backward.isDefEq.respectTransparency.types false in
/-- For any user algebra, level assignment, launch dues and ghost resources, any rest states E the launch makes on
    every core at once and that end owing nothing, any contents the regions leave and any proof data: given, per
    region, a record entered from the thread state before it and left at the one after it, every weakly fair
    execution of @main from memory m with zero counters terminates, and every final memory holds the result buffer at
    the last boundary's contents and each argument as launched. -/
theorem run_regions {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Gen.Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : Pipeline.RegionSeg (pcfgs (F := F)) Gen.adm pdats ι defs₀ 𝒱₀ L lv 0)
    (hpre0 : ∀ c : Dev nD, iprop(StableHlo.held (c : Thread nD τ) (Pipeline.ucRefs τ sig) (Gen.V3 m c) ∗ E 0 c) ⊢ R0.pre c)
    (hpost0 : ∀ c : Dev nD, R0.post c ⊢ iprop(StableHlo.held (c : Thread nD τ) (Pipeline.ucRefs τ sig) (Gen.V4 m outs c) ∗ E 1 c))
    (R1 : Pipeline.RegionSeg (pcfgs (F := F)) Gen.adm pdats ι defs₀ 𝒱₀ L lv 1)
    (hpre1 : ∀ c : Dev nD, iprop(StableHlo.held (c : Thread nD τ) (Pipeline.ucRefs τ sig) (Gen.V5 m outs c) ∗ E 1 c) ⊢ R1.pre c)
    (hpost1 : ∀ c : Dev nD, R1.post c ⊢ iprop(StableHlo.held (c : Thread nD τ) (Pipeline.ucRefs τ sig) (Gen.V6 m outs c) ∗ E 2 c))
    (R2 : Pipeline.RegionSeg (pcfgs (F := F)) Gen.adm pdats ι defs₀ 𝒱₀ L lv 2)
    (hpre2 : ∀ c : Dev nD, iprop(StableHlo.held (c : Thread nD τ) (Pipeline.ucRefs τ sig) (Gen.V6 m outs c) ∗ E 2 c) ⊢ R2.pre c)
    (hpost2 : ∀ c : Dev nD, R2.post c ⊢ iprop(StableHlo.held (c : Thread nD τ) (Pipeline.ucRefs τ sig) (Gen.V7 m outs c) ∗ E 3 c)) :
    θ_run defs (onTc (τ := τ) (main (F := F))) ⟨m, fun _ => 0, ρ⟩ (fun r => ∀ c : Dev nD,
      r.2.mem ((c.tc : Thread nD τ).loc main_v16) = Gen.V8 m outs c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm pdats ι cellOf_inj EP defs₀ 𝒱₀ L lv m ρ main
    (Gen.segs m outs 𝒱₀ L lv E ι pdats R0 R1 R2)
    (fun c Q => by
      rewrite [main_chain c, Pipeline.Seg.run_eq_chain,
        show (Gen.segs m outs 𝒱₀ L lv E ι pdats R0 R1 R2 c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V8 m outs c))
    (hch := fun c => ⟨.rfl, .rfl, .rfl, hpre0 c, hpost0 c, hpre1 c, (hpost1 c).trans (hpre2 c), hpost2 c, sep_mono .rfl (hE3 c)⟩)
    (hinit := ?_)
    (QY := fun c s => s.mem ((c.tc : Thread nD τ).loc main_v16) = Gen.V8 m outs c main_v16
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: the unscoped buffers are held at the launch contents; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last boundary's contents
    unfold StableHlo.held
    iintro ⟨Hh, HSI⟩
    ihave Hr := (pointsTo_read_all (Pipeline.ucRefs τ sig) (fun b => ((c : Thread nD τ).1, b)) (Gen.V8 m outs c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (Gen.V8_main_arg0 m outs c),
        (h (Proc.devRef .tc main_arg1) (Finset.mem_filter.mpr ⟨StableHlo.devRef_mem_tcRefs main_arg1, by decide⟩)).trans (Gen.V8_main_arg1 m outs c),
        (h (Proc.devRef .tc main_arg2) (Finset.mem_filter.mpr ⟨StableHlo.devRef_mem_tcRefs main_arg2, by decide⟩)).trans (Gen.V8_main_arg2 m outs c),
        (h (Proc.devRef .tc main_arg3) (Finset.mem_filter.mpr ⟨StableHlo.devRef_mem_tcRefs main_arg3, by decide⟩)).trans (Gen.V8_main_arg3 m outs c)⟩
    · iexact HSI

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (E3 m) c
  | ⟨1, _⟩ => fun c => dat1 (E5 m) c
  | ⟨2, _⟩ => fun c => dat2 (E6 m) c

/-- No core owes another anything: no level is assigned. -/
abbrev L₀ : GSem nD τ sig → Finset Unit := fun _ => ∅
abbrev lv₀ : GSem nD τ sig → Unit → ℕ := fun _ _ => 0
/-- What rides beside the buffers through every item: the core's generator register at some state (each region's
    invariant takes it in and gives it back) and the core owing nothing. -/
abbrev Rst (c : Dev nD) : sProp 𝕄 := iprop((∃ r, prngReg c r) ∗ ∃ W, owes (c : Thread nD τ) (0 : CellTallies nD τ sig Unit) W)

/-! ## The regions as records

Each region is entered from every unscoped buffer at the boundary's contents beside the rest state, and left the same
way at the next boundary's contents. Its arrays are split out of the unscoped buffers at entry and put back at the exit
contents; the generator register goes into the region's invariant with the scoped buffers no window stages, and comes
back out of it; nothing is owed; the kernel has no semaphore of its own. -/

set_option backward.isDefEq.respectTransparency.types false in
/-- The linear region: entered at U3, left at U4. -/
def reg0 : Pipeline.RegionSeg (pcfgs (F := F)) Gen.adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L₀ lv₀ 0 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun w => A_eq0 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather region: entered at U5, left at U6. -/
def reg1 : Pipeline.RegionSeg (pcfgs (F := F)) Gen.adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L₀ lv₀ 1 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m c) fun w => A_eq1 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E5 m) c)
    unfold Pipeline.ΦA
    iintro ⟨Hp, -, Hr⟩
    isplitl [Hr]; · iexact Hr
    iexact Hp
  hout c := by
    rw [Pipeline.ownSems0_none]
    refine BIBase.Entails.trans (hout1 (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter region: entered at U6, left at U7. -/
def reg2 : Pipeline.RegionSeg (pcfgs (F := F)) Gen.adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ L₀ lv₀ 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E6 m c) fun w => A_eq2 (E6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E6 m) c)
    unfold Pipeline.ΦA
    iintro ⟨Hp, -, Hr⟩
    isplitl [Hr]; · iexact Hr
    iexact Hp
  hout c := by
    rw [Pipeline.ownSems0_none]
    refine BIBase.Entails.trans (hout2 (E6 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run

open Run

/-! ## The launch -/

set_option backward.isDefEq.respectTransparency.types false in
/-- Every weakly fair execution of @main from a memory with zero counters terminates; the result buffer ends at the
    last boundary's contents and the four argument arrays end as launched. -/
theorem run_main : θ_run defs (onTc (τ := τ) (main (F := F))) ⟨m, fun _ => 0, ρ⟩ (fun r => ∀ c : Dev nD,
      r.2.mem ((c.tc : Thread nD τ).loc main_v16) = U8 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_regions m ρ (emb₁ : Emb _ 𝕄) () Variants.none L₀ lv₀ (fun _ _ => rfl) (outU m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L₀ lv₀ fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl)
    (hpost0 := fun c => by rw [V4_eq]; exact .rfl)
    (R1 := reg1 m) (hpre1 := fun c => by rw [V5_eq]; exact .rfl)
    (hpost1 := fun c => by rw [V6_eq]; exact .rfl)
    (R2 := reg2 m) (hpre2 := fun c => by rw [V6_eq]; exact .rfl)
    (hpost2 := fun c => by rw [V7_eq]; exact .rfl)
  rw [show Gen.V8 m (outU m) = U8 m from funext (V8_eq m)] at h
  exact h

end Cert.KernelIdeal.Hand

end
-- ==== Proof.KB.Reg0.lean ====
/- Region 0 (the linear layer): on each block of 2048 node rows the body stores x_blk · Wᵀ + b, one grid point per block,
   nothing carried between points. What each window's buffer holds after the body, and the body's triple at every point. -/
import proofs.«412787_j352187319219_2_alg».proof.Proof.Gen.Kernel.Launch
import proofs.«412787_j352187319219_2_alg».proof.Proof.Gen.Kernel.Skeleton
import proofs.«412787_j352187319219_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output's buffer at point t: the node block times the transposed weights, plus the bias row. -/
def out0 (c : Dev nD) (t : Fin cfg0.N) : Vec F S2048x128 .bf16 :=
  k0_pay1 (iblk0 V c 0 t) (iblk0 V c 1 t) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0 V c t := by dsimp only [dat0]

/-! ## The inputs' buffers hold their blocks at every point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The node block is fetched at every point; an input the body leaves in place holds its block wherever it is found. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The transposed weights are fetched at the first point only: their block index never moves, the body leaves the
    buffer as found, so every later point finds the same block. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The same for the bias row. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body on whole staging buffers -/

/-- The offsets of the body's accesses, all at the origin. -/
theorem offs0_zero : (![0, 0] : Fin 2 → ℕ) = fun _ => 0 := by
  funext a; fin_cases a <;> rfl

/-- A load through the whole rectangle at the origin reads the buffer's contents: the node block, -/
theorem ld0_0 (X : Vec F S2048x128 .f32) :
    View.ld X (Rect.unit (s := S2048x128) ![0, 0] S2048x128.size inb_S2048x128_S2048x128_0_0) = X :=
  View.ld_unit_zero (S := S2048x128) offs0_zero _ X
/-- the transposed weights, -/
theorem ld0_1 (X : Vec F S128x128 .bf16) :
    View.ld X (Rect.unit (s := S128x128) ![0, 0] S128x128.size inb_S128x128_S128x128_0_0) = X :=
  View.ld_unit_zero (S := S128x128) offs0_zero _ X
/-- the bias row. -/
theorem ld0_2 (X : Vec F S1x128 .f32) :
    View.ld X (Rect.unit (s := S1x128) ![0, 0] S1x128.size inb_S1x128_S1x128_0_0) = X :=
  View.ld_unit_zero (S := S1x128) offs0_zero _ X

/-- One store through the whole rectangle at the origin covers the output's buffer (the one block of the buffer's own
    size, struck off by evaluation), -/
theorem cover0_3 (p : Vec F S2048x128 .bf16) (y : S2048x128.Idx) :
    ∃ pc ∈ ([⟨Rect.unit (s := S2048x128) ![0, 0] S2048x128.size inb_S2048x128_S2048x128_0_0, p⟩] :
      List (View.Piece (Elt F) S2048x128 .bf16)), y ∈ pc.1.set :=
  View.cover_of_tiledL _ S2048x128.size (by sl_kernel_rfl) y

/-- so the buffer then reads the stored value, whatever it held before. -/
theorem stored0_3 {κ : Kind} {sp : Space} (v : View sig κ sp S2048x128 .bf16) (f : v.ty.Contents (Elt F)) (p : Vec F S2048x128 .bf16) :
    v.read (Elt F) (v.writes (Elt F) f
      [⟨Rect.unit (s := S2048x128) ![0, 0] S2048x128.size inb_S2048x128_S2048x128_0_0, p⟩]) = p := by
  rw [View.read_writes_eq_canon _ _ _ (cover0_3 p)]
  exact View.canon_unit_zero (S := S2048x128) offs0_zero inb_S2048x128_S2048x128_0_0 p

/-- With the three inputs' buffers reading x0 (node block), x1 (transposed weights) and x2 (bias row) and the output's
    buffer at anything, the body reads each input whole, reads the output's buffer (a value nothing uses), and stores
    x0 · x1 + x2, rounded, over the whole output buffer: the inputs are left as found and the output reads that value,
    whatever it held before (one store over every index). -/
theorem sound_kernel0 (c : Dev nD) (E : Set ℕ) (i : grid0.Coords)
    (arg1 : Memref sig .tc .vmem S2048x128 .f32) (harg1 : arg1.IsWhole)
    (arg2 : Memref sig .tc .vmem S128x128 .bf16) (harg2 : arg2.IsWhole)
    (arg3 : Memref sig .tc .vmem S1x128 .f32) (harg3 : arg3.IsWhole)
    (arg4 : Memref sig .tc .vmem S2048x128 .bf16) (harg4 : arg4.IsWhole)
    (x0 : Vec F S2048x128 .f32) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the output reads back the stored value, and each load read its buffer's contents
  rw [stored0_3, View.readAt_eq_ld, View.readAt_eq_ld, View.readAt_eq_ld, ld0_0, ld0_1, ld0_2]

/-! ## The body obligation, at a generic point -/

/-- What the body is called with at point t: the class's invariant, what the core owes, and each window's current
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three inputs' buffers hold their blocks, so the body's triple applies; the invariant (every other
    region's buffers, the generator register) and the debt pass through unread: nothing is carried between points. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its windows written out one by one are the triple above. -/
theorem body_obligation0 (c : Dev nD) : BodyObligation (dat0 (F := F) V c) (defs₀ (F := F)) Variants.none () Set.univ := fun t => by
  rw [bigSep_W0, bigSep_W0]
  exact sound_body0 V c t

/-- The invariant is the class's at every point: what the launch hands the region is the invariant before the first point, -/
theorem hin0 (c : Dev nD) : Pipeline.ΦA spec0 c ⊢ (dat0 V c).Φ 0 := by
  show Pipeline.ΦA spec0 c ⊢ Pipeline.ΦA spec0 c
  exact Idealize.SL.BI.Entails.refl _

/-- and the invariant after the last point is what the region hands back. -/
theorem hout0 (c : Dev nD) : (dat0 V c).Φ (Fin.last cfg0.N) ⊢ Pipeline.ΦA spec0 c := by
  show Pipeline.ΦA spec0 c ⊢ Pipeline.ΦA spec0 c
  exact Idealize.SL.BI.Entails.refl _

end Cert.Kernel.Hand

end
-- ==== Proof.KB.Reg1.lean ====
/- Region 1 (the gather): for an edge block i the scratch accumulates, over the 20 node blocks j, the product of the
   one-hot matrix (source of edge r is node j·2048 + n) with node block j of h; it is reset at j = 0 and stored to the
   output block at j = 19. What the scratch holds after each point, the proof data, and the body's triple at every point. -/
import proofs.«412787_j352187319219_2_alg».proof.Proof.Gen.Kernel.Launch
import proofs.«412787_j352187319219_2_alg».proof.Proof.Gen.Kernel.Skeleton
import proofs.«412787_j352187319219_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch, a whole scoped buffer. -/
abbrev scM1 : Memref sig .tc .vmem S1280x128 .f32 := Memref.whole cc1_scratch0

/-- What the accumulator holds after the body at position n: this point's one-hot product added to the zero block at
    the first node block of an edge block (n ≡ 0 mod 20), to what the point before left otherwise. -/
def acc1 (c : Dev nD) : (n : ℕ) → n < cfg1.N → Vec F S1280x128 .f32
  | 0, hn => k1_pay2 (grid1.coords ⟨0, hn⟩) (iblk1 V c 0 ⟨0, hn⟩) (iblk1 V c 1 ⟨0, hn⟩) k1_pay1
  | n + 1, hn => k1_pay2 (grid1.coords ⟨n + 1, hn⟩) (iblk1 V c 0 ⟨n + 1, hn⟩) (iblk1 V c 1 ⟨n + 1, hn⟩)
      (if (n + 1) % 20 = 0 then k1_pay1 else acc1 c n (Nat.lt_of_succ_lt hn))

/-- What the body stores into the output's buffer at a point that stores it (n ≡ 19 mod 20): the accumulator. -/
def out1 (c : Dev nD) (t : Fin cfg1.N) : Vec F S1280x128 .bf16 := k1_pay3 (acc1 V c t.val t.isLt)

/-- A scoped buffer of the core held whole at some contents. -/
abbrev anyBuf1 (c : Dev nD) (b : Ref sig .tc) : sProp 𝕄 :=
  iprop(∃ f : Buf (Elt F) ((c : Thread nD τ).loc b), ((c : Thread nD τ).loc b) ↦{fullShare} f)

/-- The scoped buffers listed before the accumulator (the linear region's staging buffers), each at anything. -/
def restA1 (c : Dev nD) : sProp 𝕄 :=
  iprop(anyBuf1 (F := F) c cc0_stg0_0 ∗ anyBuf1 (F := F) c cc0_stg0_1 ∗ anyBuf1 (F := F) c cc0_stg1_0 ∗ anyBuf1 (F := F) c cc0_stg2_0
    ∗ anyBuf1 (F := F) c cc0_stg3_0 ∗ anyBuf1 (F := F) c cc0_stg3_1)

/-- The scoped buffers listed after it (the scatter region's staging buffers and its two accumulators), each at anything. -/
def restB1 (c : Dev nD) : sProp 𝕄 :=
  iprop(anyBuf1 (F := F) c cc2_stg0_0 ∗ anyBuf1 (F := F) c cc2_stg0_1 ∗ anyBuf1 (F := F) c cc2_stg1_0 ∗ anyBuf1 (F := F) c cc2_stg1_1
    ∗ anyBuf1 (F := F) c cc2_stg2_0 ∗ anyBuf1 (F := F) c cc2_stg2_1 ∗ anyBuf1 (F := F) c cc2_scratch0 ∗ anyBuf1 (F := F) c cc2_scratch1)

/-- The region invariant before position n: the class's before the first point; afterwards the accumulator at what
    the point before left, the other fourteen scoped buffers at anything, the generator register at some state. -/
def PhiS1 (c : Dev nD) : (n : ℕ) → n ≤ cfg1.N → sProp 𝕄
  | 0, _ => Pipeline.ΦA spec1 c
  | n + 1, hn => iprop(restA1 (F := F) c ∗ owns (c : Thread nD τ) scM1 fullShare (acc1 V c n hn) ∗ restB1 (F := F) c ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1 V c t := by dsimp only [dat1]

/-! ## The accumulator's recursion, read at a point -/

/-- At the first node block of an edge block the accumulator is this point's product over the zero block. -/
theorem acc1_reset (c : Dev nD) (t : Fin cfg1.N) (h : t.val % 20 = 0) :
    acc1 V c t.val t.isLt = k1_pay2 (grid1.coords t) (iblk1 V c 0 t) (iblk1 V c 1 t) k1_pay1 := by
  obtain ⟨n, hn⟩ := t
  cases n with
  | zero => rfl
  | succ n => exact congrArg (k1_pay2 _ _ _) (if_pos h)

/-- At any other node block it is this point's product over what the point before left. -/
theorem acc1_step (c : Dev nD) (t : Fin cfg1.N) (h : ¬t.val % 20 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-! ## The invariant's forms -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(restA1 (F := F) c ∗ owns (c : Thread nD τ) scM1 fullShare (acc1 V c n hn) ∗ restB1 (F := F) c ∗ ∃ r, prngReg c r) := rfl

theorem PhiS1_pos (c : Dev nD) (n : ℕ) (h : n ≤ cfg1.N) (hz : n ≠ 0) :
    PhiS1 V c n h
      = iprop(restA1 (F := F) c ∗ owns (c : Thread nD τ) scM1 fullShare (acc1 V c (n - 1) (by omega)) ∗ restB1 (F := F) c ∗ ∃ r, prngReg c r) := by
  cases n with
  | zero => exact absurd rfl hz
  | succ n => rfl

/-- The class's invariant with the accumulator taken out of the scoped rest: the fifteen scoped buffers in their listed
    order, the accumulator as a whole memref owned at some contents. -/
theorem PhiA1_open (c : Dev nD) :
    (Pipeline.ΦA spec1 c : sProp 𝕄)
      ⊢ iprop(restA1 (F := F) c ∗ (∃ d, owns (c : Thread nD τ) scM1 fullShare d) ∗ restB1 (F := F) c ∗ ∃ r, prngReg c r) := by
  unfold Pipeline.ΦA restA1 restB1; rw [scopedRest1_eq]; simp only [scM1, owns_whole]
  iintro ⟨⟨A0, A1, A2, A3, A4, A5, ⟨%f, S⟩, HB⟩, Hg⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [S]
  · iexists f; iexact S
  isplitl [HB]; · iexact HB
  iexact Hg

theorem PhiA1_close (c : Dev nD) :
    iprop(restA1 (F := F) c ∗ (∃ d, owns (c : Thread nD τ) scM1 fullShare d) ∗ restB1 (F := F) c ∗ ∃ r, prngReg c r)
      ⊢ (Pipeline.ΦA spec1 c : sProp 𝕄) := by
  unfold Pipeline.ΦA restA1 restB1; rw [scopedRest1_eq]; simp only [scM1, owns_whole]
  iintro ⟨⟨A0, A1, A2, A3, A4, A5⟩, ⟨%d, S⟩, HB, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [S]
  · iexists d; iexact S
  iexact HB

/-! ## Whole-rectangle loads and stores on a whole memref -/

/-- The zero offsets of a rank-2 shape, however they are spelt. -/
theorem zeroOff1 : (![0, 0] : Fin 2 → Nat) = fun _ => 0 := by
  funext a; fin_cases a <;> rfl

/-- A load through the whole-shape rectangle at zero offsets reads what the view reads. -/
theorem readAt_unit1 {sp : Space} {S : Shape} {e : EltTy} (v : View sig .tc sp S e) {off : Fin S.rank → Nat}
    (h : off = fun _ => 0) (inb : ∀ a, off a + S.size a ≤ S.size a) (g : v.ty.Contents (Elt F)) :
    v.readAt (Elt F) (Rect.unit off S.size inb).toLoadRect g = v.read (Elt F) g := by
  rw [View.readAt_eq_ld, View.ld_unit_zero h]

/-- So of a whole memref held at the contents that read X it reads X. -/
theorem readAt_unit1_unread {sp : Space} {S : Shape} {e : EltTy} {m : Memref sig .tc sp S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [readAt_unit1 _ h, hm.read_unread]

/-- A store through it, the last of a run of stores, read back, is the stored vector. -/
theorem read_writes_unit1 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-! ## The body's two conditionals, over the node-block coordinate -/

/-- The first conditional (the accumulator is reset): as the body computes it from the grid coordinates. -/
abbrev cond1_0 (i : grid1.Coords) : Prop :=
  (Scalar.cmpi .ne (Scalar.extui (Scalar.cmpi .eq (BitVec.ofNat 32 (i 1).val) 0#32)) 0#32) = 1#1
/-- The second (the accumulator is stored to the output block). -/
abbrev cond1_1 (i : grid1.Coords) : Prop := k1_cond2 i = 1#1

/-- The node-block coordinate of point t is t mod 20 (the last axis runs fastest). -/
theorem coord1_1 (t : Fin cfg1.N) : ((grid1.coords t) 1).val = t.val % 20 := by
  show t.val / 1 % 20 = t.val % 20
  rw [Nat.div_one]

theorem cond1_0_iff (i : grid1.Coords) : cond1_0 i ↔ (i 1).val = 0 := by
  unfold cond1_0; generalize i 1 = j; revert j; decide

theorem cond1_1_iff (i : grid1.Coords) : cond1_1 i ↔ (i 1).val = 19 := by
  unfold cond1_1 k1_cond2; generalize i 1 = j; revert j; decide

/-- The first holds at the points ≡ 0 (mod 20), -/
theorem hcond1_0 (t : Fin cfg1.N) : cond1_0 (grid1.coords t) ↔ t.val % 20 = 0 := by
  rw [cond1_0_iff, coord1_1]
/-- the second at the points ≡ 19 (mod 20). -/
theorem hcond1_1 (t : Fin cfg1.N) : cond1_1 (grid1.coords t) ↔ t.val % 20 = 19 := by
  rw [cond1_1_iff, coord1_1]

/-! ## Where the windows are idle -/

theorem liveAt1_0 (t : Fin cfg1.N) : cfg1.idle 0 (grid1.coords t) = false := rfl
theorem liveAt1_1 (t : Fin cfg1.N) : cfg1.idle 1 (grid1.coords t) = false := rfl
/-- The output window is idle wherever the second conditional fails, -/
theorem idleAt1_2 (t : Fin cfg1.N) (h : ¬t.val % 20 = 19) : cfg1.idle 2 (grid1.coords t) = true := by
  show (!(k1_cond2 (grid1.coords t) == 1#1)) = true
  rw [Bool.not_eq_true', beq_eq_false_iff_ne]
  exact fun e => h ((hcond1_1 t).mp e)
/-- is not written back there, -/
theorem noFlush1_2 (t : Fin cfg1.N) (h : ¬t.val % 20 = 19) : (cfg1.win 2).flush t = false :=
  Bool.eq_false_iff.mpr fun e => h ((flush1_2 t).mp e)
/-- and is live where it holds. -/
theorem liveAt1_2 (t : Fin cfg1.N) (h : t.val % 20 = 19) : cfg1.idle 2 (grid1.coords t) = false := by
  show (!(k1_cond2 (grid1.coords t) == 1#1)) = false
  rw [Bool.not_eq_false', beq_iff_eq]
  exact (hcond1_1 t).mpr h

/-! ## The body on any whole memrefs, one triple per control case -/

set_option maxHeartbeats 1000000 in
/-- First node block of an edge block: the accumulator, found at anything, is reset to the zero block and then holds this
    point's product added to it; the inputs' memrefs are left as found; the output's is not touched. -/
theorem kernel1_A (c : Dev nD) (i : grid1.Coords) (arg2 : Memref sig .tc .vmem S1280x1 .i32) (harg2 : arg2.IsWhole)
    (arg3 : Memref sig .tc .vmem S2048x128 .bf16) (harg3 : arg3.IsWhole) (arg4 : Memref sig .tc .vmem S1280x128 .bf16) (harg4 : arg4.IsWhole)
    (arg5 : Memref sig .tc .vmem S1280x128 .f32) (harg5 : arg5.IsWhole) (hc0 : cond1_0 i) (hc1 : ¬cond1_1 i)
    (x0 : Vec F S1280x1 .i32) (x1 : Vec F S2048x128 .bf16) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 i x0 x1 k1_pay1)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_unit1 _ _ zeroOff1, readAt_unit1_unread harg2 zeroOff1, readAt_unit1_unread harg3 zeroOff1,
    View.readCov_unit_zero _ zeroOff1]

set_option maxHeartbeats 1000000 in
/-- A node block strictly between the first and the last: the accumulator, found at what the point before left, then
    holds this point's product added to that; the rest as in the first case. -/
theorem kernel1_B (c : Dev nD) (i : grid1.Coords) (arg2 : Memref sig .tc .vmem S1280x1 .i32) (harg2 : arg2.IsWhole)
    (arg3 : Memref sig .tc .vmem S2048x128 .bf16) (harg3 : arg3.IsWhole) (arg4 : Memref sig .tc .vmem S1280x128 .bf16) (harg4 : arg4.IsWhole)
    (arg5 : Memref sig .tc .vmem S1280x128 .f32) (harg5 : arg5.IsWhole) (hc0 : ¬cond1_0 i) (hc1 : ¬cond1_1 i)
    (x0 : Vec F S1280x1 .i32) (x1 : Vec F S2048x128 .bf16) (xs : Vec F S1280x128 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_unit1 _ _ zeroOff1, readAt_unit1_unread harg2 zeroOff1, readAt_unit1_unread harg3 zeroOff1,
    readAt_unit1_unread harg5 zeroOff1]

set_option maxHeartbeats 1000000 in
/-- The last node block of an edge block: as the case before, and then the accumulator, rounded, is stored over the
    whole output memref, found at anything. -/
theorem kernel1_C (c : Dev nD) (i : grid1.Coords) (arg2 : Memref sig .tc .vmem S1280x1 .i32) (harg2 : arg2.IsWhole)
    (arg3 : Memref sig .tc .vmem S2048x128 .bf16) (harg3 : arg3.IsWhole) (arg4 : Memref sig .tc .vmem S1280x128 .bf16) (harg4 : arg4.IsWhole)
    (arg5 : Memref sig .tc .vmem S1280x128 .f32) (harg5 : arg5.IsWhole) (hc0 : ¬cond1_0 i) (hc1 : cond1_1 i)
    (x0 : Vec F S1280x1 .i32) (x1 : Vec F S2048x128 .bf16) (xs : Vec F S1280x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 i x0 x1 xs))
            ∗ owns (c : Thread nD τ) arg5 fullShare (k1_pay2 i x0 x1 xs)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_writes_unit1 _ _ zeroOff1, View.readCov_unit_zero _ zeroOff1, readAt_unit1_unread harg2 zeroOff1,
      readAt_unit1_unread harg3 zeroOff1, readAt_unit1_unread harg5 zeroOff1]
  iexists _; isplitr
  swap; · iexact HS
  ipureintro
  sl_unfold_run_names
  rw [read_writes_unit1 _ _ zeroOff1, readAt_unit1_unread harg2 zeroOff1, readAt_unit1_unread harg3 zeroOff1,
    readAt_unit1_unread harg5 zeroOff1]

/-! ## The proof data, read window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: unfetched, the block
    index has not moved since the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Each window's current staging memref at point t, as the pipeline passes it to the body, and its wholeness. -/
abbrev ms1_0 (t : Fin cfg1.N) : Memref sig .tc .vmem S1280x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x128 .bf16 := win1_2.stage (cfg1.slots t 2)
abbrev hs1_2 (t : Fin cfg1.N) : (ms1_2 t).IsWhole := hstage1_2 ((cfg1.slots t 2).cast nbuf1_2)

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1000000 in
/-- The body at any point. The inputs' memrefs hold their blocks; the position mod 20 says which control case the point
    is in. The invariant hands the body the accumulator (at anything at a first node block, where it is reset; at what the
    point before left elsewhere) and takes it back at this point's value of the recursion; the other scoped buffers, the
    generator register and what the core owes pass through untouched. The output's memref is handed back as found where
    the window is idle, and at the rounded accumulator at a last node block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % 20 = 0
  · have h1 : ¬t.val % 20 = 19 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t h1) (noFlush1_2 t h1)]
    rw [acc1_reset V c t h0]
    by_cases hz : t.val = 0
    · rw [PhiS1_zero V c _ _ hz]
      iintro ⟨HΦ, Ho, ⟨%d0, H0⟩, ⟨%d1, H1⟩, H2⟩
      icases (PhiA1_open (F := F) c) $$ HΦ with ⟨HA, HS, HB, Hg⟩
      iapply (kernel1_A c (grid1.coords t) _ _ _ _ _ _ _ _ hc0 hc1 (iblk1 V c 0 t) (iblk1 V c 1 t) Set.univ _)
      isplitl [H0]; · iexact H0
      isplitl [H1]; · iexact H1
      isplitl [HS]; · iexact HS
      iintro ⟨H0, H1, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2
    · rw [PhiS1_pos V c _ _ hz]
      iintro ⟨⟨HA, HS, HB, Hg⟩, Ho, ⟨%d0, H0⟩, ⟨%d1, H1⟩, H2⟩
      iapply (kernel1_A c (grid1.coords t) _ _ _ _ _ _ _ _ hc0 hc1 (iblk1 V c 0 t) (iblk1 V c 1 t) Set.univ _)
      isplitl [H0]; · iexact H0
      isplitl [H1]; · iexact H1
      isplitl [HS]; · iexists _; iexact HS
      iintro ⟨H0, H1, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2
  · have hz : t.val ≠ 0 := fun e => h0 (by rw [e])
    have hc0 : ¬cond1_0 (grid1.coords t) := fun h => h0 ((hcond1_0 t).mp h)
    rw [PhiS1_pos V c _ _ hz, acc1_step V c t h0]
    by_cases h1 : t.val % 20 = 19
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t h1], after1_2]
      unfold out1
      rw [acc1_step V c t h0]
      iintro ⟨⟨HA, HS, HB, Hg⟩, Ho, ⟨%d0, H0⟩, ⟨%d1, H1⟩, ⟨%d2, H2⟩⟩
      iapply (kernel1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t h1) (noFlush1_2 t h1)]
      iintro ⟨⟨HA, HS, HB, Hg⟩, Ho, ⟨%d0, H0⟩, ⟨%d1, H1⟩, H2⟩
      iapply (kernel1_B c (grid1.coords t) _ _ _ _ _ _ _ _ hc0 hc1 (iblk1 V c 0 t) (iblk1 V c 1 t) _ Set.univ _)
      isplitl [H0]; · iexact H0
      isplitl [H1]; · iexact H1
      isplitl [HS]; · iexact HS
      iintro ⟨H0, H1, HS⟩
      isplitl [HA HS HB Hg]
      · isplitl [HA]; · iexact HA
        isplitl [HS]; · iexact HS
        isplitl [HB]; · iexact HB
        iexact Hg
      isplitl [Ho]; · iexact Ho
      isplitl [H0]; · iexact H0
      isplitl [H1]; · iexact H1
      iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: what the accumulator holds is forgotten. -/
theorem Phi_out1 (c : Dev nD) (n : ℕ) (h : n ≤ cfg1.N) : PhiS1 V c n h ⊢ Pipeline.ΦA spec1 c := by
  cases n with
  | zero => exact Idealize.SL.BI.Entails.refl _
  | succ n =>
    rw [PhiS1_succ]
    iintro ⟨HA, HS, HB, Hg⟩
    iapply (PhiA1_close (F := F) c)
    isplitl [HA]; · iexact HA
    isplitl [HS]; · iexists _; iexact HS
    isplitl [HB]; · iexact HB
    iexact Hg

theorem hout1 (c : Dev nD) : (dat1 V c).Φ (Fin.last cfg1.N) ⊢ Pipeline.ΦA spec1 c := by
  rw [show (dat1 V c).Φ (Fin.last cfg1.N)
    = PhiS1 V c (Fin.last cfg1.N).val (Nat.le_of_lt_succ (Fin.last cfg1.N).isLt) from rfl]
  exact Phi_out1 V c _ _

end Cert.Kernel.Hand

end
-- ==== Proof.KB.Reg2.lean ====
/- Region 2 (the scatter and the mean): for a node block i the two scratches accumulate, over the 500 edge blocks j, the
   product of the one-hot matrix (destination of edge e is node i·2048 + r) with message block j, and the row sums of that
   matrix (the in-degree); both are reset at j = 0, and at j = 499 the quotient by max(degree, 1) is stored to the output
   block. What the scratches hold after each point, the proof data, and the body's triple at every point. -/
import proofs.«412787_j352187319219_2_alg».proof.Proof.Gen.Kernel.Launch
import proofs.«412787_j352187319219_2_alg».proof.Proof.Gen.Kernel.Skeleton
import proofs.«412787_j352187319219_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulator scratches, whole scoped buffers: the sums and the degrees. -/
abbrev scM2_0 : Memref sig .tc .vmem S2048x128 .f32 := Memref.whole cc2_scratch0
abbrev scM2_1 : Memref sig .tc .vmem S2048x1 .f32 := Memref.whole cc2_scratch1

/-- What the two accumulators (sums, degrees) hold after the body at position n: this point's contributions added to
    the zero blocks at the first edge block of a node block (n ≡ 0 mod 500), to what the point before left otherwise. -/
def acc2 (c : Dev nD) : (n : ℕ) → n < cfg2.N → Vec F S2048x128 .f32 × Vec F S2048x1 .f32
  | 0, hn => (k2_pay4 (grid2.coords ⟨0, hn⟩) (iblk2 V c 0 ⟨0, hn⟩) (iblk2 V c 1 ⟨0, hn⟩) k2_pay1,
              k2_pay5 (grid2.coords ⟨0, hn⟩) (iblk2 V c 0 ⟨0, hn⟩) k2_pay2)
  | n + 1, hn =>
      (k2_pay4 (grid2.coords ⟨n + 1, hn⟩) (iblk2 V c 0 ⟨n + 1, hn⟩) (iblk2 V c 1 ⟨n + 1, hn⟩)
          (if (n + 1) % 500 = 0 then k2_pay1 else (acc2 c n (Nat.lt_of_succ_lt hn)).1),
       k2_pay5 (grid2.coords ⟨n + 1, hn⟩) (iblk2 V c 0 ⟨n + 1, hn⟩)
          (if (n + 1) % 500 = 0 then k2_pay2 else (acc2 c n (Nat.lt_of_succ_lt hn)).2))

/-- What the body stores into the output's buffer at a point that stores it (n ≡ 499 mod 500): sums over max(degree, 1). -/
def out2 (c : Dev nD) (t : Fin cfg2.N) : Vec F S2048x128 .f32 :=
  k2_pay6 (acc2 V c t.val t.isLt).2 (acc2 V c t.val t.isLt).1

/-! ## The branch conditions over the grid -/

/-- The first conditional of the body (the reset of both accumulators): the edge-block coordinate is 0. -/
abbrev reg2_cond0 (i : grid2.Coords) : Prop := (Scalar.cmpi .ne (Scalar.extui (Scalar.cmpi .eq (BitVec.ofNat 32 (i 1).val) 0#32)) 0#32) = 1#1
/-- The second conditional (the store of the quotient into the output block): the edge-block coordinate is 499. -/
abbrev reg2_cond1 (i : grid2.Coords) : Prop := k2_cond2 i = 1#1

/-! ## A whole buffer loaded and stored through its whole rectangle -/

theorem reg2_zeros2 : (![0, 0] : Fin 2 → Nat) = fun _ => 0 := funext fun a => by fin_cases a <;> rfl
theorem reg2_zeros3 : (![0, 0, 0] : Fin 3 → Nat) = fun _ => 0 := funext fun a => by fin_cases a <;> rfl

section Whole

variable {Val : EltTy → Type} [∀ e, Nonempty (Val e)] {sg : RefSig} {κ : Kind} {sp : Space} {S : Shape} {e : EltTy}

/-- A load of a whole memref holding X, through the rectangle of the whole shape at zero offsets, reads X. -/
theorem reg2_load_whole {m : Memref sg κ sp S e} (h : m.IsWhole) {off : Fin S.rank → Nat} (h0 : off = fun _ => 0)
    (inb : ∀ a, off a + S.size a ≤ S.size a) (X : S.Idx → Val e) :
    m.view.readAt Val (Rect.unit off S.size inb) (h.unread X) = X := by
  rw [View.readAt_eq_ld, h.read_unread, View.ld_unit_zero h0]

/-- After a store of w through that rectangle, made last, the buffer reads w: whatever it held, whatever was stored before. -/
theorem reg2_read_store_whole (v : View sg κ sp S e) (f : v.ty.Contents Val) {off : Fin S.rank → Nat} (h0 : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h0 inb y⟩).trans
    (View.canon_cons_unit_zero h0 inb w L)

/-- A load through that rectangle of what such a store, made last, left reads w. -/
theorem reg2_load_store_whole (v : View sg κ sp S e) {off : Fin S.rank → Nat} (h0 : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h0 inb y⟩),
    View.canon_cons_unit_zero h0, View.ld_unit_zero h0]

end Whole

/-! ## The body on any whole memrefs, case by case -/

set_option maxHeartbeats 1000000 in
/-- A middle edge block (neither conditional taken): from the two input blocks x0 (destinations) and x1 (messages) and the
    accumulators at a0, a1, the body leaves the inputs as they were and the accumulators at this block's contributions
    added to a0, a1; the output block is not touched. -/
theorem reg2_run_B (c : Dev nD) (i : grid2.Coords)
    (arg2 : Memref sig .tc .vmem S1x1x1280 .i32) (harg2 : arg2.IsWhole) (arg3 : Memref sig .tc .vmem S1280x128 .bf16) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x1 .f32) (harg6 : arg6.IsWhole)
    (hc0 : ¬reg2_cond0 i) (hc1 : ¬reg2_cond1 i)
    (x0 : Vec F S1x1x1280 .i32) (x1 : Vec F S1280x128 .bf16) (a0 : Vec F S2048x128 .f32) (a1 : Vec F S2048x1 .f32)
    (E : Set ℕ) (K : PUnit → sProp 𝕄) :
    iprop(owns (c : Thread nD τ) arg2 fullShare x0 ∗ owns (c : Thread nD τ) arg3 fullShare x1
        ∗ owns (c : Thread nD τ) arg5 fullShare a0 ∗ owns (c : Thread nD τ) arg6 fullShare a1
        ∗ (iprop(owns (c : Thread nD τ) arg2 fullShare x0 ∗ owns (c : Thread nD τ) arg3 fullShare x1
            ∗ owns (c : Thread nD τ) arg5 fullShare (k2_pay4 i x0 x1 a0) ∗ owns (c : Thread nD τ) arg6 fullShare (k2_pay5 i x0 a1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H5]
  · iexists _; isplitr; swap; · iexact H5
    ipureintro
    rw [reg2_read_store_whole _ _ reg2_zeros2, reg2_load_whole harg2 reg2_zeros3, reg2_load_whole harg3 reg2_zeros2, reg2_load_whole harg5 reg2_zeros2]
  · iexists _; isplitr; swap; · iexact H6
    ipureintro
    rw [reg2_read_store_whole _ _ reg2_zeros2, reg2_load_whole harg2 reg2_zeros3, reg2_load_whole harg6 reg2_zeros2]

set_option maxHeartbeats 1000000 in
/-- The first edge block of a node block (the reset taken, the output's store not): whatever the accumulators held, the body
    leaves them at this block's contributions added to the zero blocks; the output block is not touched. -/
theorem reg2_run_A (c : Dev nD) (i : grid2.Coords)
    (arg2 : Memref sig .tc .vmem S1x1x1280 .i32) (harg2 : arg2.IsWhole) (arg3 : Memref sig .tc .vmem S1280x128 .bf16) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x1 .f32) (harg6 : arg6.IsWhole)
    (hc0 : reg2_cond0 i) (hc1 : ¬reg2_cond1 i)
    (x0 : Vec F S1x1x1280 .i32) (x1 : Vec F S1280x128 .bf16)
    (E : Set ℕ) (K : PUnit → sProp 𝕄) :
    iprop(owns (c : Thread nD τ) arg2 fullShare x0 ∗ owns (c : Thread nD τ) arg3 fullShare x1
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg5 fullShare (k2_pay4 i x0 x1 k2_pay1) ∗ owns (c : Thread nD τ) arg6 fullShare (k2_pay5 i x0 k2_pay2)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H5]
  · iexists _; isplitr; swap; · iexact H5
    ipureintro
    sl_unfold_words
    rw [reg2_read_store_whole (S := S2048x128) _ _ reg2_zeros2, reg2_load_whole harg2 reg2_zeros3, reg2_load_whole harg3 reg2_zeros2,
      reg2_load_store_whole (S := S2048x128) _ reg2_zeros2]
  · iexists _; isplitr; swap; · iexact H6
    ipureintro
    sl_unfold_words
    rw [reg2_read_store_whole (S := S2048x1) _ _ reg2_zeros2, reg2_load_whole harg2 reg2_zeros3, reg2_load_store_whole (S := S2048x1) _ reg2_zeros2]

set_option maxHeartbeats 1000000 in
/-- The last edge block of a node block (the reset not taken, the output's store taken): as a middle block, and then the
    output block, whatever it held, is left at the quotient of the new sums by the new degrees (at least one). -/
theorem reg2_run_C (c : Dev nD) (i : grid2.Coords)
    (arg2 : Memref sig .tc .vmem S1x1x1280 .i32) (harg2 : arg2.IsWhole) (arg3 : Memref sig .tc .vmem S1280x128 .bf16) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x1 .f32) (harg6 : arg6.IsWhole)
    (hc0 : ¬reg2_cond0 i) (hc1 : reg2_cond1 i)
    (x0 : Vec F S1x1x1280 .i32) (x1 : Vec F S1280x128 .bf16) (a0 : Vec F S2048x128 .f32) (a1 : Vec F S2048x1 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare a0 ∗ owns (c : Thread nD τ) arg6 fullShare a1
        ∗ (iprop(owns (c : Thread nD τ) arg2 fullShare x0 ∗ owns (c : Thread nD τ) arg3 fullShare x1
            ∗ owns (c : Thread nD τ) arg4 fullShare (k2_pay6 (k2_pay5 i x0 a1) (k2_pay4 i x0 x1 a0))
            ∗ owns (c : Thread nD τ) arg5 fullShare (k2_pay4 i x0 x1 a0) ∗ owns (c : Thread nD τ) arg6 fullShare (k2_pay5 i x0 a1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; swap; · iexact H4
    ipureintro
    sl_unfold_words
    rw [reg2_read_store_whole (S := S2048x128) _ _ reg2_zeros2, reg2_load_store_whole (S := S2048x1) _ reg2_zeros2,
      reg2_load_store_whole (S := S2048x128) _ reg2_zeros2,
      reg2_load_whole harg2 reg2_zeros3, reg2_load_whole harg3 reg2_zeros2, reg2_load_whole harg5 reg2_zeros2, reg2_load_whole harg6 reg2_zeros2]
  isplitl [H5]
  · iexists _; isplitr; swap; · iexact H5
    ipureintro
    sl_unfold_words
    rw [reg2_read_store_whole (S := S2048x128) _ _ reg2_zeros2, reg2_load_whole harg2 reg2_zeros3, reg2_load_whole harg3 reg2_zeros2, reg2_load_whole harg5 reg2_zeros2]
  · iexists _; isplitr; swap; · iexact H6
    ipureintro
    sl_unfold_words
    rw [reg2_read_store_whole (S := S2048x1) _ _ reg2_zeros2, reg2_load_whole harg2 reg2_zeros3, reg2_load_whole harg6 reg2_zeros2]

/-! ## The conditions in closed form, and where the output window is idle -/

/-- The reset is taken exactly at the first edge block of a node block. -/
theorem reg2_hcond0 : ∀ t : Fin cfg2.N, reg2_cond0 (grid2.coords t) ↔ t.val % 500 = 0 :=
  (by decide +kernel : ∀ t : Fin grid2.N, reg2_cond0 (grid2.coords t) ↔ t.val % 500 = 0)
/-- The output block is stored exactly at the last edge block of a node block. -/
theorem reg2_hcond1 : ∀ t : Fin cfg2.N, reg2_cond1 (grid2.coords t) ↔ t.val % 500 = 499 :=
  (by decide +kernel : ∀ t : Fin grid2.N, reg2_cond1 (grid2.coords t) ↔ t.val % 500 = 499)

/-- The two input windows are never idle. -/
theorem reg2_liveAt0 (i : grid2.Coords) : cfg2.idle 0 i = false := rfl
theorem reg2_liveAt1 (i : grid2.Coords) : cfg2.idle 1 i = false := rfl
/-- The output window is idle exactly where the body does not store into it, -/
theorem reg2_idleAt2 (i : grid2.Coords) (h : ¬reg2_cond1 i) : cfg2.idle 2 i = true := by
  show (!(k2_cond2 i == 1#1)) = true
  rw [Bool.not_eq_true', beq_eq_false_iff_ne]; exact h
theorem reg2_liveAt2 (i : grid2.Coords) (h : reg2_cond1 i) : cfg2.idle 2 i = false := by
  show (!(k2_cond2 i == 1#1)) = false
  rw [h]; rfl
/-- and there its block is not written back. -/
theorem reg2_noFlush2 (t : Fin cfg2.N) (h : ¬t.val % 500 = 499) : (cfg2.win 2).flush t = false :=
  Bool.eq_false_iff.mpr fun hf => h ((flush2_2 t).mp hf)

/-! ## The invariant -/

/-- A scoped buffer of the core, whole, at some contents. -/
abbrev reg2_anyBuf (c : Dev nD) (b : Ref sig .tc) : sProp 𝕄 :=
  iprop(∃ f : Buf (Elt F) ((c : Thread nD τ).loc b), ((c : Thread nD τ).loc b) ↦{fullShare} f)

/-- The staging buffers of the linear layer and of the gather and the gather's accumulator: thirteen scoped buffers the
    scatter never touches, each at some contents. -/
def reg2_rest (c : Dev nD) : sProp 𝕄 :=
  iprop(reg2_anyBuf c cc0_stg0_0 ∗ reg2_anyBuf c cc0_stg0_1 ∗ reg2_anyBuf c cc0_stg1_0 ∗ reg2_anyBuf c cc0_stg2_0 ∗ reg2_anyBuf c cc0_stg3_0 ∗ reg2_anyBuf c cc0_stg3_1
    ∗ reg2_anyBuf c cc1_stg0_0 ∗ reg2_anyBuf c cc1_stg0_1 ∗ reg2_anyBuf c cc1_stg1_0 ∗ reg2_anyBuf c cc1_stg1_1 ∗ reg2_anyBuf c cc1_stg2_0 ∗ reg2_anyBuf c cc1_stg2_1
    ∗ reg2_anyBuf c cc1_scratch0)

/-- What the launch hands the region, conjunct by conjunct: those thirteen, the two accumulators at some contents, the
    generator register at some state. -/
theorem reg2_PhiA_eq (c : Dev nD) :
    (Pipeline.ΦA spec2 c : sProp 𝕄)
      = iprop(iprop(reg2_rest c ∗ (∃ d, owns (c : Thread nD τ) scM2_0 fullShare d) ∗ (∃ d, owns (c : Thread nD τ) scM2_1 fullShare d))
          ∗ (∃ r, prngReg c r)) := by
  unfold Pipeline.ΦA reg2_rest; rw [scopedRest2_eq]; simp only [scM2_0, scM2_1, owns_whole]
  have both : ∀ X Y : sProp 𝕄, (X ⊢ Y) → (Y ⊢ X) → X = Y := fun _ _ h₁ h₂ => BI.equiv_iff.mp ⟨h₁, h₂⟩
  refine both _ _ ?_ ?_
  · iintro ⟨⟨R0, R1, R2, R3, R4, R5, R6, R7, R8, R9, R10, R11, R12, HS0, HS1⟩, Hg⟩
    isplitl [R0 R1 R2 R3 R4 R5 R6 R7 R8 R9 R10 R11 R12 HS0 HS1]
    · isplitl [R0 R1 R2 R3 R4 R5 R6 R7 R8 R9 R10 R11 R12]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        iexact R12
      isplitl [HS0]; · iexact HS0
      iexact HS1
    iexact Hg
  · iintro ⟨⟨⟨R0, R1, R2, R3, R4, R5, R6, R7, R8, R9, R10, R11, R12⟩, HS0, HS1⟩, Hg⟩
    isplitl [R0 R1 R2 R3 R4 R5 R6 R7 R8 R9 R10 R11 R12 HS0 HS1]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [HS0]; · iexact HS0
      iexact HS1
    iexact Hg

/-- The region invariant before position n: before the first point what the launch hands the region; afterwards the two
    accumulators at what the point before left, the other thirteen scoped buffers at anything, the generator register at
    some state. -/
def PhiS2 (c : Dev nD) : (n : ℕ) → n ≤ cfg2.N → sProp 𝕄
  | 0, _ => Pipeline.ΦA spec2 c
  | n + 1, hn => iprop(iprop(reg2_rest c ∗ owns (c : Thread nD τ) scM2_0 fullShare (acc2 V c n hn).1
      ∗ owns (c : Thread nD τ) scM2_1 fullShare (acc2 V c n hn).2) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2 V c t := by dsimp only [dat2]

/-! ## The invariant position by position -/

theorem reg2_PhiS_zero (c : Dev nD) (n : ℕ) (h : n ≤ cfg2.N) (hz : n = 0) : PhiS2 V c n h = Pipeline.ΦA spec2 c := by
  subst hz; rfl

/-- After point n: the accumulators at that point's contents. -/
theorem reg2_PhiS_succ (c : Dev nD) (n : ℕ) (hn : n < cfg2.N) :
    PhiS2 V c (n + 1) hn = iprop(iprop(reg2_rest c ∗ owns (c : Thread nD τ) scM2_0 fullShare (acc2 V c n hn).1
      ∗ owns (c : Thread nD τ) scM2_1 fullShare (acc2 V c n hn).2) ∗ (∃ r, prngReg c r)) := rfl

/-- Before a point that is not the first: the accumulators at what the point before left. -/
theorem reg2_PhiS_pos (c : Dev nD) (n : ℕ) (h : n ≤ cfg2.N) (hz : n ≠ 0) :
    PhiS2 V c n h = iprop(iprop(reg2_rest c ∗ owns (c : Thread nD τ) scM2_0 fullShare (acc2 V c (n - 1) (by omega)).1
      ∗ owns (c : Thread nD τ) scM2_1 fullShare (acc2 V c (n - 1) (by omega)).2) ∗ (∃ r, prngReg c r)) := by
  cases n with
  | zero => exact absurd rfl hz
  | succ n => rfl

/-- The invariant at a point's start, restated at the point's position. -/
theorem reg2_PhiS_castSucc (c : Dev nD) (t : Fin cfg2.N) :
    (dat2 V c).Φ t.castSucc = PhiS2 V c t.val (Nat.le_of_lt t.isLt) := by
  dsimp only [dat2]; simp only [Fin.coe_castSucc]

/-! ## What the windows' buffers hold around the body -/

theorem reg2_after0 (c : Dev nD) (t : Fin cfg2.N) : (dat2 V c).after 0 t = iblk2 V c 0 t := by dsimp only [dat2]
theorem reg2_after1 (c : Dev nD) (t : Fin cfg2.N) : (dat2 V c).after 1 t = iblk2 V c 1 t := by dsimp only [dat2]

/-- Each input window's current buffer holds its block at every point: the body leaves it in place, and unfetched the block
    index has not moved. -/
theorem reg2_before0 (c : Dev nD) (t : Fin cfg2.N) (d) : (dat2 V c).before 0 t d = iblk2 V c 0 t :=
  ((dat2 V c).before_in_eq_fetched 0 rfl (fun _ => rfl) (fun _ _ _ => rfl)
      (fun t => by rw [reg2_after0]; unfold Dat.blockOf iblk2; rw [A_eq2]; try rfl) t d).trans
    (by unfold Dat.fetched Dat.blockOf iblk2; rw [A_eq2]; try rfl)
theorem reg2_before1 (c : Dev nD) (t : Fin cfg2.N) (d) : (dat2 V c).before 1 t d = iblk2 V c 1 t :=
  ((dat2 V c).before_in_eq_fetched 1 rfl (fun _ => rfl) (fun _ _ _ => rfl)
      (fun t => by rw [reg2_after1]; unfold Dat.blockOf iblk2; rw [A_eq2]; try rfl) t d).trans
    (by unfold Dat.fetched Dat.blockOf iblk2; rw [A_eq2]; try rfl)

/-! ## The accumulators point by point -/

/-- At the first edge block of a node block both accumulators restart from the zero blocks. -/
theorem reg2_acc_first (c : Dev nD) (t : Fin cfg2.N) (h0 : t.val % 500 = 0) :
    acc2 V c t.val t.isLt = (k2_pay4 (grid2.coords t) (iblk2 V c 0 t) (iblk2 V c 1 t) k2_pay1,
      k2_pay5 (grid2.coords t) (iblk2 V c 0 t) k2_pay2) := by
  obtain ⟨n, hn⟩ := t
  cases n with
  | zero => rfl
  | succ n =>
    have h0' : (n + 1) % 500 = 0 := h0
    show acc2 V c (n + 1) hn = _
    rw [acc2, if_pos h0', if_pos h0']

/-- At any other edge block they go on from what the point before left. -/
theorem reg2_acc_next (c : Dev nD) (t : Fin cfg2.N) (h0 : ¬t.val % 500 = 0) :
    acc2 V c t.val t.isLt
      = (k2_pay4 (grid2.coords t) (iblk2 V c 0 t) (iblk2 V c 1 t) (acc2 V c (t.val - 1) (Nat.lt_of_le_of_lt (Nat.sub_le _ _) t.isLt)).1,
         k2_pay5 (grid2.coords t) (iblk2 V c 0 t) (acc2 V c (t.val - 1) (Nat.lt_of_le_of_lt (Nat.sub_le _ _) t.isLt)).2) := by
  obtain ⟨n, hn⟩ := t
  cases n with
  | zero => exact absurd (Nat.zero_mod _) h0
  | succ n =>
    have h0' : ¬(n + 1) % 500 = 0 := h0
    show acc2 V c (n + 1) hn = _
    rw [acc2, if_neg h0', if_neg h0']
    rfl

theorem reg2_acc_first_1 (c : Dev nD) (t : Fin cfg2.N) (h0 : t.val % 500 = 0) :
    (acc2 V c t.val t.isLt).1 = k2_pay4 (grid2.coords t) (iblk2 V c 0 t) (iblk2 V c 1 t) k2_pay1 := by
  rw [reg2_acc_first V c t h0]
theorem reg2_acc_first_2 (c : Dev nD) (t : Fin cfg2.N) (h0 : t.val % 500 = 0) :
    (acc2 V c t.val t.isLt).2 = k2_pay5 (grid2.coords t) (iblk2 V c 0 t) k2_pay2 := by
  rw [reg2_acc_first V c t h0]
theorem reg2_acc_next_1 (c : Dev nD) (t : Fin cfg2.N) (h0 : ¬t.val % 500 = 0) :
    (acc2 V c t.val t.isLt).1
      = k2_pay4 (grid2.coords t) (iblk2 V c 0 t) (iblk2 V c 1 t) (acc2 V c (t.val - 1) (Nat.lt_of_le_of_lt (Nat.sub_le _ _) t.isLt)).1 := by
  rw [reg2_acc_next V c t h0]
theorem reg2_acc_next_2 (c : Dev nD) (t : Fin cfg2.N) (h0 : ¬t.val % 500 = 0) :
    (acc2 V c t.val t.isLt).2
      = k2_pay5 (grid2.coords t) (iblk2 V c 0 t) (acc2 V c (t.val - 1) (Nat.lt_of_le_of_lt (Nat.sub_le _ _) t.isLt)).2 := by
  rw [reg2_acc_next V c t h0]

/-! ## The body obligation, at a generic point -/

/-- Each window's current staging memref at point t, and its wholeness. -/
abbrev reg2_ms0 (t : Fin cfg2.N) : Memref sig .tc .vmem S1x1x1280 .i32 := win2_0.stage (cfg2.slots t 0)
abbrev reg2_hs0 (t : Fin cfg2.N) : (reg2_ms0 t).IsWhole := hstage2_0 ((cfg2.slots t 0).cast nbuf2_0)
abbrev reg2_ms1 (t : Fin cfg2.N) : Memref sig .tc .vmem S1280x128 .bf16 := win2_1.stage (cfg2.slots t 1)
abbrev reg2_hs1 (t : Fin cfg2.N) : (reg2_ms1 t).IsWhole := hstage2_1 ((cfg2.slots t 1).cast nbuf2_1)
abbrev reg2_ms2 (t : Fin cfg2.N) : Memref sig .tc .vmem S2048x128 .f32 := win2_2.stage (cfg2.slots t 2)
abbrev reg2_hs2 (t : Fin cfg2.N) : (reg2_ms2 t).IsWhole := hstage2_2 ((cfg2.slots t 2).cast nbuf2_2)

/-- What the body is called with at point t, the windows one by one, -/
def reg2_bodyPre (c : Dev nD) (t : Fin cfg2.N) : sProp 𝕄 :=
  iprop((dat2 V c).Φ t.castSucc ∗ (dat2 V c).owesAt () t.castSucc
    ∗ (∃ d, owns (c : Thread nD τ) (reg2_ms0 t) fullShare ((dat2 V c).before 0 t d))
    ∗ (∃ d, owns (c : Thread nD τ) (reg2_ms1 t) fullShare ((dat2 V c).before 1 t d))
    ∗ (∃ d, owns (c : Thread nD τ) (reg2_ms2 t) fullShare ((dat2 V c).before 2 t d)))

/-- and what it returns. -/
def reg2_bodyPost (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the position of the point among its node block's 500 edge
    blocks says which case it is in. The invariant hands the body the two accumulators — at anything at the very first point,
    at what the point before left afterwards — and takes them back at this point's contents; the other scoped buffers and the
    generator register pass through untouched; the core owes nothing throughout. The output block is handed back as found
    except at the last edge block, where it is left at the quotient. -/
theorem reg2_sound_body (c : Dev nD) (t : Fin cfg2.N) :
    reg2_bodyPre V c t ⊢ wp frame (wpE (defs₀ (F := F)) Variants.none c none) Set.univ (bodyAt2 t) (fun _ => reg2_bodyPost V c t) := by
  unfold reg2_bodyPre reg2_bodyPost bodyAt2
  simp only [reg2_before0, reg2_before1]
  rw [show (dat2 V c).owesAt () t.succ = (dat2 V c).owesAt () t.castSucc from rfl]
  rw [show (dat2 V c).Φ t.succ = PhiS2 V c (t.val + 1) t.isLt from rfl, reg2_PhiS_succ]
  rw [show (dat2 V c).leavesExact 0 t = owns (c : Thread nD τ) (reg2_ms0 t) fullShare ((dat2 V c).after 0 t) from by
    unfold Dat.leavesExact; rw [reg2_liveAt0], reg2_after0]
  rw [show (dat2 V c).leavesExact 1 t = owns (c : Thread nD τ) (reg2_ms1 t) fullShare ((dat2 V c).after 1 t) from by
    unfold Dat.leavesExact; rw [reg2_liveAt1], reg2_after1]
  have hN : t.val < 10000 := lt_of_lt_of_eq t.isLt (show cfg2.N = 10000 from N_2)
  by_cases h0 : t.val % 500 = 0
  · have h1 : ¬t.val % 500 = 499 := by omega
    have hc0 : reg2_cond0 (grid2.coords t) := (reg2_hcond0 t).mpr h0
    have hc1 : ¬reg2_cond1 (grid2.coords t) := fun h => h1 ((reg2_hcond1 t).mp h)
    rw [Dat.leavesExact_idle (dat2 V c) 2 t (reg2_idleAt2 _ hc1) (reg2_noFlush2 t h1)]
    rw [reg2_acc_first_1 V c t h0, reg2_acc_first_2 V c t h0]
    by_cases hz : t.val = 0
    · rw [reg2_PhiS_castSucc V c t, reg2_PhiS_zero V c _ _ hz, reg2_PhiA_eq]
      iintro ⟨⟨⟨HR, HS0, HS1⟩, Hg⟩, Ho, ⟨%d0, H0⟩, ⟨%d1, H1⟩, H2⟩
      iapply (reg2_run_A c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) Set.univ _)
      isplitl [H0]; · iexact H0
      isplitl [H1]; · iexact H1
      isplitl [HS0]; · iexact HS0
      isplitl [HS1]; · iexact HS1
      iintro ⟨H0, H1, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2
    · rw [reg2_PhiS_castSucc V c t, reg2_PhiS_pos V c _ _ hz]
      iintro ⟨⟨⟨HR, HS0, HS1⟩, Hg⟩, Ho, ⟨%d0, H0⟩, ⟨%d1, H1⟩, H2⟩
      iapply (reg2_run_A c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) Set.univ _)
      isplitl [H0]; · iexact H0
      isplitl [H1]; · iexact H1
      isplitl [HS0]; · iexists _; iexact HS0
      isplitl [HS1]; · iexists _; iexact HS1
      iintro ⟨H0, H1, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2
  · have hz : t.val ≠ 0 := fun e => h0 (by rw [e])
    have hc0 : ¬reg2_cond0 (grid2.coords t) := fun h => h0 ((reg2_hcond0 t).mp h)
    rw [reg2_acc_next_1 V c t h0, reg2_acc_next_2 V c t h0]
    rw [reg2_PhiS_castSucc V c t, reg2_PhiS_pos V c _ _ hz]
    by_cases h1 : t.val % 500 = 499
    · have hc1 : reg2_cond1 (grid2.coords t) := (reg2_hcond1 t).mpr h1
      rw [show (dat2 V c).leavesExact 2 t = owns (c : Thread nD τ) (reg2_ms2 t) fullShare ((dat2 V c).after 2 t) from by
        unfold Dat.leavesExact; rw [reg2_liveAt2 _ hc1], after2_2]
      unfold out2
      rw [reg2_acc_next_1 V c t h0, reg2_acc_next_2 V c t h0]
      iintro ⟨⟨⟨HR, HS0, HS1⟩, Hg⟩, Ho, ⟨%d0, H0⟩, ⟨%d1, H1⟩, ⟨%d2, H2⟩⟩
      iapply (reg2_run_C c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2
    · have hc1 : ¬reg2_cond1 (grid2.coords t) := fun h => h1 ((reg2_hcond1 t).mp h)
      rw [Dat.leavesExact_idle (dat2 V c) 2 t (reg2_idleAt2 _ hc1) (reg2_noFlush2 t h1)]
      iintro ⟨⟨⟨HR, HS0, HS1⟩, Hg⟩, Ho, ⟨%d0, H0⟩, ⟨%d1, H1⟩, H2⟩
      iapply (reg2_run_B c (grid2.coords t) (reg2_ms0 t) (reg2_hs0 t) (reg2_ms1 t) (reg2_hs1 t) (reg2_ms2 t) (reg2_hs2 t) scM2_0 (Memref.isWhole_whole _)
        scM2_1 (Memref.isWhole_whole _) hc0 hc1 (iblk2 V c 0 t) (iblk2 V c 1 t) _ _ Set.univ _)
      isplitl [H0]; · iexact H0
      isplitl [H1]; · iexact H1
      isplitl [HS0]; · iexact HS0
      isplitl [HS1]; · iexact HS1
      iintro ⟨H0, H1, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      iexact H2

theorem body_obligation2 (c : Dev nD) : BodyObligation (dat2 (F := F) V c) (defs₀ (F := F)) Variants.none () Set.univ := fun t => by
  rw [bigSep_W2, bigSep_W2]
  exact reg2_sound_body V c t

theorem hin2 (c : Dev nD) : Pipeline.ΦA spec2 c ⊢ (dat2 V c).Φ 0 := by
  rw [show (dat2 V c).Φ 0 = PhiS2 V c 0 (Nat.zero_le _) from rfl, reg2_PhiS_zero V c 0 _ rfl]

/-- After any point the invariant gives back what the launch handed the region: the accumulators' named contents are forgotten. -/
theorem reg2_Phi_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, reg2_PhiS_pos V c _ _ ht, reg2_PhiA_eq]
  iintro ⟨⟨HR, HS0, HS1⟩, Hg⟩
  isplitl [HR HS0 HS1]
  · isplitl [HR]; · iexact HR
    isplitl [HS0]; · iexists _; iexact HS0
    iexists _; iexact HS1
  iexact Hg

theorem hout2 (c : Dev nD) : (dat2 V c).Φ (Fin.last cfg2.N) ⊢ Pipeline.ΦA spec2 c :=
  reg2_Phi_out V c _ (by rw [Fin.val_last]; have : cfg2.N = 10000 := N_2; omega)

end Cert.Kernel.Hand

end
-- ==== Proof.KB.Vals.lean ====
/- The contents of the TensorCore's unscoped buffers at each boundary of the program's eight items (three host stretches,
   the linear region, a host stretch, the gather region, the scatter region, a host stretch): the launch memory folded
   through the host stretches, each region's output array replaced by what the region's write-backs leave. -/
import proofs.«412787_j352187319219_2_alg».proof.Proof.KB.Reg0
import proofs.«412787_j352187319219_2_alg».proof.Proof.KB.Reg1
import proofs.«412787_j352187319219_2_alg».proof.Proof.KB.Reg2
import proofs.«412787_j352187319219_2_alg».proof.Proof.Gen.Kernel.Regions

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- Before the linear region: the launch memory after the three host stretches (the padded nodes, the transposed
    weights, the bias row). -/
abbrev U3 (c : Dev nD) : Valuation τ sig (Elt F) := Gen.V3 m c
/-- The same read at the TensorCore's references: what the linear region's proof data take. -/
abbrev E3 : (c : Dev nD) → (b : Ref sig .tc) → Buf (Elt F) ((c : Thread nD τ).loc b) := fun c b => U3 m c b
/-- What the linear region leaves in its output array. -/
def o4 (c : Dev nD) : Buf (Elt F) ((c : Thread nD τ).loc main_v4) := (dat0 (E3 m) c).arrAt 3 cfg0.N
/-- After the linear region. -/
abbrev U4 (c : Dev nD) : Valuation τ sig (Elt F) := Function.update (U3 m c) main_v4 (o4 m c)
/-- Before the gather region: after the host stretch that zeroes the padded rows and lays out the edge indices. -/
abbrev U5 (c : Dev nD) : Valuation τ sig (Elt F) := StableHlo.after hostOps1 (U4 m c)
abbrev E5 : (c : Dev nD) → (b : Ref sig .tc) → Buf (Elt F) ((c : Thread nD τ).loc b) := fun c b => U5 m c b
/-- What the gather region leaves in its output array. -/
def o6 (c : Dev nD) : Buf (Elt F) ((c : Thread nD τ).loc main_v14) := (dat1 (E5 m) c).arrAt 2 cfg1.N
/-- After the gather region, which is where the scatter region is entered. -/
abbrev U6 (c : Dev nD) : Valuation τ sig (Elt F) := Function.update (U5 m c) main_v14 (o6 m c)
abbrev E6 : (c : Dev nD) → (b : Ref sig .tc) → Buf (Elt F) ((c : Thread nD τ).loc b) := fun c b => U6 m c b
/-- What the scatter region leaves in its output array. -/
def o7 (c : Dev nD) : Buf (Elt F) ((c : Thread nD τ).loc main_v15) := (dat2 (E6 m) c).arrAt 2 cfg2.N
/-- After the scatter region. -/
abbrev U7 (c : Dev nD) : Valuation τ sig (Elt F) := Function.update (U6 m c) main_v15 (o7 m c)
/-- At the return: after the closing slice. -/
abbrev U8 (c : Dev nD) : Valuation τ sig (Elt F) := StableHlo.after hostOps3 (U7 m c)

end Cert.Kernel.Hand

end
-- ==== Proof.KB.Run.lean ====
/- The program's run: every weakly fair execution from a memory with zero counters terminates, the result buffer ends
   at the last boundary's contents and the four argument arrays end as launched. -/
import proofs.«412787_j352187319219_2_alg».proof.Proof.KB.Vals
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The exit contents of each region, and the regions' outputs

A region changes its output array and nothing else, and no later item writes an earlier region's output array:
so what each region leaves can be read off the contents after the last region. -/

/-- The contents after the linear region, and after the scatter region, read at the TensorCore's references. -/
abbrev E4 : (c : Dev nD) → (b : Ref sig .tc) → Buf (Elt F) ((c : Thread nD τ).loc b) := fun c b => U4 m c b
abbrev E7 : (c : Dev nD) → (b : Ref sig .tc) → Buf (Elt F) ((c : Thread nD τ).loc b) := fun c b => U7 m c b

theorem E4_of_ne (c : Dev nD) (b : Ref sig .tc) (h : b ≠ main_v4) : E4 m c b = E3 m c b :=
  Function.update_of_ne (StableHlo.devRef_ne_of_ne h) _ _
theorem E4_out (c : Dev nD) : E4 m c main_v4 = o4 m c := Function.update_self _ _ _
theorem E6_of_ne (c : Dev nD) (b : Ref sig .tc) (h : b ≠ main_v14) : E6 m c b = E5 m c b :=
  Function.update_of_ne (StableHlo.devRef_ne_of_ne h) _ _
theorem E6_out (c : Dev nD) : E6 m c main_v14 = o6 m c := Function.update_self _ _ _
theorem E7_of_ne (c : Dev nD) (b : Ref sig .tc) (h : b ≠ main_v15) : E7 m c b = E6 m c b :=
  Function.update_of_ne (StableHlo.devRef_ne_of_ne h) _ _
theorem E7_out (c : Dev nD) : E7 m c main_v15 = o7 m c := Function.update_self _ _ _

/-- What the regions leave in the buffers they may change: the contents after the last region. -/
abbrev outU : Gen.Outs (F := F) := fun _ r c => U7 m c r

/-- The linear region's output array is written by no later item: the host stretch between the regions writes
    other buffers, the gather and the scatter regions their own output arrays. -/
theorem outU_v4 (c : Dev nD) : outU m 4 main_v4 c = o4 m c :=
  calc E7 m c main_v4
    _ = E6 m c main_v4 := E7_of_ne m c main_v4 (by decide)
    _ = E5 m c main_v4 := E6_of_ne m c main_v4 (by decide)
    _ = E4 m c main_v4 := StableHlo.after_of_writes_sub hostOps1 _ Gen.hostOps1_writes (by decide)
    _ = o4 m c := E4_out m c
theorem outU_v14 (c : Dev nD) : outU m 6 main_v14 c = o6 m c :=
  (E7_of_ne m c main_v14 (by decide)).trans (E6_out m c)
theorem outU_v15 (c : Dev nD) : outU m 7 main_v15 c = o7 m c := E7_out m c

/-- Over these outputs the boundary contents written over unknown outputs are the ones named above. -/
theorem V4_eq (c : Dev nD) : Gen.V4 m (outU m) c = U4 m c := by
  show Function.update (Gen.V3 m c) _ (outU m 4 main_v4 c) = _
  rw [outU_v4]
theorem V5_eq (c : Dev nD) : Gen.V5 m (outU m) c = U5 m c := congrArg (StableHlo.after hostOps1) (V4_eq m c)
theorem V6_eq (c : Dev nD) : Gen.V6 m (outU m) c = U6 m c := by
  show Function.update (Gen.V5 m (outU m) c) _ (outU m 6 main_v14 c) = _
  rw [V5_eq, outU_v14]
theorem V7_eq (c : Dev nD) : Gen.V7 m (outU m) c = U7 m c := by
  show Function.update (Gen.V6 m (outU m) c) _ (outU m 7 main_v15 c) = _
  rw [V6_eq, outU_v15]
theorem V8_eq (c : Dev nD) : Gen.V8 m (outU m) c = U8 m c := congrArg (StableHlo.after hostOps3) (V7_eq m c)

/-- At a region's exit each of its arrays holds what the pipeline leaves (an input window's array what it held at
    entry, the output window's array the write-backs folded), and every other buffer what it held at entry. -/
theorem hF0 (c : Dev nD) : ∀ w : Fin 4, (dat0 (E3 m) c).arrAt w cfg0.N = E4 m c (Pipeline.arrRef spec0 w)
  | 0 => ((dat0 (E3 m) c).arrAt_in 0 rfl _).trans ((A_eq0 (E3 m) c 0).trans (E4_of_ne m c _ (by decide)).symm)
  | 1 => ((dat0 (E3 m) c).arrAt_in 1 rfl _).trans ((A_eq0 (E3 m) c 1).trans (E4_of_ne m c _ (by decide)).symm)
  | 2 => ((dat0 (E3 m) c).arrAt_in 2 rfl _).trans ((A_eq0 (E3 m) c 2).trans (E4_of_ne m c _ (by decide)).symm)
  | 3 => (E4_out m c).symm
  | ⟨_ + 4, h⟩ => absurd h (Nat.not_lt.2 (Nat.le_add_left _ _))
theorem hrest0 (c : Dev nD) : ∀ b, b ∉ Finset.univ.image (Pipeline.arrRef spec0) → E4 m c b = E3 m c b :=
  fun b hb => E4_of_ne m c b fun e => hb (Finset.mem_image.mpr ⟨3, Finset.mem_univ _, e.symm⟩)

theorem hF1 (c : Dev nD) : ∀ w : Fin 3, (dat1 (E5 m) c).arrAt w cfg1.N = E6 m c (Pipeline.arrRef spec1 w)
  | 0 => ((dat1 (E5 m) c).arrAt_in 0 rfl _).trans ((A_eq1 (E5 m) c 0).trans (E6_of_ne m c _ (by decide)).symm)
  | 1 => ((dat1 (E5 m) c).arrAt_in 1 rfl _).trans ((A_eq1 (E5 m) c 1).trans (E6_of_ne m c _ (by decide)).symm)
  | 2 => (E6_out m c).symm
  | ⟨_ + 3, h⟩ => absurd h (Nat.not_lt.2 (Nat.le_add_left _ _))
theorem hrest1 (c : Dev nD) : ∀ b, b ∉ Finset.univ.image (Pipeline.arrRef spec1) → E6 m c b = E5 m c b :=
  fun b hb => E6_of_ne m c b fun e => hb (Finset.mem_image.mpr ⟨2, Finset.mem_univ _, e.symm⟩)

theorem hF2 (c : Dev nD) : ∀ w : Fin 3, (dat2 (E6 m) c).arrAt w cfg2.N = E7 m c (Pipeline.arrRef spec2 w)
  | 0 => ((dat2 (E6 m) c).arrAt_in 0 rfl _).trans ((A_eq2 (E6 m) c 0).trans (E7_of_ne m c _ (by decide)).symm)
  | 1 => ((dat2 (E6 m) c).arrAt_in 1 rfl _).trans ((A_eq2 (E6 m) c 1).trans (E7_of_ne m c _ (by decide)).symm)
  | 2 => (E7_out m c).symm
  | ⟨_ + 3, h⟩ => absurd h (Nat.not_lt.2 (Nat.le_add_left _ _))
theorem hrest2 (c : Dev nD) : ∀ b, b ∉ Finset.univ.image (Pipeline.arrRef spec2) → E7 m c b = E6 m c b :=
  fun b hb => E7_of_ne m c b fun e => hb (Finset.mem_image.mpr ⟨2, Finset.mem_univ _, e.symm⟩)

/-! ## The run, given the regions' records

The program's frame over one record per region, with the result buffer read off the last boundary's contents beside
the arguments. -/

set_option backward.isDefEq.respectTransparency.types false in
/-- For any user algebra, level assignment, launch dues and ghost resources, any rest states E the launch makes on
    every core at once and that end owing nothing, any contents the regions leave and any proof data: given, per
    region, a record entered from the thread state before it and left at the one after it, every weakly fair
    execution of @main from memory m with zero counters terminates, and every final memory holds the result buffer at
    the last boundary's contents and each argument as launched. -/
theorem run_regions {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Gen.Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : Pipeline.RegionSeg (pcfgs (F := F)) Gen.adm pdats ι defs₀ 𝒱₀ L lv 0)
    (hpre0 : ∀ c : Dev nD, iprop(StableHlo.held (c : Thread nD τ) (Pipeline.ucRefs τ sig) (Gen.V3 m c) ∗ E 0 c) ⊢ R0.pre c)
    (hpost0 : ∀ c : Dev nD, R0.post c ⊢ iprop(StableHlo.held (c : Thread nD τ) (Pipeline.ucRefs τ sig) (Gen.V4 m outs c) ∗ E 1 c))
    (R1 : Pipeline.RegionSeg (pcfgs (F := F)) Gen.adm pdats ι defs₀ 𝒱₀ L lv 1)
    (hpre1 : ∀ c : Dev nD, iprop(StableHlo.held (c : Thread nD τ) (Pipeline.ucRefs τ sig) (Gen.V5 m outs c) ∗ E 1 c) ⊢ R1.pre c)
    (hpost1 : ∀ c : Dev nD, R1.post c ⊢ iprop(StableHlo.held (c : Thread nD τ) (Pipeline.ucRefs τ sig) (Gen.V6 m outs c) ∗ E 2 c))
    (R2 : Pipeline.RegionSeg (pcfgs (F := F)) Gen.adm pdats ι defs₀ 𝒱₀ L lv 2)
    (hpre2 : ∀ c : Dev nD, iprop(StableHlo.held (c : Thread nD τ) (Pipeline.ucRefs τ sig) (Gen.V6 m outs c) ∗ E 2 c) ⊢ R2.pre c)
    (hpost2 : ∀ c : Dev nD, R2.post c ⊢ iprop(StableHlo.held (c : Thread nD τ) (Pipeline.ucRefs τ sig) (Gen.V7 m outs c) ∗ E 3 c)) :
    θ_run defs (onTc (τ := τ) (main (F := F))) ⟨m, fun _ => 0, ρ⟩ (fun r => ∀ c : Dev nD,
      r.2.mem ((c.tc : Thread nD τ).loc main_v16) = Gen.V8 m outs c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm pdats ι cellOf_inj EP defs₀ 𝒱₀ L lv m ρ main
    (Gen.segs m outs 𝒱₀ L lv E ι pdats R0 R1 R2)
    (fun c Q => by
      rewrite [main_chain c, Pipeline.Seg.run_eq_chain,
        show (Gen.segs m outs 𝒱₀ L lv E ι pdats R0 R1 R2 c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V8 m outs c))
    (hch := fun c => ⟨.rfl, .rfl, .rfl, hpre0 c, hpost0 c, hpre1 c, (hpost1 c).trans (hpre2 c), hpost2 c, sep_mono .rfl (hE3 c)⟩)
    (hinit := ?_)
    (QY := fun c s => s.mem ((c.tc : Thread nD τ).loc main_v16) = Gen.V8 m outs c main_v16
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch: the unscoped buffers are held at the launch contents; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last boundary's contents
    unfold StableHlo.held
    iintro ⟨Hh, HSI⟩
    ihave Hr := (pointsTo_read_all (Pipeline.ucRefs τ sig) (fun b => ((c : Thread nD τ).1, b)) (Gen.V8 m outs c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (Gen.V8_main_arg0 m outs c),
        (h (Proc.devRef .tc main_arg1) (Finset.mem_filter.mpr ⟨StableHlo.devRef_mem_tcRefs main_arg1, by decide⟩)).trans (Gen.V8_main_arg1 m outs c),
        (h (Proc.devRef .tc main_arg2) (Finset.mem_filter.mpr ⟨StableHlo.devRef_mem_tcRefs main_arg2, by decide⟩)).trans (Gen.V8_main_arg2 m outs c),
        (h (Proc.devRef .tc main_arg3) (Finset.mem_filter.mpr ⟨StableHlo.devRef_mem_tcRefs main_arg3, by decide⟩)).trans (Gen.V8_main_arg3 m outs c)⟩
    · iexact HSI

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (E3 m) c
  | ⟨1, _⟩ => fun c => dat1 (E5 m) c
  | ⟨2, _⟩ => fun c => dat2 (E6 m) c

/-- No core owes another anything: no level is assigned. -/
abbrev L₀ : GSem nD τ sig → Finset Unit := fun _ => ∅
abbrev lv₀ : GSem nD τ sig → Unit → ℕ := fun _ _ => 0
/-- What rides beside the buffers through every item: the core's generator register at some state (each region's
    invariant takes it in and gives it back) and the core owing nothing. -/
abbrev Rst (c : Dev nD) : sProp 𝕄 := iprop((∃ r, prngReg c r) ∗ ∃ W, owes (c : Thread nD τ) (0 : CellTallies nD τ sig Unit) W)

/-! ## The regions as records

Each region is entered from every unscoped buffer at the boundary's contents beside the rest state, and left the same
way at the next boundary's contents. Its arrays are split out of the unscoped buffers at entry and put back at the exit
contents; the generator register goes into the region's invariant with the scoped buffers no window stages, and comes
back out of it; nothing is owed; the kernel has no semaphore of its own. -/

set_option backward.isDefEq.respectTransparency.types false in
/-- The linear region: entered at U3, left at U4. -/
def reg0 : Pipeline.RegionSeg (pcfgs (F := F)) Gen.adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L₀ lv₀ 0 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun w => A_eq0 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather region: entered at U5, left at U6. -/
def reg1 : Pipeline.RegionSeg (pcfgs (F := F)) Gen.adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L₀ lv₀ 1 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m c) fun w => A_eq1 (E5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E5 m) c)
    unfold Pipeline.ΦA
    iintro ⟨Hp, -, Hr⟩
    isplitl [Hr]; · iexact Hr
    iexact Hp
  hout c := by
    rw [Pipeline.ownSems0_none]
    refine BIBase.Entails.trans (hout1 (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter region: entered at U6, left at U7. -/
def reg2 : Pipeline.RegionSeg (pcfgs (F := F)) Gen.adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ L₀ lv₀ 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E6 m c) fun w => A_eq2 (E6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E6 m) c)
    unfold Pipeline.ΦA
    iintro ⟨Hp, -, Hr⟩
    isplitl [Hr]; · iexact Hr
    iexact Hp
  hout c := by
    rw [Pipeline.ownSems0_none]
    refine BIBase.Entails.trans (hout2 (E6 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run

open Run

/-! ## The launch -/

set_option backward.isDefEq.respectTransparency.types false in
/-- Every weakly fair execution of @main from a memory with zero counters terminates; the result buffer ends at the
    last boundary's contents and the four argument arrays end as launched. -/
theorem run_main : θ_run defs (onTc (τ := τ) (main (F := F))) ⟨m, fun _ => 0, ρ⟩ (fun r => ∀ c : Dev nD,
      r.2.mem ((c.tc : Thread nD τ).loc main_v16) = U8 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_regions m ρ (emb₁ : Emb _ 𝕄) () Variants.none L₀ lv₀ (fun _ _ => rfl) (outU m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L₀ lv₀ fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl)
    (hpost0 := fun c => by rw [V4_eq]; exact .rfl)
    (R1 := reg1 m) (hpre1 := fun c => by rw [V5_eq]; exact .rfl)
    (hpost1 := fun c => by rw [V6_eq]; exact .rfl)
    (R2 := reg2 m) (hpre2 := fun c => by rw [V6_eq]; exact .rfl)
    (hpost2 := fun c => by rw [V7_eq]; exact .rfl)
  rw [show Gen.V8 m (outU m) = U8 m from funext (V8_eq m)] at h
  exact h

end Cert.Kernel.Hand

end
-- ==== Proof.KI.Names.lean ====
/- The buffers the value statements read, each named at its literal type (an array of extended reals or of 32-bit words
   over a literal shape), at the ideal instance: the arguments, the host stretches' results the regions read, and what the
   three regions leave. -/
import proofs.«412787_j352187319219_2_alg».proof.Proof.KI.Vals
import Idealize.ShloMosaic.PureOps.Ideal

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD)

/-- The node features, the edge index pairs (row 0 the sources, row 1 the destinations), the weights, the bias. -/
abbrev aX : S40000x128.Idx → EReal := m ((c : Thread nD τ).loc main_arg0)
abbrev aEi : S2x640000.Idx → BitVec 32 := m ((c : Thread nD τ).loc main_arg1)
abbrev aW : S128x128.Idx → EReal := m ((c : Thread nD τ).loc main_arg2)
abbrev aB : S128.Idx → EReal := m ((c : Thread nD τ).loc main_arg3)
/-- Before the linear region: the padded node features, the transposed weights, the bias row. -/
abbrev aV0 : S40960x128.Idx → EReal := U3 m c main_v0
abbrev aV2 : S128x128.Idx → EReal := U3 m c main_v2
abbrev aV3 : S1x128.Idx → EReal := U3 m c main_v3
/-- What the linear region leaves. -/
abbrev aO4 : S40960x128.Idx → EReal := o4 m c
/-- Before the gather region: the linear outputs with the padded rows zeroed, the sources as a column. -/
abbrev aV7 : S40960x128.Idx → EReal := U5 m c main_v7
abbrev aV10 : S640000x1.Idx → BitVec 32 := U5 m c main_v10
/-- What the gather region leaves: the messages. -/
abbrev aO6 : S640000x128.Idx → EReal := o6 m c
/-- Before the scatter region: the destinations as a table of edge blocks, the messages. -/
abbrev aV13 : S500x1x1280.Idx → BitVec 32 := U6 m c main_v13
abbrev aV14 : S640000x128.Idx → EReal := U6 m c main_v14
/-- What the scatter region leaves, and the result at the return. -/
abbrev aO7 : S40960x128.Idx → EReal := o7 m c
abbrev aV16 : S40000x128.Idx → EReal := U8 m c main_v16

end Cert.KernelIdeal.Hand

end
-- ==== Proof.KI.Val0.lean ====
/- The linear region's output array at the ideal instance. The region has twenty grid points; point t writes back the
   block of rows 2048 t … 2048 t + 2047 (all 128 columns) holding, at entry (r, d), the node block's row r times column d of
   the transposed weights plus the bias row's entry d. The twenty blocks tile the 40960 rows, so the array ends as one
   function of the three arrays the region reads: entry (n, d) is Σ_k x(n, k) · Wᵀ(k, d) + b(0, d). -/
import proofs.«412787_j352187319219_2_alg».proof.Proof.KI.Names
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

/-! ## The body's product at one entry -/

/-- The left operand's index at output entry `j` and contraction index `q`: the output's row. -/
theorem lin_lhs_0 (j : S2048x128.Idx) (q : dot_S2048x128_S128x128_S2048x128_1_0_0_1_n_n.contr.Idx) :
    (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- … and, on its second axis, the contraction index. -/
theorem lin_lhs_1 (j : S2048x128.Idx) (q : dot_S2048x128_S128x128_S2048x128_1_0_0_1_n_n.contr.Idx) :
    (dot_S2048x128_S128x128_S2048x128_1_0_0_1_n_n.lhsIdx j q 1).val = (q ⟨0, by decide⟩).val :=
  dot_S2048x128_S128x128_S2048x128_1_0_0_1_n_n.lhsIdx_val_of_single rfl j q
/-- The right operand's index: the contraction index on its first axis, -/
theorem lin_rhs_0 (j : S2048x128.Idx) (q : dot_S2048x128_S128x128_S2048x128_1_0_0_1_n_n.contr.Idx) :
    (dot_S2048x128_S128x128_S2048x128_1_0_0_1_n_n.rhsIdx j q 0).val = (q ⟨0, by decide⟩).val :=
  dot_S2048x128_S128x128_S2048x128_1_0_0_1_n_n.rhsIdx_val_of_single rfl j q
/-- … the output's column on its second. -/
theorem lin_rhs_1 (j : S2048x128.Idx) (q : dot_S2048x128_S128x128_S2048x128_1_0_0_1_n_n.contr.Idx) :
    (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A product of a [2048,128] block with a [128,128] matrix into the zero accumulator, at entry (r, d): the row's
    inner product with column d. -/
theorem lin_matmul_apply (x : FVec Ideal S2048x128 .bf16) (w : FVec Ideal S128x128 .bf16) (r : Fin 2048) (d : Fin 128) :
    matmul dot_S2048x128_S128x128_S2048x128_1_0_0_1_n_n none x w (constant (F := Ideal) S2048x128 .f32 0x00000000#32) (ix2 r d)
      = ∑ k : Fin 128, x (ix2 r k) * w (ix2 k d) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 r d) ((contrEquiv1 dot_S2048x128_S128x128_S2048x128_1_0_0_1_n_n 128 rfl rfl).symm k) = ix2 r k := funext fun a => Fin.ext (by
    match a with
    | ⟨0, _⟩ => exact lin_lhs_0 _ _
    | ⟨1, _⟩ => exact (lin_lhs_1 _ _).trans hk)
  have er : dot_S2048x128_S128x128_S2048x128_1_0_0_1_n_n.rhsIdx (ix2 r d) ((contrEquiv1 dot_S2048x128_S128x128_S2048x128_1_0_0_1_n_n 128 rfl rfl).symm k) = ix2 k d := funext fun a => Fin.ext (by
    match a with
    | ⟨0, _⟩ => exact (lin_rhs_0 _ _).trans hk
    | ⟨1, _⟩ => exact lin_rhs_1 _ _)
  rw [el, er]

/-- The bias row spread over the block's rows, at entry (r, d): the row's entry d. -/
theorem lin_bias_apply (b : FVec Ideal S1x128 .f32) (r : Fin 2048) (d : Fin 128) :
    broadcastTo S2048x128 b broadcasts_S1x128_S2048x128 (ix2 r d) = b (ix2 (0 : Fin 1) d) :=
  broadcastTo_apply b broadcasts_S1x128_S2048x128 (ix2 r d) (ix2 (0 : Fin 1) d) (fun a => match a with
    | ⟨0, _⟩ => rfl
    | ⟨1, _⟩ => rfl)

/-- WHAT THE BODY STORES at entry (r, d) of its block: the node row r times column d of the transposed weights, plus the
    bias's entry d (the format changes are the identity on the extended reals). -/
theorem lin_pay_apply (x : Vec Ideal S2048x128 .f32) (w : Vec Ideal S128x128 .bf16) (b : Vec Ideal S1x128 .f32) (r : Fin 2048) (d : Fin 128) :
    k0_pay1 (F := Ideal) x w b (ix2 r d) = (∑ k : Fin 128, x (ix2 r k) * w (ix2 k d)) + b (ix2 (0 : Fin 1) d) := by
  unfold k0_pay1
  rw [shapeCast_self, shapeCast_self, shapeCast_self]
  rw [truncf_apply, addf_apply]
  refine congrArg₂ (· + ·) ?_ ?_
  · exact lin_matmul_apply _ _ r d
  · exact lin_bias_apply b r d

/-! ## The region's output array as one function of the three arrays it reads -/

/-- The linear layer on whole arrays: entry (n, d) is node row n times column d of the transposed weights, plus the bias's
    entry d. -/
def linG (X : S40960x128.Idx → EReal) (W : S128x128.Idx → EReal) (B : S1x128.Idx → EReal) : S40960x128.Idx → EReal :=
  fun i => (∑ k : Fin 128, X (ix2 (i 0 : Fin 40960) k) * W (ix2 k (i 1 : Fin 128))) + B (ix2 (0 : Fin 1) (i 1 : Fin 128))

theorem linG_apply (X : S40960x128.Idx → EReal) (W : S128x128.Idx → EReal) (B : S1x128.Idx → EReal) (n : Fin 40960) (d : Fin 128) :
    linG X W B (ix2 n d) = (∑ k : Fin 128, X (ix2 n k) * W (ix2 k d)) + B (ix2 (0 : Fin 1) d) := rfl

/-- The windows' block indices over the grid: the node block and the output block move with the point along the rows, the
    weights and the bias are one block each. -/
theorem lin_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Region
-- the TensorCore's buffer contents when the region is entered, at the ideal instance
variable (V : (c : Dev nD) → (b : Ref sig .tc) → Buf (Elt Ideal) ((c : Thread nD τ).loc b))

/-- The node array, the transposed weights and the bias row as the region finds them, each at its literal type (so that
    their entries are extended reals that multiply and add). -/
abbrev linX (c : Dev nD) : S40960x128.Idx → EReal := V c main_v0
abbrev linW (c : Dev nD) : S128x128.Idx → EReal := V c main_v2
abbrev linB (c : Dev nD) : S1x128.Idx → EReal := V c main_v3

/-- WHAT POINT t WRITES BACK is block t of the linear layer of the three arrays as the region finds them. -/
theorem lin_flushed_eq (c : Dev nD) (t : Fin cfg0.N) :
    (dat0 V c).flushed 3 t = ((cfg0.win 3).blk t).view.read (Elt Ideal) (linG (linX V c) (linW V c) (linB V c)) := by
  show (cfg0.win 3).cut (grid0.coords t) ((dat0 V c).after 3 t) = _
  rw [after0_3]
  obtain ⟨e00, e01, e10, e11, e20, e21, e30, e31⟩ := lin_idx_facts t
  funext j
  obtain ⟨p, q, rfl⟩ : ∃ (p : Fin 2048) (q : Fin 128), j = ix2 p q := ⟨j 0, j 1, eq_ix2 j⟩
  show out0 V c t (ix2 p q) = linG (linX V c) (linW V c) (linB V c) (((cfg0.win 3).blk t).view.emb (ix2 p q))
  unfold out0
  refine (lin_pay_apply (iblk0 V c 0 t) (iblk0 V c 1 t) (iblk0 V c 2 t) p q).trans ?_
  show _ = (∑ k : Fin 128, linX V c (ix2 ((((cfg0.win 3).blk t).view.emb (ix2 p q)) 0 : Fin 40960) k)
        * linW V c (ix2 k ((((cfg0.win 3).blk t).view.emb (ix2 p q)) 1 : Fin 128)))
      + linB V c (ix2 (0 : Fin 1) ((((cfg0.win 3).blk t).view.emb (ix2 p q)) 1 : Fin 128))
  refine congrArg₂ (· + ·) (Finset.sum_congr rfl fun k _ => congrArg₂ (· * ·) ?_ ?_) ?_
  · -- the node block's entry (p, k) is the node array's entry (2048 t + p, k)
    show V c main_v0 (((cfg0.win 0).blk t).view.emb (ix2 p k)) = _
    refine congrArg (V c main_v0) (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 128 + 1 * k.val = k.val; omega
  · -- the weights' one block is the whole matrix
    show V c main_v2 (((cfg0.win 1).blk t).view.emb (ix2 k q)) = _
    refine congrArg (V c main_v2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · -- the bias's one block is the whole row
    show V c main_v3 (((cfg0.win 2).blk t).view.emb (ix2 (0 : Fin 1) q)) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output array is in point t's block iff each coordinate is in the block's range on its axis. -/
theorem lin_mem_blk (t : Fin cfg0.N) (i : S40960x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v4).slice (win0_3.rect t)).set ↔ _
  rw [View.set_slice_whole, Rect.mem_set_unit]
  exact Iff.rfl

/-- The twenty blocks of 2048 rows cover the 40960 rows: row n is in block n / 2048, which that point writes back. -/
theorem lin_cover (i : S40960x128.Idx) :
    ∃ t : Fin cfg0.N, (cfg0.win 3).flush t = true ∧ i ∈ ((cfg0.win 3).blk t).view.set := by
  have hi0 : (i 0).val < 40960 := idx2_lt0 i
  have hi1 : (i 1).val < 128 := idx2_lt1 i
  have hN : cfg0.N = 20 := N_0
  let t : Fin cfg0.N := ⟨(i 0).val / 2048, by rw [hN]; omega⟩
  obtain ⟨e00, e01, e10, e11, e20, e21, e30, e31⟩ := lin_idx_facts t
  have ht : (t : ℕ) = (i 0).val / 2048 := rfl
  refine ⟨t, flush0_3 t, ?_⟩
  rw [lin_mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- THE OUTPUT ARRAY after the region: the linear layer of the node array, the transposed weights and the bias row as the
    region finds them. -/
theorem lin_arr_eq (c : Dev nD) :
    (dat0 V c).arrAt 3 cfg0.N = linG (linX V c) (linW V c) (linB V c) :=
  (dat0 V c).arrAt_eq_of_cover 3 (linG (linX V c) (linW V c) (linB V c)) (fun t _ => lin_flushed_eq V c t) lin_cover

/-- … entry by entry. -/
theorem lin_arr_apply (c : Dev nD) (n : Fin 40960) (d : Fin 128) :
    ((dat0 V c).arrAt 3 cfg0.N : S40960x128.Idx → EReal) (ix2 n d)
      = (∑ k : Fin 128, linX V c (ix2 n k) * linW V c (ix2 k d)) + linB V c (ix2 (0 : Fin 1) d) := by
  rw [lin_arr_eq]
  rfl

end Region

/-! ## At the program's own contents -/

/-- WHAT THE LINEAR REGION LEAVES in its output array, entry by entry: the padded node array's row times the transposed
    weights' column, plus the bias row's entry, all as the three host stretches before the region leave them. -/
theorem o4_apply (m : (ℓ : Loc nD τ sig) → Buf (Elt Ideal) ℓ) (c : Dev nD) (n : Fin 40960) (d : Fin 128) :
    aO4 m c (ix2 n d) = (∑ k : Fin 128, aV0 m c (ix2 n k) * aV2 m c (ix2 k d)) + aV3 m c (ix2 (0 : Fin 1) d) := by
  show (o4 (F := Ideal) m c : S40960x128.Idx → EReal) (ix2 n d) = _
  unfold o4
  exact lin_arr_apply (E3 m) c n d

/-- The same as one equation of arrays. -/
theorem o4_eq (m : (ℓ : Loc nD τ sig) → Buf (Elt Ideal) ℓ) (c : Dev nD) :
    aO4 m c = linG (aV0 m c) (aV2 m c) (aV3 m c) := by
  show (o4 (F := Ideal) m c : S40960x128.Idx → EReal) = _
  unfold o4
  exact lin_arr_eq (E3 m) c

end Cert.KernelIdeal.Hand

end
-- ==== Proof.KI.Val1.lean ====
/- What the gather region leaves in its output array, at the ideal values. For an edge block i the accumulator is reset at
   node block 0 and, at node block j, gains the product of the one-hot matrix [source of edge row r is node j·2048 + n]
   with node block j of the features; after node block 19 it is stored as the output block. So row e of the output is
   Σ_p [source of e is node p] · feature row p, p over all 40960 node rows: a left fold over the twenty node blocks, each
   term a sum over the block's 2048 rows, re-indexed as one sum. First the body's update at an entry, then the fold by
   induction on the node block, then the write-backs cover the array, then the statement at the program's own contents. -/
import proofs.«412787_j352187319219_2_alg».proof.Proof.KI.Names
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

/-! ## The body's update at an entry -/

/-- The one-hot entry: the signed reading of the widened equality bit is 1 where the two words agree, 0 elsewhere. -/
theorem hot_val (a b : BitVec 32) :
    FloatOps.sitofp (F := Ideal) .f32 ((IntOp.cmpi .eq a b).setWidth 32) = if a = b then (1 : EReal) else 0 := by
  have key : ∀ x : Bool, FloatOps.sitofp (F := Ideal) .f32 ((BitVec.ofBool x).setWidth 32) = if x = true then (1 : EReal) else 0 := by
    intro x
    cases x
    · show ((((BitVec.ofBool false).setWidth 32).toInt : ℝ) : EReal) = _
      rw [show ((BitVec.ofBool false).setWidth 32).toInt = 0 from by decide]
      simp
    · show ((((BitVec.ofBool true).setWidth 32).toInt : ℝ) : EReal) = _
      rw [show ((BitVec.ofBool true).setWidth 32).toInt = 1 from by decide]
      simp
  refine (key (a == b)).trans ?_
  simp only [beq_iff_eq]

/-- The node a lane of node block j stands for, as a word: j·2048 + n (word arithmetic is arithmetic modulo 2³², and
    so is the reading of a natural as a word). -/
theorem lane_word (j n : Nat) : BitVec.ofNat 32 j * 2048#32 + BitVec.ofNat 32 n = BitVec.ofNat 32 (j * 2048 + n) := by
  rw [BitVec.ofNat_add, BitVec.ofNat_mul]

/-- The product's operand indices at output entry i and contraction index q, axis by axis: (row of i, q) and (q, column of i). -/
theorem lhs_gather_0 (i : S1280x128.Idx) (q : dot_S1280x2048_S2048x128_S1280x128_1_0_0_1_n_n.contr.Idx) :
    (dot_S1280x2048_S2048x128_S1280x128_1_0_0_1_n_n.lhsIdx i q 0).val = (i 0).val := by
  unfold DotDims.lhsIdx
  rw [dif_neg (show ¬(0 : Fin S1280x2048.rank) ∈ dot_S1280x2048_S2048x128_S1280x128_1_0_0_1_n_n.lhsBatch by decide), dif_pos (show (0 : Fin S1280x2048.rank) ∈ dot_S1280x2048_S2048x128_S1280x128_1_0_0_1_n_n.lhsNonContracting by decide)]
  rfl
theorem lhs_gather_1 (i : S1280x128.Idx) (q : dot_S1280x2048_S2048x128_S1280x128_1_0_0_1_n_n.contr.Idx) :
    (dot_S1280x2048_S2048x128_S1280x128_1_0_0_1_n_n.lhsIdx i q 1).val = (q ⟨0, by decide⟩).val :=
  dot_S1280x2048_S2048x128_S1280x128_1_0_0_1_n_n.lhsIdx_val_of_single rfl i q
theorem rhs_gather_0 (i : S1280x128.Idx) (q : dot_S1280x2048_S2048x128_S1280x128_1_0_0_1_n_n.contr.Idx) :
    (dot_S1280x2048_S2048x128_S1280x128_1_0_0_1_n_n.rhsIdx i q 0).val = (q ⟨0, by decide⟩).val :=
  dot_S1280x2048_S2048x128_S1280x128_1_0_0_1_n_n.rhsIdx_val_of_single rfl i q
theorem rhs_gather_1 (i : S1280x128.Idx) (q : dot_S1280x2048_S2048x128_S1280x128_1_0_0_1_n_n.contr.Idx) :
    (dot_S1280x2048_S2048x128_S1280x128_1_0_0_1_n_n.rhsIdx i q 1).val = (i 1).val := by
  unfold DotDims.rhsIdx
  rw [dif_neg (show ¬(1 : Fin S2048x128.rank) ∈ dot_S1280x2048_S2048x128_S1280x128_1_0_0_1_n_n.rhsBatch by decide), dif_pos (show (1 : Fin S2048x128.rank) ∈ dot_S1280x2048_S2048x128_S1280x128_1_0_0_1_n_n.rhsNonContracting by decide)]
  rfl

/-- The gather body's update read at entry (r, d): what the accumulator held, plus the sum over the node block's rows n
    of [source of row r is node j·2048 + n] · feature (n, d), j the node block's number. -/
theorem pay2_apply (i : grid1.Coords) (v3 : Vec Ideal S1280x1 .i32) (v15 : Vec Ideal S2048x128 .bf16)
    (v17 : Vec Ideal S1280x128 .f32) (r : Fin 1280) (d : Fin 128) :
    k1_pay2 i v3 v15 v17 (ix2 r d)
      = v17 (ix2 r d) + ∑ n : Fin 2048, (if v3 (ix2 r (0 : Fin 1)) = BitVec.ofNat 32 ((i 1).val * 2048 + n.val) then (1 : EReal) else 0) * v15 (ix2 n d) := by
  unfold k1_pay2
  simp only [shapeCast_self]
  refine (addf_apply _ _ _).trans ?_
  refine congrArg (v17 (ix2 r d) + ·) ?_
  refine (Ideal.matmul_constant_zero_apply (φ₁ := .bf16) (φ₂ := .bf16) dot_S1280x2048_S2048x128_S1280x128_1_0_0_1_n_n none _ v15 (ix2 r d)).trans ?_
  rw [← Equiv.sum_comp (contrEquiv1 dot_S1280x2048_S2048x128_S1280x128_1_0_0_1_n_n 2048 rfl rfl).symm]
  refine Finset.sum_congr rfl fun k _ => ?_
  have hk := contrEquiv1_symm_val dot_S1280x2048_S2048x128_S1280x128_1_0_0_1_n_n 2048 rfl rfl k
  have el : dot_S1280x2048_S2048x128_S1280x128_1_0_0_1_n_n.lhsIdx (ix2 r d) ((contrEquiv1 dot_S1280x2048_S2048x128_S1280x128_1_0_0_1_n_n 2048 rfl rfl).symm k) = ix2 r k := funext fun a => Fin.ext (by
    match a with
    | ⟨0, _⟩ => exact lhs_gather_0 _ _
    | ⟨1, _⟩ => exact (lhs_gather_1 _ _).trans hk)
  have er : dot_S1280x2048_S2048x128_S1280x128_1_0_0_1_n_n.rhsIdx (ix2 r d) ((contrEquiv1 dot_S1280x2048_S2048x128_S1280x128_1_0_0_1_n_n 2048 rfl rfl).symm k) = ix2 k d := funext fun a => Fin.ext (by
    match a with
    | ⟨0, _⟩ => exact (rhs_gather_0 _ _).trans hk
    | ⟨1, _⟩ => exact rhs_gather_1 _ _)
  rw [el, er]
  refine congrArg (· * v15 (ix2 k d)) ?_
  refine (hot_val _ _).trans ?_
  have e9 : broadcastTo S1280x2048 v3 broadcasts_S1280x1_S1280x2048 (ix2 r k) = v3 (ix2 r (0 : Fin 1)) :=
    broadcastTo_apply v3 broadcasts_S1280x1_S1280x2048 (ix2 r k) (ix2 r (0 : Fin 1)) (fun a => by
      match a with
      | ⟨0, _⟩ => rfl
      | ⟨1, _⟩ => rfl)
  have e10 : broadcastTo S1280x2048 (addi (broadcast S1x2048 (Scalar.muli (BitVec.ofNat 32 (i 1).val) 2048#32)) (iota Kind.tc S1x2048 32 [1] iota_S1x2048_d1_w32)) broadcasts_S1x2048_S1280x2048 (ix2 r k)
      = BitVec.ofNat 32 ((i 1).val * 2048 + k.val) := by
    refine (broadcastTo_apply _ broadcasts_S1x2048_S1280x2048 (ix2 r k) (ix2 (0 : Fin 1) k) (fun a => by
      match a with
      | ⟨0, _⟩ => rfl
      | ⟨1, _⟩ => rfl)).trans ?_
    show BitVec.ofNat 32 (i 1).val * 2048#32 + iota Kind.tc S1x2048 32 [1] iota_S1x2048_d1_w32 (ix2 (0 : Fin 1) k) = _
    rw [iota_single_apply]
    exact lane_word _ _
  rw [e9, e10]

/-! ## The region at the ideal values: blocks, the carried accumulator, the output array -/

variable (V : (c : Dev nD) → (b : Ref sig .tc) → Buf (Elt Ideal) ((c : Thread nD τ).loc b))

/-- The edge sources and the node features as the region finds them, and the blocks a point reads of them. -/
abbrev srcArr (c : Dev nD) : Vec Ideal S640000x1 .i32 := V c main_v10
abbrev featArr (c : Dev nD) : Vec Ideal S40960x128 .bf16 := V c main_v7
abbrev srcBlk (c : Dev nD) (t : Fin cfg1.N) : Vec Ideal S1280x1 .i32 := iblk1 V c 0 t
abbrev featBlk (c : Dev nD) (t : Fin cfg1.N) : Vec Ideal S2048x128 .bf16 := iblk1 V c 1 t

/-- The grid is 500 edge blocks by 20 node blocks, the node block running fastest: point t is edge block t / 20 at
    node block t % 20, and the three windows' block indices are those. -/
theorem point_facts : ∀ t : Fin cfg1.N,
    (grid1.coords t 1).val = t.val % 20
    ∧ win1_0.index t (0 : Fin 2) = t.val / 20 ∧ win1_0.index t (1 : Fin 2) = 0
    ∧ win1_1.index t (0 : Fin 2) = t.val % 20 ∧ win1_1.index t (1 : Fin 2) = 0
    ∧ win1_2.index t (0 : Fin 2) = t.val / 20 ∧ win1_2.index t (1 : Fin 2) = 0 :=
  (by decide +kernel : ∀ t : Fin grid1.N, _)

theorem N1 : cfg1.N = 10000 := N_1

/-- Row r of the source block at point t is edge (t / 20)·1280 + r. -/
theorem srcBlk_apply (c : Dev nD) (t : Fin cfg1.N) (r : Fin 1280) (hb : t.val / 20 * 1280 + r.val < 640000) :
    srcBlk V c t (ix2 r (0 : Fin 1)) = srcArr V c (ix2 (⟨t.val / 20 * 1280 + r.val, hb⟩ : Fin 640000) (0 : Fin 1)) := by
  obtain ⟨-, e0, e1, -, -, -, -⟩ := point_facts t
  show V c main_v10 (((cfg1.win 0).blk t).view.emb (ix2 r (0 : Fin 1))) = V c main_v10 _
  refine congrArg (V c main_v10) (funext fun a => Fin.ext ?_)
  match a with
  | ⟨0, _⟩ => show win1_0.index t (0 : Fin 2) * 1280 + 1 * r.val = t.val / 20 * 1280 + r.val; rw [e0]; omega
  | ⟨1, _⟩ => show win1_0.index t (1 : Fin 2) * 1 + 1 * 0 = 0; rw [e1]

/-- Row n of the feature block at point t is node (t % 20)·2048 + n. -/
theorem featBlk_apply (c : Dev nD) (t : Fin cfg1.N) (n : Fin 2048) (d : Fin 128) (hb : t.val % 20 * 2048 + n.val < 40960) :
    featBlk V c t (ix2 n d) = featArr V c (ix2 (⟨t.val % 20 * 2048 + n.val, hb⟩ : Fin 40960) d) := by
  obtain ⟨-, -, -, e0, e1, -, -⟩ := point_facts t
  show V c main_v7 (((cfg1.win 1).blk t).view.emb (ix2 n d)) = V c main_v7 _
  refine congrArg (V c main_v7) (funext fun a => Fin.ext ?_)
  match a with
  | ⟨0, _⟩ => show win1_1.index t (0 : Fin 2) * 2048 + 1 * n.val = t.val % 20 * 2048 + n.val; rw [e0]; omega
  | ⟨1, _⟩ => show win1_1.index t (1 : Fin 2) * 128 + 1 * d.val = d.val; rw [e1]; omega

/-- The source word of edge e and the feature of node p in column d, as functions of every natural (zero past the arrays,
    where nothing reads them), and the summand of the gather: 1 · feature where node p is edge e's source, 0 · feature elsewhere. -/
def srcAt (c : Dev nD) (e : ℕ) : BitVec 32 := if h : e < 640000 then srcArr V c (ix2 (⟨e, h⟩ : Fin 640000) (0 : Fin 1)) else 0
def featAt (c : Dev nD) (p : ℕ) (d : Fin 128) : EReal := if h : p < 40960 then featArr V c (ix2 (⟨p, h⟩ : Fin 40960) d) else 0
def term (c : Dev nD) (e p : ℕ) (d : Fin 128) : EReal := (if srcAt V c e = BitVec.ofNat 32 p then (1 : EReal) else 0) * featAt V c p d

/-- One point's update of the accumulator at an entry: it adds the node block's part of edge row's gather sum. -/
theorem step_apply (c : Dev nD) (t : Fin cfg1.N) (acc : Vec Ideal S1280x128 .f32) (r : Fin 1280) (d : Fin 128) :
    k1_pay2 (grid1.coords t) (srcBlk V c t) (featBlk V c t) acc (ix2 r d)
      = acc (ix2 r d) + ∑ n : Fin 2048, term V c (t.val / 20 * 1280 + r.val) (t.val % 20 * 2048 + n.val) d := by
  have hN := N1
  have ht := t.isLt
  obtain ⟨ec, -, -, -, -, -, -⟩ := point_facts t
  refine (pay2_apply (grid1.coords t) (srcBlk V c t) (featBlk V c t) acc r d).trans ?_
  refine congrArg (acc (ix2 r d) + ·) (Finset.sum_congr rfl fun n _ => ?_)
  have hn := n.isLt
  have hr := r.isLt
  have hb1 : t.val / 20 * 1280 + r.val < 640000 := by omega
  have hb2 : t.val % 20 * 2048 + n.val < 40960 := by omega
  unfold term srcAt featAt
  rw [dif_pos hb1, dif_pos hb2, srcBlk_apply V c t r hb1, featBlk_apply V c t n d hb2, ec]

/-- The accumulator's two equations. -/
theorem gather_reset (c : Dev nD) (n : ℕ) (h : n < cfg1.N) (hm : n % 20 = 0) :
    acc1 V c n h = k1_pay2 (grid1.coords ⟨n, h⟩) (srcBlk V c ⟨n, h⟩) (featBlk V c ⟨n, h⟩) (k1_pay1 (F := Ideal)) := by
  cases n with
  | zero => rfl
  | succ k => show k1_pay2 _ _ _ (if (k + 1) % 20 = 0 then k1_pay1 (F := Ideal) else acc1 V c k _) = _; rw [if_pos hm]

theorem gather_step (c : Dev nD) (n : ℕ) (h : n + 1 < cfg1.N) (hm : ¬(n + 1) % 20 = 0) :
    acc1 V c (n + 1) h = k1_pay2 (grid1.coords ⟨n + 1, h⟩) (srcBlk V c ⟨n + 1, h⟩) (featBlk V c ⟨n + 1, h⟩) (acc1 V c n (Nat.lt_of_succ_lt h)) := by
  show k1_pay2 _ _ _ (if (n + 1) % 20 = 0 then k1_pay1 (F := Ideal) else acc1 V c n _) = _; rw [if_neg hm]

theorem pay1_apply (i : S1280x128.Idx) : k1_pay1 (F := Ideal) i = 0 := by
  unfold k1_pay1
  simp only [shapeCast_self]
  exact Ideal.ofBits_zero_f32

/-- THE INVARIANT: after node block j of edge block q the accumulator's entry (r, d) holds the gather sum of edge
    q·1280 + r over the nodes of blocks 0 … j. -/
theorem acc1_apply (c : Dev nD) (q : ℕ) : ∀ (j : ℕ) (_ : j < 20) (h : 20 * q + j < cfg1.N) (r : Fin 1280) (d : Fin 128),
    acc1 V c (20 * q + j) h (ix2 r d)
      = ∑ s ∈ Finset.range (j + 1), ∑ n : Fin 2048, term V c (q * 1280 + r.val) (s * 2048 + n.val) d
  | 0, _, h, r, d => by
    refine (congrFun (gather_reset V c (20 * q + 0) h (by omega)) (ix2 r d)).trans ?_
    refine (step_apply V c ⟨20 * q + 0, h⟩ (k1_pay1 (F := Ideal)) r d).trans ?_
    rw [pay1_apply, zero_add, Finset.sum_range_one]
    have e1 : (20 * q + 0) / 20 = q := by omega
    have e2 : (20 * q + 0) % 20 = 0 := by omega
    show ∑ n : Fin 2048, term V c ((20 * q + 0) / 20 * 1280 + r.val) ((20 * q + 0) % 20 * 2048 + n.val) d = _
    rw [e1, e2]
  | j + 1, hj, h, r, d => by
    have hm : ¬(20 * q + j + 1) % 20 = 0 := by omega
    refine (congrFun (gather_step V c (20 * q + j) h hm) (ix2 r d)).trans ?_
    refine (step_apply V c ⟨20 * q + j + 1, h⟩ (acc1 V c (20 * q + j) (Nat.lt_of_succ_lt h)) r d).trans ?_
    rw [acc1_apply c q j (Nat.lt_of_succ_lt hj) (Nat.lt_of_succ_lt h) r d, Finset.sum_range_succ _ (j + 1)]
    have e1 : (20 * q + j + 1) / 20 = q := by omega
    have e2 : (20 * q + j + 1) % 20 = j + 1 := by omega
    show _ + ∑ n : Fin 2048, term V c ((20 * q + j + 1) / 20 * 1280 + r.val) ((20 * q + j + 1) % 20 * 2048 + n.val) d = _
    rw [e1, e2]

/-- A sum over a blocks of b consecutive naturals is the sum over the first a·b naturals. -/
theorem sum_blocks {M : Type*} [AddCommMonoid M] (a b : ℕ) (G : ℕ → M) :
    ∑ s ∈ Finset.range a, ∑ n : Fin b, G (s * b + n.val) = ∑ p : Fin (a * b), G p.val := by
  rw [← Fin.sum_univ_eq_sum_range (fun s => ∑ n : Fin b, G (s * b + n.val)) a,
    ← Equiv.sum_comp finProdFinEquiv (fun p : Fin (a * b) => G p.val), Fintype.sum_prod_type]
  refine Finset.sum_congr rfl fun s _ => Finset.sum_congr rfl fun n _ => ?_
  show G (s.val * b + n.val) = G (n.val + b * s.val)
  rw [Nat.add_comm, Nat.mul_comm]

/-- At the last node block the accumulator's entry is the whole gather sum of its edge. -/
theorem acc1_last (c : Dev nD) (t : Fin cfg1.N) (ht : t.val % 20 = 19) (r : Fin 1280) (d : Fin 128) :
    acc1 V c t.val t.isLt (ix2 r d) = ∑ p : Fin 40960, term V c (t.val / 20 * 1280 + r.val) p.val d := by
  have same : ∀ (u : ℕ) (hu : u < cfg1.N), u = t.val → acc1 V c u hu = acc1 V c t.val t.isLt := fun u hu e => by subst e; rfl
  have e : 20 * (t.val / 20) + 19 = t.val := by omega
  have h' : 20 * (t.val / 20) + 19 < cfg1.N := by have := t.isLt; omega
  rw [← same _ h' e, acc1_apply V c (t.val / 20) 19 (by omega) h' r d]
  exact sum_blocks 20 2048 (fun p => term V c (t.val / 20 * 1280 + r.val) p d)

/-- WHAT THE REGION LEAVES in its output array: row e is the one-hot row of edge e's source against the node features. -/
def gathered (c : Dev nD) : Vec Ideal S640000x128 .bf16 := fun i =>
  ∑ p : Fin 40960, (if srcArr V c (ix2 (⟨(i 0).val, idx2_lt0 i⟩ : Fin 640000) (0 : Fin 1)) = BitVec.ofNat 32 p.val then (1 : EReal) else 0)
    * featArr V c (ix2 p (⟨(i 1).val, idx2_lt1 i⟩ : Fin 128))

theorem gathered_apply (c : Dev nD) (i : S640000x128.Idx) (e : ℕ) (d : Fin 128) (he : (i 0).val = e) (hd : (i 1).val = d.val) :
    gathered V c i = ∑ p : Fin 40960, term V c e p.val d := by
  subst he
  have hd' : (⟨(i 1).val, idx2_lt1 i⟩ : Fin 128) = d := Fin.ext hd
  unfold gathered term srcAt featAt
  refine Finset.sum_congr rfl fun p _ => ?_
  rw [dif_pos (idx2_lt0 i), dif_pos p.isLt, hd']

/-- The block of the output array point t writes back, by coordinates. -/
theorem mem_out_blk (t : Fin cfg1.N) (i : S640000x128.Idx) :
    i ∈ ((cfg1.win 2).blk t).view.set ↔ ∀ a : Fin 2, win1_2.index t a * S1280x128.size a ≤ (i a).val ∧ (i a).val < win1_2.index t a * S1280x128.size a + S1280x128.size a := by
  show i ∈ ((View.whole main_v14).slice (win1_2.rect t)).set ↔ _
  rw [View.set_slice_whole, Rect.mem_set_unit]
  exact Iff.rfl

/-- The output's staged block is written back whole; what the body stores there is the accumulator (the narrowing is the
    identity on extended reals); a block of an array read at a block entry is the array at the entry's place. -/
theorem cut_apply (t : Fin cfg1.N) (X : Vec Ideal S1280x128 .bf16) (r : Fin 1280) (d : Fin 128) :
    (cfg1.win 2).cut (grid1.coords t) X (ix2 r d) = X (ix2 r d) := rfl

theorem out1_apply (c : Dev nD) (t : Fin cfg1.N) (r : Fin 1280) (d : Fin 128) :
    out1 V c t (ix2 r d) = acc1 V c t.val t.isLt (ix2 r d) := by
  unfold out1 k1_pay3
  exact truncf_apply _ _ _

theorem read_out_blk (t : Fin cfg1.N) (G : Vec Ideal S640000x128 .bf16) (r : Fin 1280) (d : Fin 128) :
    ((cfg1.win 2).blk t).view.read (Elt Ideal) G (ix2 r d) = G (((cfg1.win 2).blk t).view.emb (ix2 r d)) := rfl

/-- What a point that writes back writes is its block of the gathered array. -/
theorem flushed_eq (c : Dev nD) (t : Fin cfg1.N) (hf : (cfg1.win 2).flush t = true) :
    (dat1 V c).flushed 2 t = ((cfg1.win 2).blk t).view.read (Elt Ideal) (gathered V c) := by
  have h19 : t.val % 20 = 19 := (flush1_2 t).mp hf
  obtain ⟨-, -, -, -, -, e0, e1⟩ := point_facts t
  show (cfg1.win 2).cut (grid1.coords t) ((dat1 V c).after 2 t) = _
  rw [after1_2]
  funext y
  obtain ⟨r, d, rfl⟩ : ∃ (r : Fin 1280) (d : Fin 128), y = ix2 r d := ⟨y 0, y 1, eq_ix2 y⟩
  refine (cut_apply t (out1 V c t) r d).trans ?_
  refine (out1_apply V c t r d).trans ?_
  refine Eq.trans ?_ (read_out_blk t (gathered V c) r d).symm
  rw [acc1_last V c t h19 r d]
  refine (gathered_apply V c _ (t.val / 20 * 1280 + r.val) d ?_ ?_).symm
  · show win1_2.index t (0 : Fin 2) * 1280 + 1 * r.val = t.val / 20 * 1280 + r.val; rw [e0]; omega
  · show win1_2.index t (1 : Fin 2) * 128 + 1 * d.val = d.val; rw [e1]; omega

/-- Every row of the output array is in the block written back at the last node block of its edge block. -/
theorem out_cover (i : S640000x128.Idx) :
    ∃ t : Fin cfg1.N, (cfg1.win 2).flush t = true ∧ i ∈ ((cfg1.win 2).blk t).view.set := by
  have hN := N1
  have h0 : (i 0).val < 640000 := idx2_lt0 i
  have h1 : (i 1).val < 128 := idx2_lt1 i
  let t : Fin cfg1.N := ⟨(i 0).val / 1280 * 20 + 19, by omega⟩
  have tv : t.val = (i 0).val / 1280 * 20 + 19 := rfl
  obtain ⟨-, -, -, -, -, e0, e1⟩ := point_facts t
  refine ⟨t, (flush1_2 t).mpr (by omega), ?_⟩
  rw [mem_out_blk]
  intro a
  match a with
  | ⟨0, _⟩ => show win1_2.index t (0 : Fin 2) * 1280 ≤ (i 0).val ∧ (i 0).val < win1_2.index t (0 : Fin 2) * 1280 + 1280; rw [e0]; omega
  | ⟨1, _⟩ => show win1_2.index t (1 : Fin 2) * 128 ≤ (i 1).val ∧ (i 1).val < win1_2.index t (1 : Fin 2) * 128 + 128; rw [e1]; omega

/-- The output array after the region. -/
theorem arr1_eq (c : Dev nD) : (dat1 V c).arrAt 2 cfg1.N = gathered V c :=
  (dat1 V c).arrAt_eq_of_cover 2 (gathered V c) (fun t hf => flushed_eq V c t hf) out_cover

/-! ## At the program's own entry contents -/

/-- Row e of the gather's output: the one-hot row of edge e's source against the node features the region was entered with. -/
theorem o6_apply (m : (ℓ : Loc nD τ sig) → Buf (Elt Ideal) ℓ) (c : Dev nD) (e : Fin 640000) (d : Fin 128) :
    aO6 m c (ix2 e d)
      = ∑ p : Fin 40960, (if aV10 m c (ix2 e (0 : Fin 1)) = BitVec.ofNat 32 p.val then (1 : EReal) else 0) * aV7 m c (ix2 p d) := by
  unfold aO6 o6
  exact congrFun (arr1_eq (E5 m) c) (ix2 e d)

end Cert.KernelIdeal.Hand

end
-- ==== Proof.KI.Val2.lean ====
/- The scatter-mean region's output array at the ideal instance: row n of the result is the sum, over the edges whose
   destination is n, of the edges' message rows, divided by the larger of that number of edges and one. The one-hot
   matrix of a node block against an edge block has entry 1 where the edge's destination is the row's node; the two
   accumulators add, edge block after edge block, its product with the message block and its row sums; after the last
   edge block the quotient is written to the node block's rows of the output. -/
import proofs.«412787_j352187319219_2_alg».proof.Proof.KI.Names
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

/-! ## The payloads at an index -/

/-- The f32 pattern of one denotes the extended real one. -/
theorem sc_ofBits_one_f32 : Ideal.ofBits .f32 0x3F800000#32 = 1 := by
  simp [Ideal.ofBits, Ideal.ieee, -EReal.coe_mul]; norm_num

/-- A one-bit comparison widened to a word and read as a signed integer is the indicator of the comparison. -/
theorem sc_sitofp_eq_indicator (x y : BitVec 32) :
    (FloatOps.sitofp (F := Ideal) .f32 ((IntOp.cmpi .eq x y).setWidth 32) : EReal) = if x = y then 1 else 0 := by
  by_cases h : x = y
  · subst h
    rw [if_pos rfl]
    have : IntOp.cmpi .eq x x = 1#1 := by simp [IntOp.cmpi]
    rw [this]
    show (((1#1 : BitVec 1).setWidth 32).toInt : ℝ) = (1 : EReal)
    simp
  · rw [if_neg h]
    have hb : (x == y) = false := by simpa using h
    have : IntOp.cmpi .eq x y = 0#1 := by simp [IntOp.cmpi, hb]
    rw [this]
    show (((0#1 : BitVec 1).setWidth 32).toInt : ℝ) = (0 : EReal)
    simp

/-- A column broadcast along the rows' lanes reads the column's entry of the row. -/
theorem sc_bcast_col_1280 {α : Type} (x : S2048x1.Idx → α) (r : Fin 2048) (q : Fin 1280) :
    broadcastTo S2048x1280 x broadcasts_S2048x1_S2048x1280 (ix2 r q) = x (ix2 r (0 : Fin 1)) :=
  broadcastTo_apply x broadcasts_S2048x1_S2048x1280 (ix2 r q) (ix2 r (0 : Fin 1)) (fun a => match a with
    | ⟨0, _⟩ => rfl
    | ⟨1, _⟩ => rfl)

theorem sc_bcast_col_128 {α : Type} (x : S2048x1.Idx → α) (r : Fin 2048) (d : Fin 128) :
    broadcastTo S2048x128 x broadcasts_S2048x1_S2048x128 (ix2 r d) = x (ix2 r (0 : Fin 1)) :=
  broadcastTo_apply x broadcasts_S2048x1_S2048x128 (ix2 r d) (ix2 r (0 : Fin 1)) (fun a => match a with
    | ⟨0, _⟩ => rfl
    | ⟨1, _⟩ => rfl)

/-- A row broadcast down the rows reads the row's entry of the lane. -/
theorem sc_bcast_row_1280 {α : Type} (x : S1x1280.Idx → α) (r : Fin 2048) (q : Fin 1280) :
    broadcastTo S2048x1280 x broadcasts_S1x1280_S2048x1280 (ix2 r q) = x (ix2 (0 : Fin 1) q) :=
  broadcastTo_apply x broadcasts_S1x1280_S2048x1280 (ix2 r q) (ix2 (0 : Fin 1) q) (fun a => match a with
    | ⟨0, _⟩ => rfl
    | ⟨1, _⟩ => rfl)

/-- The destinations' block with its two unit axes merged. -/
theorem sc_cast_dst {α : Type} (x : S1x1x1280.Idx → α) (q : Fin 1280) :
    shapeCast S1x1280 x shapeCasts_S1x1x1280_S1x1280 (ix2 (0 : Fin 1) q) = x (ix3 (0 : Fin 1) (0 : Fin 1) q) :=
  shapeCast_apply x shapeCasts_S1x1x1280_S1x1280 (ix2 (0 : Fin 1) q) (ix3 (0 : Fin 1) (0 : Fin 1) q) (by
    rw [Shape.rowMajor_val_three, Shape.rowMajor_val_two]; rfl)

/-- A vector of row sums seen as a column. -/
theorem sc_cast_col {α : Type} (x : S2048.Idx → α) (r : Fin 2048) :
    shapeCast S2048x1 x shapeCasts_S2048_S2048x1 (ix2 r (0 : Fin 1)) = x (ix1 r) :=
  shapeCast_apply x shapeCasts_S2048_S2048x1 (ix2 r (0 : Fin 1)) (ix1 r) (by
    rw [Shape.rowMajor_val_one, Shape.rowMajor_val_two]; show r.val = r.val * 1 + 0; omega)

/-- The one-hot matrix of node block i against the loaded destinations: entry (r, q) is one exactly when the q-th
    destination is node i·2048 + r. -/
theorem sc_pay3_apply (i : grid2.Coords) (v3 : IVec S1x1x1280 32) (r : Fin 2048) (q : Fin 1280) :
    (k2_pay3 (F := Ideal) i v3) (ix2 r q)
      = if BitVec.ofNat 32 (i 0).val * 2048#32 + BitVec.ofNat 32 r.val = v3 (ix3 (0 : Fin 1) (0 : Fin 1) q) then (1 : EReal) else 0 := by
  unfold k2_pay3
  dsimp only
  rw [sitofp_apply, extui_apply]
  show FloatOps.sitofp (F := Ideal) .f32 ((IntOp.cmpi .eq _ _).setWidth 32) = _
  rw [sc_sitofp_eq_indicator, sc_bcast_col_1280, sc_bcast_row_1280, sc_cast_dst]
  show (if IntOp.addi (Scalar.muli (BitVec.ofNat 32 (i 0).val) 2048#32) (iota .tc S2048x1 32 [0] iota_S2048x1_d0_w32 (ix2 r (0 : Fin 1))) = _ then (1 : EReal) else 0) = _
  rw [iota_single_apply]
  rfl

/-- The zero blocks the accumulators restart from. -/
theorem sc_pay1_apply (j : S2048x128.Idx) : (k2_pay1 (F := Ideal)) j = 0 := by
  unfold k2_pay1
  rw [shapeCast_self, broadcast_apply]
  exact Ideal.ofBits_zero_f32

theorem sc_pay2_apply (j : S2048x1.Idx) : (k2_pay2 (F := Ideal)) j = 0 := by
  unfold k2_pay2
  rw [shapeCast_self, broadcast_apply]
  exact Ideal.ofBits_zero_f32

theorem sc_lhs_k2_0 (j : S2048x128.Idx) (k : dot_S2048x1280_S1280x128_S2048x128_1_0_0_1_n_n.contr.Idx) :
    (dot_S2048x1280_S1280x128_S2048x128_1_0_0_1_n_n.lhsIdx j k 0).val = (j 0).val := by
  unfold DotDims.lhsIdx
  rw [dif_neg (show ¬(0 : Fin S2048x1280.rank) ∈ dot_S2048x1280_S1280x128_S2048x128_1_0_0_1_n_n.lhsBatch by decide), dif_pos (show (0 : Fin S2048x1280.rank) ∈ dot_S2048x1280_S1280x128_S2048x128_1_0_0_1_n_n.lhsNonContracting by decide)]
  rfl
theorem sc_lhs_k2_1 (j : S2048x128.Idx) (k : dot_S2048x1280_S1280x128_S2048x128_1_0_0_1_n_n.contr.Idx) :
    (dot_S2048x1280_S1280x128_S2048x128_1_0_0_1_n_n.lhsIdx j k 1).val = (k ⟨0, by decide⟩).val :=
  dot_S2048x1280_S1280x128_S2048x128_1_0_0_1_n_n.lhsIdx_val_of_single rfl j k
theorem sc_rhs_k2_0 (j : S2048x128.Idx) (k : dot_S2048x1280_S1280x128_S2048x128_1_0_0_1_n_n.contr.Idx) :
    (dot_S2048x1280_S1280x128_S2048x128_1_0_0_1_n_n.rhsIdx j k 0).val = (k ⟨0, by decide⟩).val :=
  dot_S2048x1280_S1280x128_S2048x128_1_0_0_1_n_n.rhsIdx_val_of_single rfl j k
theorem sc_rhs_k2_1 (j : S2048x128.Idx) (k : dot_S2048x1280_S1280x128_S2048x128_1_0_0_1_n_n.contr.Idx) :
    (dot_S2048x1280_S1280x128_S2048x128_1_0_0_1_n_n.rhsIdx j k 1).val = (j 1).val := by
  unfold DotDims.rhsIdx
  rw [dif_neg (show ¬(1 : Fin S1280x128.rank) ∈ dot_S2048x1280_S1280x128_S2048x128_1_0_0_1_n_n.rhsBatch by decide), dif_pos (show (1 : Fin S1280x128.rank) ∈ dot_S2048x1280_S1280x128_S2048x128_1_0_0_1_n_n.rhsNonContracting by decide)]
  rfl

/-- The product into the zero block: entry (r, d) is the sum over the 1280 edges of the block of the left entry
    (r, q) times the right entry (q, d). -/
theorem sc_matmul_k2_apply (a : FVec Ideal S2048x1280 .bf16) (b : FVec Ideal S1280x128 .bf16) (r : Fin 2048) (d : Fin 128) :
    matmul dot_S2048x1280_S1280x128_S2048x128_1_0_0_1_n_n none a b (constant (F := Ideal) S2048x128 .f32 0x00000000#32) (ix2 r d)
      = ∑ q : Fin 1280, a (ix2 r q) * b (ix2 q d) := by
  simp only [matmul]
  rw [Ideal.matmul_constant_zero_apply, ← Equiv.sum_comp (contrEquiv1 dot_S2048x1280_S1280x128_S2048x128_1_0_0_1_n_n 1280 rfl rfl).symm]
  refine Finset.sum_congr rfl fun k _ => ?_
  have hk := contrEquiv1_symm_val dot_S2048x1280_S1280x128_S2048x128_1_0_0_1_n_n 1280 rfl rfl k
  have el : dot_S2048x1280_S1280x128_S2048x128_1_0_0_1_n_n.lhsIdx (ix2 r d) ((contrEquiv1 dot_S2048x1280_S1280x128_S2048x128_1_0_0_1_n_n 1280 rfl rfl).symm k) = ix2 r k := funext fun a => Fin.ext (by
    match a with
    | ⟨0, _⟩ => exact sc_lhs_k2_0 _ _
    | ⟨1, _⟩ => exact (sc_lhs_k2_1 _ _).trans hk)
  have er : dot_S2048x1280_S1280x128_S2048x128_1_0_0_1_n_n.rhsIdx (ix2 r d) ((contrEquiv1 dot_S2048x1280_S1280x128_S2048x128_1_0_0_1_n_n 1280 rfl rfl).symm k) = ix2 k d := funext fun a => Fin.ext (by
    match a with
    | ⟨0, _⟩ => exact (sc_rhs_k2_0 _ _).trans hk
    | ⟨1, _⟩ => exact sc_rhs_k2_1 _ _)
  rw [el, er]

/-- The sums' accumulator after a point: what it held plus the one-hot matrix times the message block. -/
theorem sc_pay4_apply (i : grid2.Coords) (v3 : IVec S1x1x1280 32) (v15 : FVec Ideal S1280x128 .bf16) (v17 : FVec Ideal S2048x128 .f32)
    (r : Fin 2048) (d : Fin 128) :
    (k2_pay4 (F := Ideal) i v3 v15 v17) (ix2 r d)
      = v17 (ix2 r d) + ∑ q : Fin 1280, (k2_pay3 (F := Ideal) i v3) (ix2 r q) * v15 (ix2 q d) := by
  unfold k2_pay4
  rw [shapeCast_self, addf_apply, sc_matmul_k2_apply, shapeCast_self]
  simp only [truncf_apply]

/-- A row's sum over the 1280 lanes. -/
theorem sc_rowsum_apply (src : FVec Ideal S2048x1280 .f32) (hφ : FKind.Formats .f32) (hacc : (0x00000000#32 : BitVec 32) = 0x00000000#32)
    (r : Fin 2048) :
    multiReduction (F := Ideal) .add [1] S2048 src 0x00000000#32 reduces_S2048x1280_S2048 hφ hacc (ix1 r)
      = ∑ q : Fin 1280, src (ix2 r q) := by
  refine (Ideal.multiReduction_add_single src 0x00000000#32 reduces_S2048x1280_S2048 hφ hacc (ix1 r)).trans ?_
  refine Finset.sum_congr rfl fun q _ => congrArg src ?_
  funext a
  apply Fin.ext
  match a with
  | ⟨0, _⟩ => rfl
  | ⟨1, _⟩ => rfl

/-- The degrees' accumulator after a point: what it held plus the one-hot matrix's row sums. -/
theorem sc_pay5_apply (i : grid2.Coords) (v3 : IVec S1x1x1280 32) (v23 : FVec Ideal S2048x1 .f32) (r : Fin 2048) :
    (k2_pay5 (F := Ideal) i v3 v23) (ix2 r (0 : Fin 1))
      = v23 (ix2 r (0 : Fin 1)) + ∑ q : Fin 1280, (k2_pay3 (F := Ideal) i v3) (ix2 r q) := by
  unfold k2_pay5
  dsimp only
  rw [shapeCast_self, addf_apply, sc_cast_col, sc_rowsum_apply]

/-- The stored quotient: the sums over the larger of the degree and one. -/
theorem sc_pay6_apply (v34 : FVec Ideal S2048x1 .f32) (v37 : FVec Ideal S2048x128 .f32) (r : Fin 2048) (d : Fin 128) :
    (k2_pay6 (F := Ideal) v34 v37) (ix2 r d) = Ideal.div (v37 (ix2 r d)) (max (v34 (ix2 r (0 : Fin 1))) 1) := by
  unfold k2_pay6
  rw [divf_apply, sc_bcast_col_128, maximumf_apply, broadcast_apply]
  show Ideal.div _ (max _ (Ideal.ofBits .f32 0x3F800000#32)) = _
  rw [sc_ofBits_one_f32]

/-! ## What a point reads and adds -/

variable (V : (c : Dev nD) → (b : Ref sig .tc) → Buf (Elt Ideal) ((c : Thread nD τ).loc b))

/-- The edges' destinations and the messages as the region finds them, at their literal types. -/
abbrev sc_dstArr (c : Dev nD) : IVec S500x1x1280 32 := V c main_v13
abbrev sc_msgArr (c : Dev nD) : FVec Ideal S640000x128 .bf16 := V c main_v14

/-- The two blocks point t loads, at their literal types. -/
abbrev sc_dblk (c : Dev nD) (t : Fin cfg2.N) : IVec S1x1x1280 32 := iblk2 V c 0 t
abbrev sc_mblk (c : Dev nD) (t : Fin cfg2.N) : FVec Ideal S1280x128 .bf16 := iblk2 V c 1 t

theorem sc_arrRef2_0 : Pipeline.arrRef spec2 0 = main_v13 := rfl
theorem sc_arrRef2_1 : Pipeline.arrRef spec2 1 = main_v14 := rfl
theorem sc_arrRef2_2 : Pipeline.arrRef spec2 2 = main_v15 := rfl

/-- The index maps over the grid: point t is node block t / 500 and edge block t % 500; the two inputs move with the
    edge block, the output with the node block. -/
theorem sc_idx_facts2 : ∀ t : Fin cfg2.N,
    win2_0.index t (0 : Fin 3) = t.val % 500 ∧ win2_0.index t (1 : Fin 3) = 0 ∧ win2_0.index t (2 : Fin 3) = 0
    ∧ win2_1.index t (0 : Fin 2) = t.val % 500 ∧ win2_1.index t (1 : Fin 2) = 0
    ∧ win2_2.index t (0 : Fin 2) = t.val / 500 ∧ win2_2.index t (1 : Fin 2) = 0
    ∧ (grid2.coords t 0).val = t.val / 500 :=
  (by decide +kernel : ∀ t : Fin grid2.N, _)

/-- The destinations' block at point t is row t % 500 of the destinations. -/
theorem sc_dblk_apply (c : Dev nD) (t : Fin cfg2.N) (q : Fin 1280) :
    sc_dblk V c t (ix3 (0 : Fin 1) (0 : Fin 1) q)
      = sc_dstArr V c (ix3 (⟨t.val % 500, Nat.mod_lt _ (by decide)⟩ : Fin 500) (0 : Fin 1) q) := by
  obtain ⟨e0, e1, e2, -⟩ := sc_idx_facts2 t
  show sc_dstArr V c (((cfg2.win 0).blk t).view.emb (ix3 (0 : Fin 1) (0 : Fin 1) q)) = _
  refine congrArg (sc_dstArr V c) ?_
  funext a
  apply Fin.ext
  match a with
  | ⟨0, _⟩ => show win2_0.index t (0 : Fin 3) * 1 + 1 * 0 = t.val % 500; omega
  | ⟨1, _⟩ => show win2_0.index t (1 : Fin 3) * 1 + 1 * 0 = 0; omega
  | ⟨2, _⟩ => show win2_0.index t (2 : Fin 3) * 1280 + 1 * q.val = q.val; omega

/-- Point n's one-hot entry (r, q): whether edge (n % 500)·1280 + q ends at node (n / 500)·2048 + r. -/
def sc_ohq (c : Dev nD) (n : ℕ) (r : Fin 2048) (q : Fin 1280) : EReal :=
  if BitVec.ofNat 32 (n / 500 * 2048 + r.val)
      = sc_dstArr V c (ix3 (⟨n % 500, Nat.mod_lt _ (by decide)⟩ : Fin 500) (0 : Fin 1) q) then 1 else 0

/-- Point n's message entry (q, d): row (n % 500)·1280 + q of the messages. -/
def sc_mq (c : Dev nD) (n : ℕ) (q : Fin 1280) (d : Fin 128) : EReal :=
  sc_msgArr V c (ix2 (⟨n % 500 * 1280 + q.val, by
    have := Nat.mod_lt n (show 0 < 500 by decide); have := q.isLt; omega⟩ : Fin 640000) d)

theorem sc_mblk_apply (c : Dev nD) (t : Fin cfg2.N) (q : Fin 1280) (d : Fin 128) :
    sc_mblk V c t (ix2 q d) = sc_mq V c t.val q d := by
  obtain ⟨-, -, -, e0, e1, -⟩ := sc_idx_facts2 t
  show sc_msgArr V c (((cfg2.win 1).blk t).view.emb (ix2 q d)) = _
  unfold sc_mq
  refine congrArg (sc_msgArr V c) ?_
  funext a
  apply Fin.ext
  match a with
  | ⟨0, _⟩ => show win2_1.index t (0 : Fin 2) * 1280 + 1 * q.val = t.val % 500 * 1280 + q.val; omega
  | ⟨1, _⟩ => show win2_1.index t (1 : Fin 2) * 128 + 1 * d.val = d.val; omega

theorem sc_pay3_point (c : Dev nD) (t : Fin cfg2.N) (r : Fin 2048) (q : Fin 1280) :
    (k2_pay3 (F := Ideal) (grid2.coords t) (sc_dblk V c t)) (ix2 r q) = sc_ohq V c t.val r q := by
  obtain ⟨-, -, -, -, -, -, -, eg⟩ := sc_idx_facts2 t
  refine (sc_pay3_apply (grid2.coords t) (sc_dblk V c t) r q).trans ?_
  rw [sc_dblk_apply, eg]
  unfold sc_ohq
  rw [BitVec.ofNat_add, BitVec.ofNat_mul]

/-- What point n adds to entry (r, d) of the sums and to entry r of the degrees. -/
def sc_A1 (c : Dev nD) (n : ℕ) (r : Fin 2048) (d : Fin 128) : EReal := ∑ q : Fin 1280, sc_ohq V c n r q * sc_mq V c n q d
def sc_A2 (c : Dev nD) (n : ℕ) (r : Fin 2048) : EReal := ∑ q : Fin 1280, sc_ohq V c n r q

theorem sc_step1 (c : Dev nD) (t : Fin cfg2.N) (acc : FVec Ideal S2048x128 .f32) (r : Fin 2048) (d : Fin 128) :
    (k2_pay4 (F := Ideal) (grid2.coords t) (sc_dblk V c t) (sc_mblk V c t) acc) (ix2 r d) = acc (ix2 r d) + sc_A1 V c t.val r d := by
  refine (sc_pay4_apply (grid2.coords t) (sc_dblk V c t) (sc_mblk V c t) acc r d).trans ?_
  unfold sc_A1
  refine congrArg (acc (ix2 r d) + ·) (Finset.sum_congr rfl fun q _ => ?_)
  rw [sc_pay3_point, sc_mblk_apply]

theorem sc_step2 (c : Dev nD) (t : Fin cfg2.N) (acc : FVec Ideal S2048x1 .f32) (r : Fin 2048) :
    (k2_pay5 (F := Ideal) (grid2.coords t) (sc_dblk V c t) acc) (ix2 r (0 : Fin 1)) = acc (ix2 r (0 : Fin 1)) + sc_A2 V c t.val r := by
  refine (sc_pay5_apply (grid2.coords t) (sc_dblk V c t) acc r).trans ?_
  unfold sc_A2
  refine congrArg (acc (ix2 r (0 : Fin 1)) + ·) (Finset.sum_congr rfl fun q _ => ?_)
  rw [sc_pay3_point]

/-! ## The accumulators after each point -/

/-- At the first edge block of a node block the accumulators restart from the zero blocks. -/
theorem sc_acc2_reset (c : Dev nD) (n : ℕ) (hn : n < cfg2.N) (h0 : n % 500 = 0) :
    acc2 V c n hn = (k2_pay4 (F := Ideal) (grid2.coords ⟨n, hn⟩) (sc_dblk V c ⟨n, hn⟩) (sc_mblk V c ⟨n, hn⟩) (k2_pay1 (F := Ideal)),
                     k2_pay5 (F := Ideal) (grid2.coords ⟨n, hn⟩) (sc_dblk V c ⟨n, hn⟩) (k2_pay2 (F := Ideal))) := by
  cases n with
  | zero => rfl
  | succ n => rw [acc2, if_pos h0, if_pos h0]

/-- At every other point they go on from what the point before left. -/
theorem sc_acc2_step (c : Dev nD) (n : ℕ) (hn : n + 1 < cfg2.N) (h0 : ¬(n + 1) % 500 = 0) :
    acc2 V c (n + 1) hn
      = (k2_pay4 (F := Ideal) (grid2.coords ⟨n + 1, hn⟩) (sc_dblk V c ⟨n + 1, hn⟩) (sc_mblk V c ⟨n + 1, hn⟩) (acc2 V c n (Nat.lt_of_succ_lt hn)).1,
         k2_pay5 (F := Ideal) (grid2.coords ⟨n + 1, hn⟩) (sc_dblk V c ⟨n + 1, hn⟩) (acc2 V c n (Nat.lt_of_succ_lt hn)).2) := by
  rw [acc2, if_neg h0, if_neg h0]

/-- After point n the accumulators hold the contributions of the points of n's node block up to n: the sums are taken in
    the extended reals' commutative monoid, so no order and no finiteness is asked. -/
theorem sc_acc2_inv (c : Dev nD) : ∀ (n : ℕ) (hn : n < cfg2.N) (r : Fin 2048),
    (∀ d : Fin 128, (acc2 V c n hn).1 (ix2 r d) = ∑ s ∈ Finset.range (n % 500 + 1), sc_A1 V c (n / 500 * 500 + s) r d)
    ∧ (acc2 V c n hn).2 (ix2 r (0 : Fin 1)) = ∑ s ∈ Finset.range (n % 500 + 1), sc_A2 V c (n / 500 * 500 + s) r
  | 0, hn, r => by
    rw [sc_acc2_reset V c 0 hn rfl]
    dsimp only
    refine ⟨fun d => ?_, ?_⟩
    · refine (sc_step1 V c ⟨0, hn⟩ (k2_pay1 (F := Ideal)) r d).trans ?_
      rw [sc_pay1_apply, zero_add]
      simp
    · refine (sc_step2 V c ⟨0, hn⟩ (k2_pay2 (F := Ideal)) r).trans ?_
      rw [sc_pay2_apply, zero_add]
      simp
  | n + 1, hn, r => by
    by_cases h0 : (n + 1) % 500 = 0
    · have hq : (n + 1) / 500 * 500 + 0 = n + 1 := by omega
      rw [sc_acc2_reset V c (n + 1) hn h0, h0]
      dsimp only
      refine ⟨fun d => ?_, ?_⟩
      · refine (sc_step1 V c ⟨n + 1, hn⟩ (k2_pay1 (F := Ideal)) r d).trans ?_
        rw [sc_pay1_apply, zero_add, Finset.sum_range_one, hq]
      · refine (sc_step2 V c ⟨n + 1, hn⟩ (k2_pay2 (F := Ideal)) r).trans ?_
        rw [sc_pay2_apply, zero_add, Finset.sum_range_one, hq]
    · obtain ⟨ih1, ih2⟩ := sc_acc2_inv c n (Nat.lt_of_succ_lt hn) r
      have e1 : (n + 1) % 500 = n % 500 + 1 := by omega
      have e2 : (n + 1) / 500 = n / 500 := by omega
      have e3 : n / 500 * 500 + (n % 500 + 1) = n + 1 := by omega
      rw [sc_acc2_step V c n hn h0, e1, e2]
      dsimp only
      refine ⟨fun d => ?_, ?_⟩
      · refine (sc_step1 V c ⟨n + 1, hn⟩ (acc2 V c n (Nat.lt_of_succ_lt hn)).1 r d).trans ?_
        rw [ih1 d, Finset.sum_range_succ _ (n % 500 + 1), e3]
      · refine (sc_step2 V c ⟨n + 1, hn⟩ (acc2 V c n (Nat.lt_of_succ_lt hn)).2 r).trans ?_
        rw [ih2, Finset.sum_range_succ _ (n % 500 + 1), e3]

/-! ## The edges of all blocks as one sum -/

/-- Whether edge e ends at node n. -/
def sc_oh (c : Dev nD) (n : ℕ) (e : Fin 640000) : EReal :=
  if BitVec.ofNat 32 n = sc_dstArr V c (ix3 (⟨e.val / 1280, by have := e.isLt; omega⟩ : Fin 500) (0 : Fin 1)
      (⟨e.val % 1280, Nat.mod_lt _ (by decide)⟩ : Fin 1280)) then 1 else 0

/-- Edge e is edge e % 1280 of edge block e / 1280. -/
def sc_edgeEquiv : Fin 640000 ≃ Fin 500 × Fin 1280 where
  toFun e := (⟨e.val / 1280, by have := e.isLt; omega⟩, ⟨e.val % 1280, Nat.mod_lt _ (by decide)⟩)
  invFun p := ⟨p.1.val * 1280 + p.2.val, by have := p.1.isLt; have := p.2.isLt; omega⟩
  left_inv e := Fin.ext (by show e.val / 1280 * 1280 + e.val % 1280 = e.val; omega)
  right_inv p := Prod.ext
    (Fin.ext (by have := p.2.isLt; show (p.1.val * 1280 + p.2.val) / 1280 = p.1.val; omega))
    (Fin.ext (by have := p.2.isLt; show (p.1.val * 1280 + p.2.val) % 1280 = p.2.val; omega))

/-- A sum over the 640000 edges is the sum over the 500 edge blocks of the sums over a block's 1280 edges. -/
theorem sc_sum_edges (f : Fin 640000 → EReal) :
    ∑ e : Fin 640000, f e
      = ∑ s : Fin 500, ∑ q : Fin 1280, f ⟨s.val * 1280 + q.val, by have := s.isLt; have := q.isLt; omega⟩ := by
  rw [← Fintype.sum_prod_type' (f := fun (s : Fin 500) (q : Fin 1280) =>
    f ⟨s.val * 1280 + q.val, by have := s.isLt; have := q.isLt; omega⟩)]
  exact Fintype.sum_equiv sc_edgeEquiv _ _ (fun e => congrArg f (Fin.ext (by
    show e.val = e.val / 1280 * 1280 + e.val % 1280; omega)))

theorem sc_ohq_eq (c : Dev nD) (b : ℕ) (s : Fin 500) (r : Fin 2048) (q : Fin 1280) :
    sc_ohq V c (b * 500 + s.val) r q
      = sc_oh V c (b * 2048 + r.val) ⟨s.val * 1280 + q.val, by have := s.isLt; have := q.isLt; omega⟩ := by
  unfold sc_ohq sc_oh
  have h1 : (b * 500 + s.val) / 500 = b := by have := s.isLt; omega
  have h2 : ix3 (⟨(b * 500 + s.val) % 500, Nat.mod_lt _ (by decide)⟩ : Fin 500) (0 : Fin 1) q
      = ix3 (⟨(s.val * 1280 + q.val) / 1280, by have := s.isLt; have := q.isLt; omega⟩ : Fin 500) (0 : Fin 1)
          (⟨(s.val * 1280 + q.val) % 1280, Nat.mod_lt _ (by decide)⟩ : Fin 1280) := by
    funext a
    apply Fin.ext
    match a with
    | ⟨0, _⟩ => show (b * 500 + s.val) % 500 = (s.val * 1280 + q.val) / 1280; have := s.isLt; have := q.isLt; omega
    | ⟨1, _⟩ => rfl
    | ⟨2, _⟩ => show q.val = (s.val * 1280 + q.val) % 1280; have := q.isLt; omega
  rw [h1, h2]

theorem sc_mq_eq (c : Dev nD) (b : ℕ) (s : Fin 500) (q : Fin 1280) (d : Fin 128) :
    sc_mq V c (b * 500 + s.val) q d
      = sc_msgArr V c (ix2 (⟨s.val * 1280 + q.val, by have := s.isLt; have := q.isLt; omega⟩ : Fin 640000) d) := by
  unfold sc_mq
  refine congrArg (sc_msgArr V c) ?_
  funext a
  apply Fin.ext
  match a with
  | ⟨0, _⟩ => show (b * 500 + s.val) % 500 * 1280 + q.val = s.val * 1280 + q.val; have := s.isLt; omega
  | ⟨1, _⟩ => rfl

/-- A node block's 500 points' contributions to the sums are the one sum over all edges … -/
theorem sc_sum_A1 (c : Dev nD) (b : ℕ) (r : Fin 2048) (d : Fin 128) :
    ∑ s ∈ Finset.range 500, sc_A1 V c (b * 500 + s) r d
      = ∑ e : Fin 640000, sc_oh V c (b * 2048 + r.val) e * sc_msgArr V c (ix2 e d) := by
  rw [Finset.sum_range, sc_sum_edges]
  refine Finset.sum_congr rfl fun s _ => ?_
  unfold sc_A1
  refine Finset.sum_congr rfl fun q _ => ?_
  rw [sc_ohq_eq, sc_mq_eq]

/-- … and to the degrees likewise. -/
theorem sc_sum_A2 (c : Dev nD) (b : ℕ) (r : Fin 2048) :
    ∑ s ∈ Finset.range 500, sc_A2 V c (b * 500 + s) r = ∑ e : Fin 640000, sc_oh V c (b * 2048 + r.val) e := by
  rw [Finset.sum_range, sc_sum_edges]
  refine Finset.sum_congr rfl fun s _ => ?_
  unfold sc_A2
  refine Finset.sum_congr rfl fun q _ => ?_
  rw [sc_ohq_eq]

/-! ## The output array -/

/-- Entry (n, d) of the result: the sum of the message rows of the edges that end at n, over the larger of their number
    and one. -/
def sc_meanAt (c : Dev nD) (n : Fin 40960) (d : Fin 128) : EReal :=
  Ideal.div (∑ e : Fin 640000, sc_oh V c n.val e * sc_msgArr V c (ix2 e d)) (max (∑ e : Fin 640000, sc_oh V c n.val e) 1)

/-- The same as contents of the output array. -/
abbrev sc_G2 (c : Dev nD) : FVec Ideal S40960x128 .f32 :=
  fun i => sc_meanAt V c ⟨(i 0).val, idx2_lt0 i⟩ ⟨(i 1).val, idx2_lt1 i⟩

/-- Reading an array through the output window's block at point t, and the part of a staged block a write-back
    takes: the array at the block's embedded index, the block at the same coordinates. -/
theorem sc_read_blk2 (G : FVec Ideal S40960x128 .f32) (t : Fin cfg2.N) (y : ((cfg2.win 2).xblock (grid2.coords t)).Idx) :
    ((cfg2.win 2).blk t).view.read (Elt Ideal) G y = G (((cfg2.win 2).blk t).view.emb y) := rfl
theorem sc_cut2 (X : FVec Ideal S2048x128 .f32) (t : Fin cfg2.N) (y : ((cfg2.win 2).xblock (grid2.coords t)).Idx) :
    (cfg2.win 2).cut (grid2.coords t) X y = X ((cfg2.win 2).xinj (grid2.coords t) y) := rfl

/-- The last point of node block b writes rows b·2048 … b·2048 + 2047 of it. -/
theorem sc_flushed2_eq (c : Dev nD) (t : Fin cfg2.N) (hf : (cfg2.win 2).flush t = true) :
    (dat2 V c).flushed 2 t = ((cfg2.win 2).blk t).view.read (Elt Ideal) (sc_G2 V c) := by
  have h499 : t.val % 500 = 499 := (flush2_2 t).mp hf
  have hN : cfg2.N = 10000 := N_2
  obtain ⟨-, -, -, -, -, e0, e1, -⟩ := sc_idx_facts2 t
  show (cfg2.win 2).cut (grid2.coords t) ((dat2 V c).after 2 t) = _
  rw [after2_2]
  funext y
  have hy0 : (y 0).val < 2048 := (y 0).isLt
  have hy1 : (y 1).val < 128 := (y 1).isLt
  obtain ⟨r, hr⟩ : ∃ r : Fin 2048, r.val = (y 0).val := ⟨⟨(y 0).val, hy0⟩, rfl⟩
  obtain ⟨d, hd⟩ : ∃ d : Fin 128, d.val = (y 1).val := ⟨⟨(y 1).val, hy1⟩, rfl⟩
  have hb : t.val / 500 * 2048 + r.val < 40960 := by have := t.isLt; have := r.isLt; omega
  have hx : (cfg2.win 2).xinj (grid2.coords t) y = ix2 r d := by
    funext a
    apply Fin.ext
    match a with
    | ⟨0, _⟩ => exact hr.symm
    | ⟨1, _⟩ => exact hd.symm
  have hemb : ((cfg2.win 2).blk t).view.emb y = ix2 (⟨t.val / 500 * 2048 + r.val, hb⟩ : Fin 40960) d := by
    funext a
    apply Fin.ext
    match a with
    | ⟨0, _⟩ => show win2_2.index t (0 : Fin 2) * 2048 + 1 * (y 0).val = t.val / 500 * 2048 + r.val; omega
    | ⟨1, _⟩ => show win2_2.index t (1 : Fin 2) * 128 + 1 * (y 1).val = d.val; omega
  refine (sc_cut2 (out2 V c t) t y).trans (Eq.trans ?_ (sc_read_blk2 (sc_G2 V c) t y).symm)
  refine Eq.trans (congrArg (out2 V c t) hx) (Eq.trans ?_ (congrArg (sc_G2 V c) hemb.symm))
  show out2 V c t (ix2 r d) = sc_meanAt V c ⟨t.val / 500 * 2048 + r.val, hb⟩ d
  unfold out2
  refine (sc_pay6_apply (acc2 V c t.val t.isLt).2 (acc2 V c t.val t.isLt).1 r d).trans ?_
  obtain ⟨i1, i2⟩ := sc_acc2_inv V c t.val t.isLt r
  rw [i1 d, i2, h499, show (499 + 1 : ℕ) = 500 from rfl, sc_sum_A1, sc_sum_A2]
  rfl

/-- Every row of the output is in the block of its node block's last point. -/
theorem sc_cover2 (c : Dev nD) (i : S40960x128.Idx) :
    ∃ t : Fin cfg2.N, (cfg2.win 2).flush t = true ∧ i ∈ ((cfg2.win 2).blk t).view.set := by
  have hN : cfg2.N = 10000 := N_2
  have hi0 : (i 0).val < 40960 := idx2_lt0 i
  have hi1 : (i 1).val < 128 := idx2_lt1 i
  have ht : (i 0).val / 2048 * 500 + 499 < cfg2.N := by rw [hN]; omega
  obtain ⟨-, -, -, -, -, e0, e1, -⟩ := sc_idx_facts2 ⟨(i 0).val / 2048 * 500 + 499, ht⟩
  have e0' : win2_2.index ⟨(i 0).val / 2048 * 500 + 499, ht⟩ (0 : Fin 2) = (i 0).val / 2048 := by
    rw [e0]; show ((i 0).val / 2048 * 500 + 499) / 500 = (i 0).val / 2048; omega
  refine ⟨⟨(i 0).val / 2048 * 500 + 499, ht⟩, (flush2_2 _).mpr (by
    show ((i 0).val / 2048 * 500 + 499) % 500 = 499; omega), ?_⟩
  show i ∈ ((View.whole main_v15).slice (win2_2.rect ⟨(i 0).val / 2048 * 500 + 499, ht⟩)).set
  rw [View.set_slice_whole, Rect.mem_set_unit]
  intro a
  match a with
  | ⟨0, _⟩ =>
    show win2_2.index ⟨(i 0).val / 2048 * 500 + 499, ht⟩ (0 : Fin 2) * 2048 ≤ (i 0).val
      ∧ (i 0).val < win2_2.index ⟨(i 0).val / 2048 * 500 + 499, ht⟩ (0 : Fin 2) * 2048 + 2048
    rw [e0']; omega
  | ⟨1, _⟩ =>
    show win2_2.index ⟨(i 0).val / 2048 * 500 + 499, ht⟩ (1 : Fin 2) * 128 ≤ (i 1).val
      ∧ (i 1).val < win2_2.index ⟨(i 0).val / 2048 * 500 + 499, ht⟩ (1 : Fin 2) * 128 + 128
    rw [e1]; omega

/-- So the region leaves the means in its output array, whatever contents V it is entered with. -/
theorem sc_final2 (c : Dev nD) : (dat2 V c).arrAt 2 cfg2.N = sc_G2 V c :=
  (dat2 V c).arrAt_eq_of_cover 2 (sc_G2 V c) (fun t hf => sc_flushed2_eq V c t hf) (sc_cover2 c)

/-! ## At the contents the scatter region is entered with -/

/-- Whether edge e ends at node n, read off the destinations' table as the scatter region finds it. -/
def oh2 (m : (ℓ : Loc nD τ sig) → Buf (Elt Ideal) ℓ) (c : Dev nD) (n : Fin 40960) (e : Fin 640000) : EReal :=
  if BitVec.ofNat 32 n.val = aV13 m c (ix3 (⟨e.val / 1280, by have := e.isLt; omega⟩ : Fin 500) (0 : Fin 1)
      (⟨e.val % 1280, Nat.mod_lt _ (by decide)⟩ : Fin 1280)) then 1 else 0

/-- What the scatter region leaves at (n, d): the sum of the messages of the edges that end at n over the larger of
    their number and one. -/
theorem o7_apply (m : (ℓ : Loc nD τ sig) → Buf (Elt Ideal) ℓ) (c : Dev nD) (n : Fin 40960) (d : Fin 128) :
    aO7 m c (ix2 n d)
      = Ideal.div (∑ e : Fin 640000, oh2 m c n e * aV14 m c (ix2 e d)) (max (∑ e : Fin 640000, oh2 m c n e) 1) := by
  show (o7 (F := Ideal) m c : FVec Ideal S40960x128 .f32) (ix2 n d) = _
  unfold o7
  rw [sc_final2 (E6 m) c]
  show sc_meanAt (E6 m) c n d = _
  unfold sc_meanAt sc_oh oh2
  rfl

end Cert.KernelIdeal.Hand

end
-- ==== Proof.LibScatterSet.lean ====
/-
  THE HOST'S REPLACING SCATTER READ AT AN INDEX.

  A scatter is the left fold, over the update indices in row-major order, of the step "the update index lands at an
  operand index (its start, read signed off the scatter indices, plus its window coordinate, when that is inside the
  operand) and the body's value of the element there and the update's element is put there". When the body returns
  the update's element the step overwrites. So at an operand index that no update lands at the result is the
  operand's element, and at an operand index that updates land at, all carrying one element, the result is that
  element. In particular, when the update indices land one to one (an injective map e), the result at e j is the
  update's element at j.

  The last part reads the scatter that PADS: every start zero and the update's axes the operand's axes in order, so
  that the updates fill the operand's corner at the origin; the result is the update inside that corner and the
  operand outside it (rank two and rank three).

  Nothing here evaluates a size or a dimension number: the shapes, the dimension numbers and the element type are
  variables.
-/
import Idealize.ShloMosaic.PureOps.ShapeOps
import Idealize.ShloMosaic.PureOps.Dims
import Idealize.ShloMosaic.Lib.ValueIdx

namespace Idealize.ShloMosaic.ScatterSet

open Idealize.ShloMosaic Idealize.ShloMosaic.ValueIdx

/-! ## A left fold that overwrites one place at a time -/

section Fold
variable {ι κ α : Type}

/-- Steps that leave place i alone leave the fold's value there alone. -/
theorem foldl_apply_of_untouched (st : (κ → α) → ι → (κ → α)) (i : κ) :
    ∀ (l : List ι) (x : κ → α), (∀ r, ∀ n ∈ l, st r n i = r i) → l.foldl st x i = x i
  | [], _, _ => rfl
  | a :: t, x, h => by
    rw [List.foldl_cons, foldl_apply_of_untouched st i t _ fun r n hn => h r n (List.mem_cons_of_mem _ hn)]
    exact h x a List.mem_cons_self

/-- If every step either leaves place i alone or puts the value w there, a fold that starts with w at i ends
    with w at i. -/
theorem foldl_apply_of_stays (st : (κ → α) → ι → (κ → α)) (i : κ) (w : α) :
    ∀ (l : List ι) (x : κ → α), (∀ r, ∀ n ∈ l, st r n i = r i ∨ st r n i = w) → x i = w → l.foldl st x i = w
  | [], _, _, hx => hx
  | a :: t, x, h, hx => by
    rw [List.foldl_cons]
    refine foldl_apply_of_stays st i w t _ (fun r n hn => h r n (List.mem_cons_of_mem _ hn)) ?_
    rcases h x a List.mem_cons_self with e | e
    · rw [e, hx]
    · exact e

/-- If some step of the list puts w at place i, and every step leaves i alone or puts w there, the fold ends with
    w at i. -/
theorem foldl_apply_of_written (st : (κ → α) → ι → (κ → α)) (i : κ) (w : α) (l : List ι) (x : κ → α)
    (n₀ : ι) (hn₀ : n₀ ∈ l) (hw : ∀ r, st r n₀ i = w) (h : ∀ r, ∀ n ∈ l, st r n i = r i ∨ st r n i = w) :
    l.foldl st x i = w := by
  obtain ⟨l₁, l₂, rfl⟩ := List.append_of_mem hn₀
  rw [List.foldl_append, List.foldl_cons]
  exact foldl_apply_of_stays st i w l₂ _
    (fun r n hn => h r n (List.mem_append_right _ (List.mem_cons_of_mem _ hn))) (hw _)

end Fold

/-! ## The scatter -/

section Scatter
variable {s si u : Shape} {w : Nat} {α : Type} (d : ScatterDims s si u)

/-- An update index whose start plus window coordinate is, on every axis, the coordinate of the operand index k
    lands at k. -/
theorem resultIdx?_eq_some_of_coords (j : u.Idx) (idx : IVec si w) (k : s.Idx)
    (h : ∀ a, d.start j idx a + (d.window j a : Int) = ((k a).val : Int)) : d.resultIdx? j idx = some k := by
  unfold ScatterDims.resultIdx?
  rw [dif_pos fun a => by have := h a; have := (k a).isLt; omega]
  refine congrArg some (funext fun a => Fin.ext ?_)
  show (d.start j idx a + (d.window j a : Int)).toNat = (k a).val
  have := h a
  omega

/-- Where every scatter index reads zero, every start is zero. -/
theorem start_eq_zero_of_zero (j : u.Idx) (idx : IVec si w) (hz : ∀ k, (idx k).toInt = 0) (a : Fin s.rank) :
    d.start j idx a = 0 := by
  unfold ScatterDims.start
  split
  · exact hz _
  · rfl

/-- On an operand axis that is not inserted, the window coordinate is the update index's coordinate on the window
    axis in that axis's position. -/
theorem window_of_mem (j : u.Idx) (a : Fin s.rank) (ha : a ∈ d.sKept) :
    d.window j a
      = (j (d.updateWindowDims[d.sKept.idxOf a]'(by rw [d.window_length]; exact List.idxOf_lt_length_iff.2 ha))).val := by
  unfold ScatterDims.window
  rw [dif_pos ha]

/-- One step of the scatter's fold. -/
abbrev step (f : α → α → α) (idx : IVec si w) (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl (f : α → α → α) (x : s.Idx → α) (idx : IVec si w) (upd : u.Idx → α) :
    Host.scatter d f x idx upd = (List.finRange u.numel).foldl (step d f idx upd) x := rfl

/-- A step whose update does not land at i leaves i alone. -/
theorem step_apply_of_ne (f : α → α → α) (idx : IVec si w) (upd : u.Idx → α) (r : s.Idx → α) (n : Fin u.numel)
    (i : s.Idx) (h : d.resultIdx? (u.rowMajor.symm n) idx ≠ some i) : step d f idx upd r n i = r i := by
  unfold step
  generalize d.resultIdx? (u.rowMajor.symm n) idx = o at h
  cases o with
  | none => rfl
  | some k =>
    show (if i = k then f (r k) (upd (u.rowMajor.symm n)) else r i) = r i
    exact if_neg fun e => h (by rw [e])

/-- A replacing step whose update lands at i puts the update there. -/
theorem step_apply_of_eq (idx : IVec si w) (upd : u.Idx → α) (r : s.Idx → α) (n : Fin u.numel)
    (i : s.Idx) (h : d.resultIdx? (u.rowMajor.symm n) idx = some i) :
    step d (fun _ b => b) idx upd r n i = upd (u.rowMajor.symm n) := by
  unfold step
  rw [h]
  exact if_pos rfl

/-- THE SCATTER OFF THE UPDATES: an operand index no update lands at keeps the operand's element. -/
theorem scatter_apply_of_missed (f : α → α → α) (x : s.Idx → α) (idx : IVec si w) (upd : u.Idx → α) (i : s.Idx)
    (h : ∀ j, d.resultIdx? j idx ≠ some i) : Host.scatter d f x idx upd i = x i := by
  rw [scatter_eq_foldl]
  exact foldl_apply_of_untouched _ i _ x fun r n _ => step_apply_of_ne d f idx upd r n i (h _)

/-- THE REPLACING SCATTER ON AN UPDATE: if the update index j₀ lands at i, and every update index that lands at i
    carries the same element as j₀, the result at i is that element. -/
theorem scatter_set_apply_of_landed (x : s.Idx → α) (idx : IVec si w) (upd : u.Idx → α) (i : s.Idx) (j₀ : u.Idx)
    (h₀ : d.resultIdx? j₀ idx = some i) (hsame : ∀ j, d.resultIdx? j idx = some i → upd j = upd j₀) :
    Host.scatter d (fun _ b => b) x idx upd i = upd j₀ := by
  rw [scatter_eq_foldl]
  refine foldl_apply_of_written _ i (upd j₀) _ x (u.rowMajor j₀) (List.mem_finRange _) (fun r => ?_) (fun r n _ => ?_)
  · rw [step_apply_of_eq d idx upd r _ i (by rw [Equiv.symm_apply_apply]; exact h₀), Equiv.symm_apply_apply]
  · by_cases hn : d.resultIdx? (u.rowMajor.symm n) idx = some i
    · exact Or.inr (by rw [step_apply_of_eq d idx upd r n i hn]; exact hsame _ hn)
    · exact Or.inl (step_apply_of_ne d _ idx upd r n i hn)

/-- The same for updates that land one to one: where e says where each update index lands and e is injective, the
    result at e j is the update at j, and an operand index outside e's range keeps the operand's element. -/
theorem scatter_set_apply_emb (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j :=
  scatter_set_apply_of_landed d x idx upd (e j) j (he j) fun j' hj' =>
    congrArg upd (hinj (Option.some.inj ((he j').symm.trans hj')))

theorem scatter_apply_off_emb (f : α → α → α) (x : s.Idx → α) (idx : IVec si w) (upd : u.Idx → α) (e : u.Idx → s.Idx)
    (he : ∀ j, d.resultIdx? j idx = some (e j)) (i : s.Idx) (hi : ∀ j, e j ≠ i) :
    Host.scatter d f x idx upd i = x i :=
  scatter_apply_of_missed d f x idx upd i fun j hj => hi j (Option.some.inj ((he j).symm.trans hj))

end Scatter

/-! ## A window scatter at start zero pads

When every start is zero and the update's axes are the operand's axes in order (the window coordinate on operand axis
a is the update index's coordinate on axis a), the update index j lands at the operand index with j's coordinates:
the updates fill the corner of the operand at the origin, one to one. So the replacing scatter is the update there
and the operand elsewhere. Stated for operands of rank two and of rank three. -/

section Pad2
variable {P0 P1 N0 N1 : Nat} {si : Shape} {w : Nat} {α : Type}
  (d : ScatterDims (⟨2, ![P0, P1]⟩ : Shape) si (⟨2, ![N0, N1]⟩ : Shape))

/-- An index of the smaller rectangle as the index of the larger one with the same coordinates. -/
def emb2 (h0 : N0 ≤ P0) (h1 : N1 ≤ P1) (j : (⟨2, ![N0, N1]⟩ : Shape).Idx) : (⟨2, ![P0, P1]⟩ : Shape).Idx :=
  ix2 ⟨(j 0).val, Nat.lt_of_lt_of_le (j 0).isLt h0⟩ ⟨(j 1).val, Nat.lt_of_lt_of_le (j 1).isLt h1⟩

theorem emb2_injective (h0 : N0 ≤ P0) (h1 : N1 ≤ P1) : Function.Injective (emb2 h0 h1) := fun j j' h => by
  rw [eq_ix2 j, eq_ix2 j']
  have e0 : ((emb2 h0 h1 j) 0).val = ((emb2 h0 h1 j') 0).val := by rw [h]
  have e1 : ((emb2 h0 h1 j) 1).val = ((emb2 h0 h1 j') 1).val := by rw [h]
  rw [Fin.ext (show (j 0).val = (j' 0).val from e0), Fin.ext (show (j 1).val = (j' 1).val from e1)]

theorem lands2 (h0 : N0 ≤ P0) (h1 : N1 ≤ P1) (idx : IVec si w) (hst : ∀ j a, d.start j idx a = 0)
    (hw0 : ∀ j, d.window j 0 = (j 0).val) (hw1 : ∀ j, d.window j 1 = (j 1).val) (j : (⟨2, ![N0, N1]⟩ : Shape).Idx) :
    d.resultIdx? j idx = some (emb2 h0 h1 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl

/-- THE PADDING SCATTER OF RANK TWO READ AT AN INDEX: the update inside its rectangle, the operand outside. -/
theorem scatter_set_pad2 (h0 : N0 ≤ P0) (h1 : N1 ≤ P1) (x : (⟨2, ![P0, P1]⟩ : Shape).Idx → α) (idx : IVec si w)
    (upd : (⟨2, ![N0, N1]⟩ : Shape).Idx → α) (hst : ∀ j a, d.start j idx a = 0)
    (hw0 : ∀ j, d.window j 0 = (j 0).val) (hw1 : ∀ j, d.window j 1 = (j 1).val) (i : (⟨2, ![P0, P1]⟩ : Shape).Idx) :
    Host.scatter d (fun _ b => b) x idx upd i
      = if h : (i 0).val < N0 ∧ (i 1).val < N1 then upd (ix2 ⟨(i 0).val, h.1⟩ ⟨(i 1).val, h.2⟩) else x i := by
  by_cases h : (i 0).val < N0 ∧ (i 1).val < N1
  · rw [dif_pos h]
    have hi : i = emb2 h0 h1 (ix2 ⟨(i 0).val, h.1⟩ ⟨(i 1).val, h.2⟩) := (eq_ix2 i).trans rfl
    exact (congrArg (Host.scatter d (fun _ b => b) x idx upd) hi).trans
      (scatter_set_apply_emb d x idx upd (emb2 h0 h1) (lands2 d h0 h1 idx hst hw0 hw1) (emb2_injective h0 h1) _)
  · rw [dif_neg h]
    exact scatter_apply_off_emb d _ x idx upd (emb2 h0 h1) (lands2 d h0 h1 idx hst hw0 hw1) i fun j hj =>
      h (by rw [← hj]; exact ⟨(j 0).isLt, (j 1).isLt⟩)

end Pad2

section Pad3
variable {P0 P1 P2 N0 N1 N2 : Nat} {si : Shape} {w : Nat} {α : Type}
  (d : ScatterDims (⟨3, ![P0, P1, P2]⟩ : Shape) si (⟨3, ![N0, N1, N2]⟩ : Shape))

/-- An index of the smaller box as the index of the larger one with the same coordinates. -/
def emb3 (h0 : N0 ≤ P0) (h1 : N1 ≤ P1) (h2 : N2 ≤ P2) (j : (⟨3, ![N0, N1, N2]⟩ : Shape).Idx) :
    (⟨3, ![P0, P1, P2]⟩ : Shape).Idx :=
  ix3 ⟨(j 0).val, Nat.lt_of_lt_of_le (j 0).isLt h0⟩ ⟨(j 1).val, Nat.lt_of_lt_of_le (j 1).isLt h1⟩
    ⟨(j 2).val, Nat.lt_of_lt_of_le (j 2).isLt h2⟩

theorem emb3_injective (h0 : N0 ≤ P0) (h1 : N1 ≤ P1) (h2 : N2 ≤ P2) : Function.Injective (emb3 h0 h1 h2) :=
  fun j j' h => by
  rw [eq_ix3 j, eq_ix3 j']
  have e0 : ((emb3 h0 h1 h2 j) 0).val = ((emb3 h0 h1 h2 j') 0).val := by rw [h]
  have e1 : ((emb3 h0 h1 h2 j) 1).val = ((emb3 h0 h1 h2 j') 1).val := by rw [h]
  have e2 : ((emb3 h0 h1 h2 j) 2).val = ((emb3 h0 h1 h2 j') 2).val := by rw [h]
  rw [Fin.ext (show (j 0).val = (j' 0).val from e0), Fin.ext (show (j 1).val = (j' 1).val from e1),
    Fin.ext (show (j 2).val = (j' 2).val from e2)]

theorem lands3 (h0 : N0 ≤ P0) (h1 : N1 ≤ P1) (h2 : N2 ≤ P2) (idx : IVec si w) (hst : ∀ j a, d.start j idx a = 0)
    (hw0 : ∀ j, d.window j 0 = (j 0).val) (hw1 : ∀ j, d.window j 1 = (j 1).val)
    (hw2 : ∀ j, d.window j 2 = (j 2).val) (j : (⟨3, ![N0, N1, N2]⟩ : Shape).Idx) :
    d.resultIdx? j idx = some (emb3 h0 h1 h2 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl
  | ⟨2, _⟩ =>
    show (0 : Int) + ((d.window j 2 : ℕ) : Int) = _
    rw [hw2, Int.zero_add]; rfl

/-- THE PADDING SCATTER OF RANK THREE READ AT AN INDEX: the update inside its box, the operand outside. -/
theorem scatter_set_pad3 (h0 : N0 ≤ P0) (h1 : N1 ≤ P1) (h2 : N2 ≤ P2) (x : (⟨3, ![P0, P1, P2]⟩ : Shape).Idx → α)
    (idx : IVec si w) (upd : (⟨3, ![N0, N1, N2]⟩ : Shape).Idx → α) (hst : ∀ j a, d.start j idx a = 0)
    (hw0 : ∀ j, d.window j 0 = (j 0).val) (hw1 : ∀ j, d.window j 1 = (j 1).val)
    (hw2 : ∀ j, d.window j 2 = (j 2).val) (i : (⟨3, ![P0, P1, P2]⟩ : Shape).Idx) :
    Host.scatter d (fun _ b => b) x idx upd i
      = if h : (i 0).val < N0 ∧ (i 1).val < N1 ∧ (i 2).val < N2 then
          upd (ix3 ⟨(i 0).val, h.1⟩ ⟨(i 1).val, h.2.1⟩ ⟨(i 2).val, h.2.2⟩)
        else x i := by
  by_cases h : (i 0).val < N0 ∧ (i 1).val < N1 ∧ (i 2).val < N2
  · rw [dif_pos h]
    have hi : i = emb3 h0 h1 h2 (ix3 ⟨(i 0).val, h.1⟩ ⟨(i 1).val, h.2.1⟩ ⟨(i 2).val, h.2.2⟩) := (eq_ix3 i).trans rfl
    exact (congrArg (Host.scatter d (fun _ b => b) x idx upd) hi).trans
      (scatter_set_apply_emb d x idx upd (emb3 h0 h1 h2) (lands3 d h0 h1 h2 idx hst hw0 hw1 hw2)
        (emb3_injective h0 h1 h2) _)
  · rw [dif_neg h]
    exact scatter_apply_off_emb d _ x idx upd (emb3 h0 h1 h2) (lands3 d h0 h1 h2 idx hst hw0 hw1 hw2) i fun j hj =>
      h (by rw [← hj]; exact ⟨(j 0).isLt, (j 1).isLt, (j 2).isLt⟩)

end Pad3

end Idealize.ShloMosaic.ScatterSet
-- ==== Proof.KI.HostVals.lean ====
/- What the host stretches between the regions leave in the buffers the regions read, entry by entry: the node
   array padded by 960 zero rows, the weights transposed, the bias as a row (before the linear region); the linear
   region's output with rows 40000 … 40959 overwritten by zeros and the two rows of the edge array laid out as a
   column and as 500 blocks of 1280 (before the gather region); the first 40000 rows of the scatter region's output
   (at the return). -/
import proofs.«412787_j352187319219_2_alg».proof.Proof.KI.Names
import proofs.«412787_j352187319219_2_alg».proof.Proof.LibScatterSet
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal.Laws
import Idealize.ShloMosaic.PureOps.IdealRules

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.StableHlo
open Cert.KernelIdeal Cert.KernelIdeal.Gen

variable (m : (ℓ : Loc nD τ sig) → Buf (Elt Ideal) ℓ) (c : Dev nD)

/-- The launch contents of the edge array reach the gather region's entry unchanged: no stretch before it writes
    an argument and the linear region changes only its own output. -/
theorem U4_arg1 : U4 m c main_arg1 = m ((c : Thread nD τ).loc main_arg1) :=
  (Function.update_of_ne (StableHlo.devRef_ne_of_ne (by decide) : (Proc.devRef .tc main_arg1 : DevRef τ sig) ≠ Proc.devRef .tc main_v4) _ _).trans
    ((V3_of m c main_arg1 (by decide)).trans ((V2_of m c main_arg1 (by decide)).trans ((V1_of m c main_arg1 (by decide)).trans rfl)))

/-! ## Before the linear region -/

/-- The integer constant 0 converted to a float is 0. -/
theorem sitofp_zero (i : S_.Idx) :
    (sitofp (F := Ideal) .f32 (constantI S_ 32 0#32) : S_.Idx → EReal) i = 0 := by
  show (((0#32 : BitVec 32).toInt : ℝ) : EReal) = 0
  rw [show (0#32 : BitVec 32).toInt = 0 from by decide, Int.cast_zero, EReal.coe_zero]

/-- The padded node array: the launched rows, then 960 rows of zeros. -/
theorem U3_v0 (n : Fin 40960) (k : Fin 128) :
    aV0 m c (ix2 n k) = if h : n.val < 40000 then aX m c (ix2 ⟨n.val, h⟩ k) else 0 := by
  have e : aV0 m c
      = pad S40960x128 ![0, 0] ![960, 0] ![0, 0] (aX m c)
          (sitofp (F := Ideal) .f32 (constantI S_ 32 0#32) : S_.Idx → EReal) pads_S40000x128_S40960x128_09600_000 h_S_ := by
    show StableHlo.after hostOps0_2 (V2 m c) (Proc.devRef .tc main_v0) = _
    after_results
    rfl
  rw [e]
  by_cases h : n.val < 40000
  · rw [dif_pos h]
    exact pad_apply_of_inside _ _ _ _ _ pads_S40000x128_S40960x128_09600_000 h_S_ (ix2 n k) (ix2 ⟨n.val, h⟩ k) (fun a => match a with
      | ⟨0, _⟩ => by show n.val = 0 + n.val * (0 + 1); omega
      | ⟨1, _⟩ => by show k.val = 0 + k.val * (0 + 1); omega)
  · rw [dif_neg h]
    refine (pad_apply_of_not_inside _ _ _ _ _ pads_S40000x128_S40960x128_09600_000 h_S_ (ix2 n k) (0 : Fin 2) (fun hin => h ?_)).trans
      (sitofp_zero _)
    have h3 : (n.val - 0) / (0 + 1) < 40000 := hin.2.2
    rw [Nat.sub_zero, Nat.zero_add, Nat.div_one] at h3
    exact h3

/-- The weights as the linear region reads them: transposed; the change of format is the identity on the ideal values. -/
theorem U3_v2 (k d : Fin 128) :
    aV2 m c (ix2 k d) = aW m c (ix2 d k) := by
  have e : aV2 m c
      = (truncf (F := Ideal) .bf16 (transpose S128x128 [1, 0] (aW m c) transposes_S128x128_S128x128_1_0 : FVec Ideal S128x128 .f32) bitsLt_bf16_f32 : S128x128.Idx → EReal) := by
    show StableHlo.after hostOps0_2 (V2 m c) (Proc.devRef .tc main_v2) = _
    after_results
  rw [e]
  show transpose S128x128 [1, 0] (aW m c) transposes_S128x128_S128x128_1_0 (ix2 k d) = _
  exact transpose_apply [1, 0] _ transposes_S128x128_S128x128_1_0 (ix2 k d) (ix2 d k) (fun b => match b with
    | ⟨0, _⟩ => rfl
    | ⟨1, _⟩ => rfl)

/-- The bias as a row. -/
theorem U3_v3 (d : Fin 128) :
    aV3 m c (ix2 (0 : Fin 1) d) = aB m c (ix1 d) := by
  have e : aV3 m c = shapeCast S1x128 (aB m c) shapeCasts_S128_S1x128 := by
    show StableHlo.after hostOps0_2 (V2 m c) (Proc.devRef .tc main_v3) = _
    after_results
    rfl
  rw [e]
  exact shapeCast_apply _ shapeCasts_S128_S1x128 (ix2 (0 : Fin 1) d) (ix1 d)
    (by rewrite [Shape.rowMajor_val_two, Shape.rowMajor_val_one]; show d.val = 0 * 128 + d.val; omega)

/-! ## Between the linear and the gather region

The replacing scatter has one start index, 40000 on the row axis, and a window of 960 × 128: the update index j
lands at row 40000 + j 0, column j 1, one to one. -/

/-- Where the update index j of the zero block lands in the node array. -/
def embZ (j : S960x128.Idx) : S40960x128.Idx :=
  ix2 ⟨40000 + (j 0).val, by have h0 : (j 0).val < 960 := (j 0).isLt; omega⟩ ⟨(j 1).val, (j 1).isLt⟩

theorem embZ_injective : Function.Injective embZ := fun j j' h => by
  rw [eq_ix2 j, eq_ix2 j']
  have e0 : ((embZ j) 0).val = ((embZ j') 0).val := by rw [h]
  have e1 : ((embZ j) 1).val = ((embZ j') 1).val := by rw [h]
  have e0' : 40000 + (j 0).val = 40000 + (j' 0).val := e0
  rw [Fin.ext (show (j 0).val = (j' 0).val by omega), Fin.ext (show (j 1).val = (j' 1).val from e1)]

theorem landsZ (idx : IVec S1 32) (hidx : ∀ q, (idx q).toInt = 40000) (j : S960x128.Idx) :
    scatter_S40960x128_S1_S960x128_01_n_0_0.resultIdx? j idx = some (embZ j) := by
  refine ScatterSet.resultIdx?_eq_some_of_coords _ j idx _ fun a => ?_
  match a with
  | ⟨0, _⟩ =>
    have hs : scatter_S40960x128_S1_S960x128_01_n_0_0.start j idx 0 = 40000 := by
      unfold ScatterDims.start
      rw [dif_pos (by decide)]
      exact hidx _
    have hw : scatter_S40960x128_S1_S960x128_01_n_0_0.window j 0 = (j 0).val := by
      rw [ScatterSet.window_of_mem _ j 0 (by decide)]; rfl
    show scatter_S40960x128_S1_S960x128_01_n_0_0.start j idx 0 + ((scatter_S40960x128_S1_S960x128_01_n_0_0.window j 0 : ℕ) : Int) = ((40000 + (j 0).val : ℕ) : Int)
    rw [hs, hw]; push_cast; rfl
  | ⟨1, _⟩ =>
    have hs : scatter_S40960x128_S1_S960x128_01_n_0_0.start j idx 1 = 0 := by
      unfold ScatterDims.start
      rw [dif_neg (by decide)]
    have hw : scatter_S40960x128_S1_S960x128_01_n_0_0.window j 1 = (j 1).val := by
      rw [ScatterSet.window_of_mem _ j 1 (by decide)]; rfl
    show scatter_S40960x128_S1_S960x128_01_n_0_0.start j idx 1 + ((scatter_S40960x128_S1_S960x128_01_n_0_0.window j 1 : ℕ) : Int) = (((j 1).val : ℕ) : Int)
    rw [hs, hw, Int.zero_add]

/-- The replacing scatter read at an index: the operand above row 40000, the update from there on. -/
theorem scatter_rows {α : Type} (x : S40960x128.Idx → α) (idx : IVec S1 32) (upd : S960x128.Idx → α)
    (hidx : ∀ q, (idx q).toInt = 40000) (p : Fin 40960) (d : Fin 128) :
    Host.scatter scatter_S40960x128_S1_S960x128_01_n_0_0 (fun _ b => b) x idx upd (ix2 p d)
      = if h : p.val < 40000 then x (ix2 p d) else upd (ix2 ⟨p.val - 40000, by have := p.isLt; omega⟩ d) := by
  by_cases h : p.val < 40000
  · rw [dif_pos h]
    refine ScatterSet.scatter_apply_off_emb _ _ x idx upd embZ (landsZ idx hidx) _ fun j hj => ?_
    have e0 : ((embZ j) 0).val = p.val := by rw [hj]
    have e0' : 40000 + (j 0).val = p.val := e0
    omega
  · rw [dif_neg h]
    have hi : (ix2 p d : S40960x128.Idx) = embZ (ix2 ⟨p.val - 40000, by have := p.isLt; omega⟩ d) := by
      funext a
      match a with
      | ⟨0, _⟩ => exact Fin.ext (by show p.val = 40000 + (p.val - 40000); omega)
      | ⟨1, _⟩ => rfl
    rw [hi]
    exact ScatterSet.scatter_set_apply_emb _ x idx upd embZ (landsZ idx hidx) embZ_injective _

/-- The linear region's output with the rows of the padding overwritten by zeros. -/
theorem U5_v7 (p : Fin 40960) (d : Fin 128) :
    aV7 m c (ix2 p d) = if p.val < 40000 then aO4 m c (ix2 p d) else 0 := by
  have h : aV7 m c
      = Host.scatter scatter_S40960x128_S1_S960x128_01_n_0_0 (fun _ b => b) (aO4 m c)
          (broadcastInDim S1 ![] bcast_S_S1 (constantI S_ 32 40000#32))
          (broadcastInDim S960x128 ![] bcast_S_S960x128 (constant (F := Ideal) S_ .bf16 0x0000#16) : S960x128.Idx → EReal) := by
    show StableHlo.after hostOps1 (U4 m c) (Proc.devRef .tc main_v7) = _
    after_results
    rw [show U4 m c main_v4 = o4 m c from Function.update_self _ _ _]
  rw [h, scatter_rows _ _ _ (fun q => by show (40000#32 : BitVec 32).toInt = 40000; decide) p d]
  by_cases hp : p.val < 40000
  · rw [dif_pos hp, if_pos hp]
  · rw [dif_neg hp, if_neg hp]
    show Ideal.ofBits .bf16 0#16 = 0
    exact IdealRules.sign_bit.ideal_zero .bf16

/-- The source row of the edge array as a column. -/
theorem U5_v10 (e : Fin 640000) :
    aV10 m c (ix2 e (0 : Fin 1)) = aEi m c (ix2 (0 : Fin 2) e) := by
  have h : aV10 m c
      = shapeCast S640000x1 (shapeCast S640000 (extractStridedSlice S1x640000 ![0, 0]
          (aEi m c) slices_S2x640000_S1x640000_0_0)
          shapeCasts_S1x640000_S640000) shapeCasts_S640000_S640000x1 := by
    show StableHlo.after hostOps1 (U4 m c) (Proc.devRef .tc main_v10) = _
    after_results
    rw [U4_arg1 m c]
    rfl
  rw [h]
  refine (shapeCast_apply _ shapeCasts_S640000_S640000x1 (ix2 e (0 : Fin 1)) (ix1 e)
    (by rewrite [Shape.rowMajor_val_two, Shape.rowMajor_val_one]; show e.val = e.val * 1 + 0; omega)).trans ?_
  refine (shapeCast_apply _ shapeCasts_S1x640000_S640000 (ix1 e) (ix2 (0 : Fin 1) e)
    (by rewrite [Shape.rowMajor_val_two, Shape.rowMajor_val_one]; show 0 * 640000 + e.val = e.val; omega)).trans ?_
  exact extractStridedSlice_apply ![0, 0] _ slices_S2x640000_S1x640000_0_0 (ix2 (0 : Fin 1) e) (ix2 (0 : Fin 2) e) (fun a => match a with
    | ⟨0, _⟩ => rfl
    | ⟨1, _⟩ => by show e.val = 0 + e.val; omega)

/-! ## Before the scatter region -/

/-- The destination row of the edge array as 500 blocks of 1280. -/
theorem U6_v13 (i : Fin 500) (r : Fin 1280) :
    aV13 m c (ix3 i (0 : Fin 1) r)
      = aEi m c (ix2 (1 : Fin 2) ⟨i.val * 1280 + r.val, by have := i.isLt; have := r.isLt; omega⟩) := by
  have h : aV13 m c
      = shapeCast S500x1x1280 (shapeCast S640000 (extractStridedSlice S1x640000 ![1, 0]
          (aEi m c) slices_S2x640000_S1x640000_1_0)
          shapeCasts_S1x640000_S640000) shapeCasts_S640000_S500x1x1280 := by
    rw [show aV13 m c = U5 m c main_v13 from
      Function.update_of_ne (StableHlo.devRef_ne_of_ne (by decide) : (Proc.devRef .tc main_v13 : DevRef τ sig) ≠ Proc.devRef .tc main_v14) _ _]
    show StableHlo.after hostOps1 (U4 m c) (Proc.devRef .tc main_v13) = _
    after_results
    rw [U4_arg1 m c]
    rfl
  have hk : i.val * 1280 + r.val < 640000 := by have := i.isLt; have := r.isLt; omega
  rw [h]
  refine (shapeCast_apply _ shapeCasts_S640000_S500x1x1280 (ix3 i (0 : Fin 1) r) (ix1 ⟨i.val * 1280 + r.val, hk⟩)
    (by rewrite [Shape.rowMajor_val_three, Shape.rowMajor_val_one]; show i.val * 1280 + r.val = (i.val * 1 + 0) * 1280 + r.val; omega)).trans ?_
  refine (shapeCast_apply _ shapeCasts_S1x640000_S640000 (ix1 ⟨i.val * 1280 + r.val, hk⟩) (ix2 (0 : Fin 1) ⟨i.val * 1280 + r.val, hk⟩)
    (by rewrite [Shape.rowMajor_val_two, Shape.rowMajor_val_one]; show 0 * 640000 + (i.val * 1280 + r.val) = i.val * 1280 + r.val; omega)).trans ?_
  exact extractStridedSlice_apply ![1, 0] _ slices_S2x640000_S1x640000_1_0 (ix2 (0 : Fin 1) ⟨i.val * 1280 + r.val, hk⟩) (ix2 (1 : Fin 2) ⟨i.val * 1280 + r.val, hk⟩) (fun a => match a with
    | ⟨0, _⟩ => rfl
    | ⟨1, _⟩ => by show i.val * 1280 + r.val = 0 + (i.val * 1280 + r.val); omega)

/-- The gather region's output is what that region left. -/
theorem U6_v14 : aV14 m c = aO6 m c :=
  Function.update_self _ _ _

/-! ## At the return -/

/-- The result: the first 40000 rows of the scatter region's output. -/
theorem U8_v16 (n : Fin 40000) (d : Fin 128) :
    aV16 m c (ix2 n d) = aO7 m c (ix2 ⟨n.val, by have := n.isLt; omega⟩ d) := by
  have h : aV16 m c = extractStridedSlice S40000x128 ![0, 0] (aO7 m c) slices_S40960x128_S40000x128_0_0 := by
    show StableHlo.after hostOps3 (U7 m c) (Proc.devRef .tc main_v16) = _
    after_results
    rw [show U7 m c main_v15 = o7 m c from Function.update_self _ _ _]
  rw [h]
  exact extractStridedSlice_apply ![0, 0] _ slices_S40960x128_S40000x128_0_0 (ix2 n d) (ix2 ⟨n.val, by have := n.isLt; omega⟩ d) (fun a => match a with
    | ⟨0, _⟩ => by show n.val = 0 + n.val; omega
    | ⟨1, _⟩ => by show d.val = 0 + d.val; omega)

end Cert.KernelIdeal.Hand

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.RefValue.lean ====
/-
  THE REFERENCE'S RESULT READ AT AN INDEX, at the ideal instance.

  The reference gathers the node row of every edge's source, multiplies it by the transposed weights and adds the
  bias (the message of the edge), sums the messages into the rows of the edges' destinations, counts the edges into
  each destination, and divides each summed row by the larger of that count and one.

  Read at (n, d), under the hypothesis that every source index lies in the node range: the wrap of a negative source
  index is not taken (the signed comparison with zero fails) and the gather's clamp into the node range is the
  identity, so the message of edge e at channel d is  Σ_k x[src e, k] · w[d, k] + b[d];  the first scatter at (n, d) is
  zero plus the sum of the messages at channel d over the edges e with dst e = n (an update whose index is outside the
  node range lands nowhere, and no n equals it); the second scatter at n is zero plus one for each such edge; the result
  is the quotient of the first by the larger of the second and one.

  The generated stage lemmas read 31 of the 34 operations; the gather and the two scatters are read here with the
  general lemmas on a gather of whole rows and on an accumulating scatter with one index per update row.
-/
import proofs.«412787_j352187319219_2_alg».proof.Proof.Gen.ReferenceIdeal.Read
import proofs.«412787_j352187319219_2_alg».proof.Proof.LibGatherRows
import proofs.«412787_j352187319219_2_alg».proof.Proof.LibScatterSum
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The two index rows of the edge array -/

/-- The source row read through its slice and reshape: edge e of row 0. -/
theorem src_row (ei : (⟨S2x640000, .i32⟩ : BufTy).Contents (Elt Ideal)) (e : Fin 640000) :
    val_main_v1 (F := Ideal) ei (ix1 e) = ei (ix2 (0 : Fin 2) e) := by
  rw [val_main_v1_apply, val_main_v0_apply]
  refine congrArg ei (funext fun a => Fin.ext ?_)
  match a with
  | ⟨0, _⟩ => rfl
  | ⟨1, _⟩ => exact Nat.mod_eq_of_lt e.isLt

/-- The destination row read through its slice and reshape: edge e of row 1. -/
theorem dst_row (ei : (⟨S2x640000, .i32⟩ : BufTy).Contents (Elt Ideal)) (e : Fin 640000) :
    val_main_v3 (F := Ideal) ei (ix1 e) = ei (ix2 (1 : Fin 2) e) := by
  rw [val_main_v3_apply, val_main_v2_apply]
  refine congrArg ei (funext fun a => Fin.ext ?_)
  match a with
  | ⟨0, _⟩ => rfl
  | ⟨1, _⟩ => exact Nat.mod_eq_of_lt e.isLt

/-- A source index that is not negative is not wrapped: the signed comparison with zero fails, so the selection keeps
    the index itself; as a column of start indices it is read at [e, 0]. -/
theorem src_col (ei : (⟨S2x640000, .i32⟩ : BufTy).Contents (Elt Ideal)) (e : Fin 640000)
    (h0 : 0 ≤ (ei (ix2 (0 : Fin 2) e)).toInt) :
    val_main_v9 (F := Ideal) ei (ix2 e (0 : Fin 1)) = ei (ix2 (0 : Fin 2) e) := by
  rw [val_main_v9_apply]
  have hi : idx_main_v9 (ix2 e (0 : Fin 1)) = ix1 e := funext fun a => Fin.ext (by match a with | ⟨0, _⟩ => rfl)
  rw [hi, val_main_v8_apply, val_main_v5_apply, val_main_v4_apply, val_main_c_apply, src_row]
  have hs : BitVec.slt (ei (ix2 (0 : Fin 2) e)) 0#32 = false := by
    rw [BitVec.slt, decide_eq_false_iff_not, BitVec.toInt_zero]
    omega
  have hc : IntOp.cmpi .slt (ei (ix2 (0 : Fin 2) e)) 0#32 = 0#1 := by
    show BitVec.ofBool (BitVec.slt _ _) = _
    rw [hs]
    rfl
  rw [hc, select_zero]

/-- The destination indices as the first scatter's column of start indices. -/
theorem dst_col (ei : (⟨S2x640000, .i32⟩ : BufTy).Contents (Elt Ideal)) (e : Fin 640000) :
    val_main_v17 (F := Ideal) ei (ix2 e (0 : Fin 1)) = ei (ix2 (1 : Fin 2) e) := by
  rw [val_main_v17_apply]
  have hi : idx_main_v17 (ix2 e (0 : Fin 1)) = ix1 e := funext fun a => Fin.ext (by match a with | ⟨0, _⟩ => rfl)
  rw [hi, dst_row]

/-- The destination indices as the second scatter's column of start indices. -/
theorem dst_col' (ei : (⟨S2x640000, .i32⟩ : BufTy).Contents (Elt Ideal)) (e : Fin 640000) :
    val_main_v21 (F := Ideal) ei (ix2 e (0 : Fin 1)) = ei (ix2 (1 : Fin 2) e) := by
  rw [val_main_v21_apply]
  have hi : idx_main_v21 (ix2 e (0 : Fin 1)) = ix1 e := funext fun a => Fin.ext (by match a with | ⟨0, _⟩ => rfl)
  rw [hi, dst_row]

/-! ## The message rows -/

/-- The gathered node row of edge e: with the source index in range the clamp into the node range is the identity. -/
theorem gathered (x : (⟨S40000x128, .f32⟩ : BufTy).Contents (Elt Ideal))
    (ei : (⟨S2x640000, .i32⟩ : BufTy).Contents (Elt Ideal)) (e : Fin 640000) (k : Fin 128)
    (h0 : 0 ≤ (ei (ix2 (0 : Fin 2) e)).toInt) (h1 : (ei (ix2 (0 : Fin 2) e)).toInt < 40000) :
    val_main_v10 (F := Ideal) x ei (ix2 e k)
      = x (ix2 (⟨(ei (ix2 (0 : Fin 2) e)).toInt.toNat, by omega⟩ : Fin 40000) k) := by
  unfold val_main_v10
  refine (GatherRows.gather_rows_apply (by decide) gather_S40000x128_S640000x1_S640000x128_1_0_n_n_0_1_1128
    rfl rfl rfl rfl rfl rfl rfl x (val_main_v9 (F := Ideal) ei) e k).trans ?_
  refine congrArg x (congrArg (fun r : Fin 40000 => ix2 r k) (Fin.ext ?_))
  show min (val_main_v9 (F := Ideal) ei (ix2 e (0 : Fin 1))).toInt.toNat (40000 - 1)
    = (ei (ix2 (0 : Fin 2) e)).toInt.toNat
  rw [src_col ei e h0]
  omega

/-- The message of edge e at channel d: the gathered row against row d of the weights, plus the bias. -/
theorem msg_apply (x : (⟨S40000x128, .f32⟩ : BufTy).Contents (Elt Ideal))
    (ei : (⟨S2x640000, .i32⟩ : BufTy).Contents (Elt Ideal)) (w : (⟨S128x128, .f32⟩ : BufTy).Contents (Elt Ideal))
    (b : (⟨S128, .f32⟩ : BufTy).Contents (Elt Ideal)) (e : Fin 640000) (d : Fin 128)
    (h0 : 0 ≤ (ei (ix2 (0 : Fin 2) e)).toInt) (h1 : (ei (ix2 (0 : Fin 2) e)).toInt < 40000) :
    val_main_v15 (F := Ideal) x ei w b (ix2 e d)
      = (∑ k : Fin 128, x (ix2 (⟨(ei (ix2 (0 : Fin 2) e)).toInt.toNat, by omega⟩ : Fin 40000) k) * w (ix2 d k))
        + b (ix1 d) := by
  rw [val_main_v15_apply, Ideal.addf_def, val_main_v12_apply, val_main_v14_apply, val_main_v13_apply]
  congr 1
  · refine Finset.sum_congr rfl fun k _ => ?_
    have hl : lidx_main_v12 (ix2 e d) k = ix2 e k :=
      funext fun a => Fin.ext (by match a with | ⟨0, _⟩ => rfl | ⟨1, _⟩ => rfl)
    have hr : idx_main_v11 (ridx_main_v12 (ix2 e d) k) = ix2 d k :=
      funext fun a => Fin.ext (by match a with | ⟨0, _⟩ => rfl | ⟨1, _⟩ => rfl)
    rw [hl, gathered x ei e k h0 h1, val_main_v11_apply, hr]
  · exact congrArg b (funext fun a => Fin.ext (by match a with | ⟨0, _⟩ => rfl))

/-! ## The host's accumulating scatter at the ideal instance, in the two one-index-per-row patterns -/

/-- The host's accumulating scatter at the ideal instance is the ideal instance's sum form, at every index. -/
theorem scatterAdd_ideal {s si u : Shape} {w : Nat} (d : ScatterDims s si u) (x : s.Idx → EReal) (idx : IVec si w)
    (upd : u.Idx → EReal) (i : s.Idx) :
    Host.scatterAdd (F := Ideal) (φ := .f32) d x idx upd i = Ideal.hostScatterAdd d x idx upd i := rfl

/-- Rows pattern: the scatter at (p, ch) is the operand there plus the updates at channel ch of the rows whose start
    index is p. -/
theorem scatterAdd_rows_host {P C N w : Nat}
    (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Host.scatterAdd (F := Ideal) (φ := .f32) d x idx upd (ix2 p ch)
      = x (ix2 p ch)
        + ∑ n ∈ Finset.univ.filter (fun n : Fin N => (idx (ix2 n (0 : Fin 1))).toInt = (p.val : Int)),
            upd (ix2 n ch) :=
  (scatterAdd_ideal d x idx upd (ix2 p ch)).trans (ScatterSum.scatterAdd_rows_apply d huw hiw hsd hiv x idx upd p ch)

/-- Flat pattern: the scatter at p is the operand there plus the updates whose start index is p. -/
theorem scatterAdd_flat_host {P N w : Nat}
    (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Host.scatterAdd (F := Ideal) (φ := .f32) d x idx upd (ix1 p)
      = x (ix1 p)
        + ∑ n ∈ Finset.univ.filter (fun n : Fin N => (idx (ix2 n (0 : Fin 1))).toInt = (p.val : Int)),
            upd (ix1 n) :=
  (scatterAdd_ideal d x idx upd (ix1 p)).trans (ScatterSum.scatterAdd_flat_apply d huw hiw hsd hiv x idx upd p)

/-! ## The two accumulating scatters of the reference -/

/-- The zero array the messages are summed into. -/
theorem zeros_apply (n : Fin 40000) (d : Fin 128) : val_main_v16 (F := Ideal) (ix2 n d) = 0 := by
  rw [val_main_v16_apply, val_main_cst_apply, Ideal.ofBits_def, Ideal.ofBits_zero_f32]

/-- The zero array the degrees are counted into. -/
theorem zeros_apply' (n : Fin 40000) : val_main_v20 (F := Ideal) (ix1 n) = 0 := by
  rw [val_main_v20_apply, val_main_cst_2_apply, Ideal.ofBits_def, Ideal.ofBits_zero_f32]

/-- The array of ones the degrees are counted from. -/
theorem ones_apply (e : Fin 640000) : val_main_v19 (F := Ideal) (ix1 e) = 1 := by
  rw [val_main_v19_apply, val_main_cst_1_apply, Ideal.ofBits_def, Ideal.ofBits_one_f32]

/-- The first scatter at (n, d), read off the rows pattern: over the edges whose start index, as the scatter reads
    it, is n. -/
theorem sums_raw (x : (⟨S40000x128, .f32⟩ : BufTy).Contents (Elt Ideal))
    (ei : (⟨S2x640000, .i32⟩ : BufTy).Contents (Elt Ideal)) (w : (⟨S128x128, .f32⟩ : BufTy).Contents (Elt Ideal))
    (b : (⟨S128, .f32⟩ : BufTy).Contents (Elt Ideal)) (n : Fin 40000) (d : Fin 128) :
    val_main_v18 (F := Ideal) x ei w b (ix2 n d)
      = val_main_v16 (F := Ideal) (ix2 n d)
        + ∑ e ∈ Finset.univ.filter (fun e : Fin 640000 =>
              (val_main_v17 (F := Ideal) ei (ix2 e (0 : Fin 1))).toInt = (n.val : Int)),
            val_main_v15 (F := Ideal) x ei w b (ix2 e d) := by
  unfold val_main_v18
  exact scatterAdd_rows_host scatter_S40000x128_S640000x1_S640000x128_1_0_0_1 rfl rfl rfl rfl
    (val_main_v16 (F := Ideal)) (val_main_v17 (F := Ideal) ei) (val_main_v15 (F := Ideal) x ei w b) n d

/-- The summed messages of node n at channel d: zero plus the messages of the edges whose destination is n. -/
theorem sums_apply (x : (⟨S40000x128, .f32⟩ : BufTy).Contents (Elt Ideal))
    (ei : (⟨S2x640000, .i32⟩ : BufTy).Contents (Elt Ideal)) (w : (⟨S128x128, .f32⟩ : BufTy).Contents (Elt Ideal))
    (b : (⟨S128, .f32⟩ : BufTy).Contents (Elt Ideal))
    (hsrc : ∀ e : Fin 640000, 0 ≤ (ei (ix2 (0 : Fin 2) e)).toInt ∧ (ei (ix2 (0 : Fin 2) e)).toInt < 40000)
    (n : Fin 40000) (d : Fin 128) :
    val_main_v18 (F := Ideal) x ei w b (ix2 n d)
      = 0 + ∑ e ∈ Finset.univ.filter (fun e : Fin 640000 => (ei (ix2 (1 : Fin 2) e)).toInt = (n.val : Int)),
          ((∑ k : Fin 128, x (ix2 (⟨(ei (ix2 (0 : Fin 2) e)).toInt.toNat, by have := hsrc e; omega⟩ : Fin 40000) k)
              * w (ix2 d k)) + b (ix1 d)) := by
  refine (sums_raw x ei w b n d).trans ?_
  refine congrArg₂ _ (zeros_apply n d) ?_
  exact Finset.sum_congr (Finset.filter_congr fun e _ => by rw [dst_col])
    fun e _ => msg_apply x ei w b e d (hsrc e).1 (hsrc e).2

/-- The second scatter at n, read off the flat pattern. -/
theorem deg_raw (ei : (⟨S2x640000, .i32⟩ : BufTy).Contents (Elt Ideal)) (n : Fin 40000) :
    val_main_v22 (F := Ideal) ei (ix1 n)
      = val_main_v20 (F := Ideal) (ix1 n)
        + ∑ e ∈ Finset.univ.filter (fun e : Fin 640000 =>
              (val_main_v21 (F := Ideal) ei (ix2 e (0 : Fin 1))).toInt = (n.val : Int)),
            val_main_v19 (F := Ideal) (ix1 e) := by
  unfold val_main_v22
  exact scatterAdd_flat_host scatter_S40000_S640000x1_S640000_n_0_0_1 rfl rfl rfl rfl
    (val_main_v20 (F := Ideal)) (val_main_v21 (F := Ideal) ei) (val_main_v19 (F := Ideal)) n

/-- The degree of node n: zero plus a one for every edge whose destination is n. -/
theorem deg_apply (ei : (⟨S2x640000, .i32⟩ : BufTy).Contents (Elt Ideal)) (n : Fin 40000) :
    val_main_v22 (F := Ideal) ei (ix1 n)
      = 0 + ∑ e ∈ Finset.univ.filter (fun e : Fin 640000 => (ei (ix2 (1 : Fin 2) e)).toInt = (n.val : Int)),
          (1 : EReal) := by
  refine (deg_raw ei n).trans ?_
  refine congrArg₂ _ (zeros_apply' n) ?_
  exact Finset.sum_congr (Finset.filter_congr fun e _ => by rw [dst_col']) fun e _ => ones_apply e

/-- The divisor at (n, d) is the larger of the degree of n and one, on every channel. -/
theorem divisor_read (ei : (⟨S2x640000, .i32⟩ : BufTy).Contents (Elt Ideal)) (n : Fin 40000) (d : Fin 128) :
    val_main_v26 (F := Ideal) ei (ix2 n d) = max (val_main_v22 (F := Ideal) ei (ix1 n)) 1 := by
  rw [val_main_v26_apply, val_main_v25_apply]
  have hi : idx_main_v25 (idx_main_v26 (ix2 n d)) = ix1 n :=
    funext fun a => Fin.ext (by match a with | ⟨0, _⟩ => rfl)
  rw [hi, val_main_v24_apply, Ideal.maximumf_def, val_main_v23_apply, val_main_cst_3_apply,
    Ideal.ofBits_def, Ideal.ofBits_one_f32]

/-! ## The reference's result -/

/-- THE REFERENCE AT (n, d): the summed messages of the edges into n, divided by the larger of n's degree and one. -/
theorem ref_apply (x : (⟨S40000x128, .f32⟩ : BufTy).Contents (Elt Ideal))
    (ei : (⟨S2x640000, .i32⟩ : BufTy).Contents (Elt Ideal)) (w : (⟨S128x128, .f32⟩ : BufTy).Contents (Elt Ideal))
    (b : (⟨S128, .f32⟩ : BufTy).Contents (Elt Ideal))
    (hsrc : ∀ e : Fin 640000, 0 ≤ (ei (ix2 (0 : Fin 2) e)).toInt ∧ (ei (ix2 (0 : Fin 2) e)).toInt < 40000)
    (n : Fin 40000) (d : Fin 128) :
    Cert.ReferenceIdeal.Read.val_main_v27 (F := Ideal) x ei w b (ix2 n d)
      = Ideal.div (0 + ∑ e ∈ Finset.univ.filter (fun e : Fin 640000 => (ei (ix2 (1 : Fin 2) e)).toInt = (n.val : Int)),
            ((∑ k : Fin 128, x (ix2 (⟨(ei (ix2 (0 : Fin 2) e)).toInt.toNat, by have := hsrc e; omega⟩ : Fin 40000) k) * w (ix2 d k)) + b (ix1 d)))
          (max (0 + ∑ e ∈ Finset.univ.filter (fun e : Fin 640000 => (ei (ix2 (1 : Fin 2) e)).toInt = (n.val : Int)), (1 : EReal)) 1) :=
  ((val_main_v27_apply (F := Ideal) x ei w b (ix2 n d)).trans
      (Ideal.hostDivf_def (φ := .f32) (val_main_v18 (F := Ideal) x ei w b (ix2 n d)) (val_main_v26 (F := Ideal) ei (ix2 n d)))).trans
    (congrArg₂ Ideal.div (sums_apply x ei w b hsrc n d)
      ((divisor_read ei n d).trans (congrArg (fun s : EReal => max s 1) (deg_apply ei n))))

end Cert.ReferenceIdeal.RefValue

end
-- ==== Proof.Law.lean ====
/-
  THE LAW THAT JOINS THE TWO SIDES, on the extended reals, with no finiteness assumption.

  A one-hot row times a table is the table's row: for a word s whose signed value lies in [0, P), the sum over all rows
  p < Q (P ≤ Q < 2^31) of [s = p] · t p is t at the row s names (every other term is 0 · t p = 0, and 0 · a = 0 holds
  for every extended real a). An indicator-weighted sum over the edges is the sum over the edges the indicator selects:
  Σ_e [n = dst e] · a e = Σ_{e : dst e = n} a e, where "the word dst e equals the word of n" and "dst e, read signed,
  is n" are the same condition for n < 2^31. A sum that starts from zero is the sum.
-/
import Idealize.ShloMosaic.PureOps.Ideal
import Mathlib.Algebra.BigOperators.Group.Finset.Basic
import Mathlib.Data.EReal.Basic

noncomputable section

open scoped BigOperators

namespace Cert.Hand.Law

/-- The word of a natural number below 2^31, read signed, is that number. -/
theorem toInt_ofNat_of_lt (p : Nat) (hp : p < 2 ^ 31) : (BitVec.ofNat 32 p).toInt = (p : Int) := by
  rw [BitVec.toInt_eq_toNat_cond]
  have h1 : (BitVec.ofNat 32 p).toNat = p := by
    rw [BitVec.toNat_ofNat]; exact Nat.mod_eq_of_lt (by omega)
  rw [h1]
  have : 2 * p < 2 ^ 32 := by omega
  rw [if_pos this]

/-- A word whose signed value is the natural number p is the word of p. -/
theorem eq_ofNat_of_toInt (s : BitVec 32) (p : Nat) (hp : p < 2 ^ 31) (h : s.toInt = (p : Int)) :
    s = BitVec.ofNat 32 p := by
  apply BitVec.eq_of_toInt_eq
  rw [h, toInt_ofNat_of_lt p hp]

/-- For p below 2^31: the word s is the word of p exactly when s, read signed, is p. -/
theorem eq_ofNat_iff (s : BitVec 32) (p : Nat) (hp : p < 2 ^ 31) : s = BitVec.ofNat 32 p ↔ s.toInt = (p : Int) :=
  ⟨fun h => by rw [h]; exact toInt_ofNat_of_lt p hp, eq_ofNat_of_toInt s p hp⟩

/-- A ONE-HOT ROW TIMES A TABLE: the table's row. -/
theorem onehot_row {Q : Nat} (hQ : Q < 2 ^ 31) (s : BitVec 32) (t : Fin Q → EReal) (p₀ : Fin Q)
    (hs : s.toInt = (p₀.val : Int)) :
    (∑ p : Fin Q, (if s = BitVec.ofNat 32 p.val then (1 : EReal) else 0) * t p) = t p₀ := by
  rw [Finset.sum_eq_single p₀]
  · rw [if_pos ((eq_ofNat_iff s p₀.val (by omega)).2 hs), one_mul]
  · intro p _ hp
    rw [if_neg, zero_mul]
    intro h
    have := (eq_ofNat_iff s p.val (by omega)).1 h
    exact hp (Fin.ext (by omega))
  · intro h; exact absurd (Finset.mem_univ _) h

/-- AN INDICATOR-WEIGHTED SUM IS THE SUM OVER THE SELECTED TERMS. -/
theorem indicator_sum {E : Nat} (n : Nat) (hn : n < 2 ^ 31) (dst : Fin E → BitVec 32) (a : Fin E → EReal) :
    (∑ e : Fin E, (if BitVec.ofNat 32 n = dst e then (1 : EReal) else 0) * a e)
      = ∑ e ∈ Finset.univ.filter (fun e : Fin E => (dst e).toInt = (n : Int)), a e := by
  rw [Finset.sum_filter]
  refine Finset.sum_congr rfl fun e _ => ?_
  by_cases h : (dst e).toInt = (n : Int)
  · rw [if_pos h, if_pos ((eq_ofNat_iff (dst e) n hn).2 h).symm, one_mul]
  · rw [if_neg h, if_neg (fun h' => h ((eq_ofNat_iff (dst e) n hn).1 h'.symm)), zero_mul]

/-- The count form: the indicator's sum is the number of selected terms, as a sum of ones. -/
theorem indicator_count {E : Nat} (n : Nat) (hn : n < 2 ^ 31) (dst : Fin E → BitVec 32) :
    (∑ e : Fin E, (if BitVec.ofNat 32 n = dst e then (1 : EReal) else 0))
      = ∑ e ∈ Finset.univ.filter (fun e : Fin E => (dst e).toInt = (n : Int)), (1 : EReal) := by
  have := indicator_sum n hn dst (fun _ => (1 : EReal))
  simpa only [mul_one] using this

end Cert.Hand.Law

end
-- ==== Proof.KI.KernelValue.lean ====
/- The idealized kernel's result buffer at the return is the reference's result term of the same arguments, entry by
   entry, when every edge source lies in [0, 40000).

   Entry (n, d) of the kernel's result is the scatter region's quotient: the indicator-weighted sum of the messages over
   the edges, over max(the indicator's sum, 1). The message of edge e is the gather region's one-hot row times the table of
   linear outputs with the padded rows zeroed: the source lies in [0, 40000), so one term survives, the linear output at
   the source row, Σ_k x[src e, k] · W[d, k] + b[d]. The indicator "the word of n is the destination word" selects the
   edges whose destination, read signed, is n. That is the reference's entry: its gather reads the source row (no wrap, no
   clamp inside the range) and its two accumulating scatters sum over the same edges, each sum started from zero. -/
import proofs.«412787_j352187319219_2_alg».proof.Proof.KI.Val0
import proofs.«412787_j352187319219_2_alg».proof.Proof.KI.Val1
import proofs.«412787_j352187319219_2_alg».proof.Proof.KI.Val2
import proofs.«412787_j352187319219_2_alg».proof.Proof.KI.HostVals
import proofs.«412787_j352187319219_2_alg».proof.Proof.RefValue
import proofs.«412787_j352187319219_2_alg».proof.Proof.Law
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- THE KERNEL'S RESULT AT (n, d): the mean over the edges ending at n of the linear outputs at their source rows. -/
theorem kernel_apply
    (hsrc : ∀ e : Fin 640000, 0 ≤ (aEi m c (ix2 (0 : Fin 2) e)).toInt ∧ (aEi m c (ix2 (0 : Fin 2) e)).toInt < 40000)
    (n : Fin 40000) (d : Fin 128) :
    aV16 m c (ix2 n d)
      = Ideal.div (0 + ∑ e ∈ Finset.univ.filter (fun e : Fin 640000 => (aEi m c (ix2 (1 : Fin 2) e)).toInt = (n.val : Int)),
            ((∑ k : Fin 128, aX m c (ix2 (⟨(aEi m c (ix2 (0 : Fin 2) e)).toInt.toNat, by have := hsrc e; omega⟩ : Fin 40000) k) * aW m c (ix2 d k)) + aB m c (ix1 d)))
          (max (0 + ∑ e ∈ Finset.univ.filter (fun e : Fin 640000 => (aEi m c (ix2 (1 : Fin 2) e)).toInt = (n.val : Int)), (1 : EReal)) 1) := by
  have hn : n.val < 40000 := n.isLt
  -- the message of edge e is the linear output at its source row
  have hmsg : ∀ e : Fin 640000, aV14 m c (ix2 e d)
      = (∑ k : Fin 128, aX m c (ix2 (⟨(aEi m c (ix2 (0 : Fin 2) e)).toInt.toNat, by have := hsrc e; omega⟩ : Fin 40000) k) * aW m c (ix2 d k)) + aB m c (ix1 d) := by
    intro e
    have hs := hsrc e
    rw [U6_v14, o6_apply, U5_v10]
    rw [Cert.Hand.Law.onehot_row (Q := 40960) (by norm_num) _ _ (⟨(aEi m c (ix2 (0 : Fin 2) e)).toInt.toNat, by omega⟩ : Fin 40960) (by
      show (aEi m c (ix2 (0 : Fin 2) e)).toInt = (((aEi m c (ix2 (0 : Fin 2) e)).toInt.toNat : Nat) : Int); omega)]
    rw [U5_v7, if_pos (by show (aEi m c (ix2 (0 : Fin 2) e)).toInt.toNat < 40000; omega), o4_apply, U3_v3]
    congr 1
    refine Finset.sum_congr rfl fun k _ => ?_
    rw [U3_v0, dif_pos (by show (aEi m c (ix2 (0 : Fin 2) e)).toInt.toNat < 40000; omega), U3_v2]
  -- the indicator of "edge e ends at node n", over the edge index pairs
  have hoh : ∀ e : Fin 640000, oh2 m c (⟨n.val, by omega⟩ : Fin 40960) e = if BitVec.ofNat 32 n.val = aEi m c (ix2 (1 : Fin 2) e) then (1 : EReal) else 0 := by
    intro e
    unfold oh2
    rw [U6_v13]
    have : (⟨(⟨e.val / 1280, by have := e.isLt; omega⟩ : Fin 500).val * 1280 + (⟨e.val % 1280, Nat.mod_lt _ (by decide)⟩ : Fin 1280).val, by have := e.isLt; omega⟩ : Fin 640000) = e :=
      Fin.ext (by show e.val / 1280 * 1280 + e.val % 1280 = e.val; omega)
    rw [this]
  rw [U8_v16, o7_apply]
  simp only [hmsg, hoh]
  rw [Cert.Hand.Law.indicator_sum n.val (by omega) (fun e => aEi m c (ix2 (1 : Fin 2) e)), Cert.Hand.Law.indicator_count n.val (by omega) (fun e => aEi m c (ix2 (1 : Fin 2) e)), zero_add, zero_add]

/-- The two programs' results are one array. -/
theorem kernel_value
    (hsrc : ∀ e : Fin 640000, 0 ≤ ((m ((c.tc : Thread nD τ).loc main_arg1) : S2x640000.Idx → BitVec 32) (ix2 (0 : Fin 2) e)).toInt
      ∧ ((m ((c.tc : Thread nD τ).loc main_arg1) : S2x640000.Idx → BitVec 32) (ix2 (0 : Fin 2) e)).toInt < 40000) :
    U8 m c main_v16 = Cert.ReferenceIdeal.Read.val_main_v27 (F := Ideal) (m ((c.tc : Thread nD τ).loc main_arg0))
      (m ((c.tc : Thread nD τ).loc main_arg1)) (m ((c.tc : Thread nD τ).loc main_arg2)) (m ((c.tc : Thread nD τ).loc main_arg3)) := by
  funext i
  obtain ⟨n, d, rfl⟩ : ∃ (n : Fin 40000) (d : Fin 128), i = ix2 n d := ⟨i 0, i 1, eq_ix2 i⟩
  exact (kernel_apply m c hsrc n d).trans
    (Cert.ReferenceIdeal.RefValue.ref_apply (aX m c) (aEi m c) (aW m c) (aB m c) hsrc n d).symm

end Cert.KernelIdeal.Hand

end
-- ==== Proof.PreDecode.lean ====
/- From the printed precondition being all ones: every edge's source index is a node index, 0 ≤ src e < 40000
   (the words read signed). The precondition's last two conjuncts are all(src ≥ 0) and all(src < 40000) over row 0 of the
   [2, 640000] edge array, sliced and reshaped to [640000]; a conjunction that is one has every conjunct one, an
   all-reduction by and that is one had a one at every index, and a signed compare that is one says the inequality of
   the two words as integers. -/
import proofs.«412787_j352187319219_2_alg».proof.Proof.Gen.Pre_finite_inputs
import Idealize.ShloMosaic.Lib.ReduceAll
import Idealize.ShloMosaic.Lib.ValueIdx
import Idealize.ShloMosaic.Lib.Pipeline.Value

set_option maxRecDepth 16384

noncomputable section

namespace Cert.Hand.Pre

open Idealize.ShloMosaic Cert.Pre_finite_inputs

/-- The scalar shape has one index. -/
instance scalarIdx_subsingleton : Subsingleton S_.Idx := ⟨fun a b => funext fun d => d.elim0⟩

/-- Row 0 of the edge array, sliced out and flattened, read at edge e is the array at (0, e): the flattening keeps the
    row-major position, the slice starts at the origin. -/
theorem src_at [Cert.Pre_finite_inputs.Facts] (ei : IVec S2x640000 32) (e : Fin 640000) :
    shapeCast S640000 (extractStridedSlice S1x640000 ![0, 0] ei Facts.slices_S2x640000_S1x640000_0_0)
        Facts.shapeCasts_S1x640000_S640000 (ValueIdx.ix1 e) = ei (ValueIdx.ix2 (0 : Fin 2) e) := by
  refine (shapeCast_apply _ _ (ValueIdx.ix1 e) (ValueIdx.ix2 (0 : Fin 1) e) (by
    rw [Shape.rowMajor_val_two, Shape.rowMajor_val_one]; show 0 * 640000 + e.val = e.val; omega)).trans ?_
  exact extractStridedSlice_apply _ _ _ (ValueIdx.ix2 (0 : Fin 1) e) (ValueIdx.ix2 (0 : Fin 2) e) (by
    intro a
    match a with
    | ⟨0, _⟩ => rfl
    | ⟨1, _⟩ => show e.val = 0 + e.val; omega)

/-- A scalar constant broadcast over the edges is that constant at every edge. -/
theorem bound_at [Cert.Pre_finite_inputs.Facts] (k : BitVec 32) (e : Fin 640000) :
    broadcastInDim S640000 ![] Facts.bcast_S_S640000 (constantI S_ 32 k) (ValueIdx.ix1 e) = k := rfl

theorem toInt_zero : (0#32 : BitVec 32).toInt = 0 := by decide
theorem toInt_nodes : (40000#32 : BitVec 32).toInt = 40000 := by decide

/-- Every edge's source is a node index: from the conjunction, the two all-reductions over the sources at edge e, each
    compare read as an inequality of integers. -/
theorem src_range {F : FTy → Type} [FloatOps F] [Cert.Pre_finite_inputs.Facts] (x : FVec F Cert.Pre_finite_inputs.S40000x128 .f32) (ei : IVec Cert.Pre_finite_inputs.S2x640000 32) (w : FVec F Cert.Pre_finite_inputs.S128x128 .f32) (b : FVec F Cert.Pre_finite_inputs.S128 .f32) (h : Cert.Pre_finite_inputs.fn (F := F) x ei w b = fun _ => 1#1) (e : Fin 640000) : 0 ≤ (ei (Idealize.ShloMosaic.ValueIdx.ix2 (0 : Fin 2) e)).toInt ∧ (ei (Idealize.ShloMosaic.ValueIdx.ix2 (0 : Fin 2) e)).toInt < 40000 := by
  have h0 := congrFun h ValueIdx.ix0
  dsimp only [fn, fn_part1] at h0
  simp only [andi, IntOp.andi_eq_one] at h0
  obtain ⟨⟨-, hge⟩, hlt⟩ := h0
  -- an all-reduction that is one had a one at edge e
  have hge' := Host.reduce_andi_all _ _ _ _ ValueIdx.ix0 hge (ValueIdx.ix1 e)
  have hlt' := Host.reduce_andi_all _ _ _ _ ValueIdx.ix0 hlt (ValueIdx.ix1 e)
  simp only [cmpi] at hge' hlt'
  rw [IntOp.cmpi_sge] at hge'
  rw [IntOp.cmpi_slt] at hlt'
  rw [src_at, bound_at] at hge' hlt'
  exact ⟨by rw [← toInt_zero]; exact hge', by rw [← toInt_nodes]; exact hlt'⟩

end Cert.Hand.Pre

end
-- ==== Proof.lean ====
/- The proof of the certificate's claim for the message-passing layer: a linear layer on every node, a gather of the
   source rows and a scatter-mean onto the destination nodes, each done on the chip as blocked one-hot matrix products,
   against the gather / matmul / segment-sum reference.

   Over the extended reals both programs compute, for every node n < 40000 and channel d,
       ( Σ_{e : dst e = n} ( Σ_k x[src e, k] · W[d, k] + b[d] ) ) / max( #{e : dst e = n}, 1 ),
   when every edge source lies in [0, 40000) — the stated domain: outside it the reference's row gather reads a clamped
   row while the one-hot product reads none. The kernel reaches that value as a one-hot row times the table of linear
   outputs (one term survives), then an indicator-weighted sum over the edges (the sum over the selected edges), each
   accumulated block by block; sums on the extended reals are sums in a commutative monoid with 0 · a = 0, so no
   finiteness of the inputs is used. The three frames are the programs' runs with the values dropped; the one rewrite of
   the idealization (a widening of a narrowing is the identity) is its rule's statement. -/
import proofs.«412787_j352187319219_2_alg».proof.Defs
import proofs.«412787_j352187319219_2_alg».proof.Proof.Gen.Kernel
import proofs.«412787_j352187319219_2_alg».proof.Proof.Gen.Kernel.Skeleton
import proofs.«412787_j352187319219_2_alg».proof.Proof.Gen.Kernel.Launch
import proofs.«412787_j352187319219_2_alg».proof.Proof.Gen.Kernel.Regions
import proofs.«412787_j352187319219_2_alg».proof.Proof.Gen.Kernel.Points
import proofs.«412787_j352187319219_2_alg».proof.Proof.Gen.KernelIdeal
import proofs.«412787_j352187319219_2_alg».proof.Proof.Gen.KernelIdeal.Skeleton
import proofs.«412787_j352187319219_2_alg».proof.Proof.Gen.KernelIdeal.Launch
import proofs.«412787_j352187319219_2_alg».proof.Proof.Gen.KernelIdeal.Regions
import proofs.«412787_j352187319219_2_alg».proof.Proof.Gen.KernelIdeal.Points
import proofs.«412787_j352187319219_2_alg».proof.Proof.Gen.ReferenceIdeal
import proofs.«412787_j352187319219_2_alg».proof.Proof.Gen.ReferenceIdeal.Run
import proofs.«412787_j352187319219_2_alg».proof.Proof.Gen.ReferenceIdeal.Read
import proofs.«412787_j352187319219_2_alg».proof.Proof.Gen.Pre_finite_inputs
import proofs.«412787_j352187319219_2_alg».proof.Proof.KI.Run
import proofs.«412787_j352187319219_2_alg».proof.Proof.KB.Run
import proofs.«412787_j352187319219_2_alg».proof.Proof.KI.KernelValue
import proofs.«412787_j352187319219_2_alg».proof.Proof.PreDecode
import Idealize.ShloMosaic.Adequacy
import Idealize.ShloMosaic.Init

noncomputable section

namespace Cert.Proof

open Idealize.ShloMosaic Idealize.ShloMosaic.TcCoe Idealize.SL.Sem

section Claims
variable [hKernel : Cert.Kernel.Facts] [hKernelIdeal : Cert.KernelIdeal.Facts] [hReferenceIdeal : Cert.ReferenceIdeal.Facts]
  [hPre : Cert.Pre_finite_inputs.Facts]

/-- The word-level kernel's frame: its run with the result's value dropped. -/
theorem frame_k : Cert.frame_Kernel := fun m ρ _ =>
  (θ_run Cert.Kernel.defs _ _).mono (fun _ h c => (h c).2) (Cert.Kernel.Hand.run_main (F := Bits) m ρ)

/-- The idealized kernel's frame: its run with the result's value dropped. -/
theorem frame_ki : Cert.frame_KernelIdeal := fun m ρ _ =>
  (θ_run Cert.KernelIdeal.defs _ _).mono (fun _ h c => (h c).2) (Cert.KernelIdeal.Hand.run_main (F := Ideal) m ρ)

/-- The reference's frame: its run with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the one-hot matrix narrowed to bf16 and widened back is the matrix. -/
theorem preserves : Cert.preserves_Kernel_KernelIdeal :=
  IdealRules.truncf_extf.statement Cert.KernelIdeal.S2048x1280 .f32 .bf16

/-- Under the precondition every edge source lies in [0, 40000): the predicate's last two conjuncts, decoded. -/
theorem src_range_of_pre (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 640000) :
    0 ≤ ((m ((c.tc : Thread Cert.KernelIdeal.nD Cert.KernelIdeal.τ).loc Cert.KernelIdeal.main_arg1) : Cert.KernelIdeal.S2x640000.Idx → BitVec 32) (ValueIdx.ix2 (0 : Fin 2) e)).toInt
      ∧ ((m ((c.tc : Thread Cert.KernelIdeal.nD Cert.KernelIdeal.τ).loc Cert.KernelIdeal.main_arg1) : Cert.KernelIdeal.S2x640000.Idx → BitVec 32) (ValueIdx.ix2 (0 : Fin 2) e)).toInt < 40000 :=
  Cert.Hand.Pre.src_range (F := Ideal) _ _ _ _ (hpre c) e

/-- Both runs end with the reference's result term of the kernel's arguments: the kernel by its run and its value,
    the reference by its generated run, the arguments' agreement rewritten. -/
theorem algebraic : Cert.algebraic_KernelIdeal_ReferenceIdeal := by
  intro m ρ m' ρ' hpre hagree
  refine ⟨fun c => Cert.ReferenceIdeal.Read.val_main_v27 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m c (src_range_of_pre m hpre c)), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v27_eq, (hagree c).1, (hagree c).2.1, (hagree c).2.2.1, (hagree c).2.2.2]

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
